-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg14 : FVec F S4096 .f32) (main_arg15 : FVec F S4096x1024 .f32) (main_arg16 : FVec F S1024 .f32) (main_v63 : IVec S_ 1) (main_v67 : IVec S_ 1) : IVec S_ 1 :=
  let main_v68 : IVec S_ 1 := andi main_v63 main_v67
  let main_v69 : FVec F S4096 .f32 := Host.absf main_arg14
  let main_cst_26 : FVec F S_ .f32 := constant S_ .f32 0x7F800000#32
  let main_v70 : FVec F S4096 .f32 := broadcastInDim S4096 ![] bcast_S_S4096 main_cst_26
  let main_v71 : IVec S4096 1 := cmpf .olt main_v69 main_v70
  let main_c_27 : IVec S_ 1 := constantI S_ 1 1#1
  let main_v72 : IVec S_ 1 := (fun x v => Host.reduce IntOp.andi x v reducesTo_S4096_S_d0 h_S_) main_v71 main_c_27
  let main_v73 : IVec S_ 1 := andi main_v68 main_v72
  let main_v74 : FVec F S4096x1024 .f32 := Host.absf main_arg15
  let main_cst_28 : FVec F S_ .f32 := constant S_ .f32 0x7F800000#32
  let main_v75 : FVec F S4096x1024 .f32 := broadcastInDim S4096x1024 ![] bcast_S_S4096x1024 main_cst_28
  let main_v76 : IVec S4096x1024 1 := cmpf .olt main_v74 main_v75
  let main_c_29 : IVec S_ 1 := constantI S_ 1 1#1
  let main_v77 : IVec S_ 1 := (fun x v => Host.reduce IntOp.andi x v reducesTo_S4096x1024_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  main_v83

def fn_part3 {F : FTy → Type} [FloatOps F] (main_arg11 : FVec F S4096x1024 .f32) (main_arg12 : FVec F S1024 .f32) (main_arg13 : FVec F S1024x4096 .f32) (main_arg14 : FVec F S4096 .f32) (main_arg15 : FVec F S4096x1024 .f32) (main_arg16 : FVec F S1024 .f32) (main_v48 : IVec S_ 1) (main_v49 : FVec F S4096 .f32) (main_v50 : FVec F S4096 .f32) : IVec S_ 1 :=
  let main_v51 : IVec S4096 1 := cmpf .olt main_v49 main_v50
  let main_c_19 : IVec S_ 1 := constantI S_ 1 1#1
  let main_v52 : IVec S_ 1 := (fun x v => Host.reduce IntOp.andi x v reducesTo_S4096_S_d0 h_S_) main_v51 main_c_19
  let main_v53 : IVec S_ 1 := andi main_v48 main_v52
  let main_v54 : FVec F S4096x1024 .f32 := Host.absf main_arg11
  let main_cst_20 : FVec F S_ .f32 := constant S_ .f32 0x7F800000#32
  let main_v55 : FVec F S4096x1024 .f32 := broadcastInDim S4096x1024 ![] bcast_S_S4096x1024 main_cst_20
  let main_v56 : IVec S4096x1024 1 := cmpf .olt main_v54 main_v55
  let main_c_21 : IVec S_ 1 := constantI S_ 1 1#1
  let main_v57 : IVec S_ 1 := (fun x v => Host.reduce IntOp.andi x v reducesTo_S4096x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x4096 .f32 := Host.absf main_arg13
  let main_cst_24 : FVec F S_ .f32 := constant S_ .f32 0x7F800000#32
  let main_v65 : FVec F S1024x4096 .f32 := broadcastInDim S1024x4096 ![] bcast_S_S1024x4096 main_cst_24
  let main_v66 : IVec S1024x4096 1 := cmpf .olt main_v64 main_v65
  let main_c_25 : IVec S_ 1 := constantI S_ 1 1#1
  let main_v67 : IVec S_ 1 := (fun x v => Host.reduce IntOp.andi x v reducesTo_S1024x4096_S_d0_1 h_S_) main_v66 main_c_25
  fn_part4 (F := F) main_arg14 main_arg15 main_arg16 main_v63 main_v67

def fn_part2 {F : FTy → Type} [FloatOps F] (main_arg7 : FVec F S4096x1024 .f32) (main_arg8 : FVec F S1024 .f32) (main_arg9 : FVec F S1024x4096 .f32) (main_arg10 : FVec F S4096 .f32) (main_arg11 : FVec F S4096x1024 .f32) (main_arg12 : FVec F S1024 .f32) (main_arg13 : FVec F S1024x4096 .f32) (main_arg14 : FVec F S4096 .f32) (main_arg15 : FVec F S4096x1024 .f32) (main_arg16 : FVec F S1024 .f32) (main_v33 : IVec S_ 1) : IVec S_ 1 :=
  let main_v34 : FVec F S4096x1024 .f32 := Host.absf main_arg7
  let main_cst_12 : FVec F S_ .f32 := constant S_ .f32 0x7F800000#32
  let main_v35 : FVec F S4096x1024 .f32 := broadcastInDim S4096x1024 ![] bcast_S_S4096x1024 main_cst_12
  let main_v36 : IVec S4096x1024 1 := cmpf .olt main_v34 main_v35
  let main_c_13 : IVec S_ 1 := constantI S_ 1 1#1
  let main_v37 : IVec S_ 1 := (fun x v => Host.reduce IntOp.andi x v reducesTo_S4096x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x4096 .f32 := Host.absf main_arg9
  let main_cst_16 : FVec F S_ .f32 := constant S_ .f32 0x7F800000#32
  let main_v45 : FVec F S1024x4096 .f32 := broadcastInDim S1024x4096 ![] bcast_S_S1024x4096 main_cst_16
  let main_v46 : IVec S1024x4096 1 := cmpf .olt main_v44 main_v45
  let main_c_17 : IVec S_ 1 := constantI S_ 1 1#1
  let main_v47 : IVec S_ 1 := (fun x v => Host.reduce IntOp.andi x v reducesTo_S1024x4096_S_d0_1 h_S_) main_v46 main_c_17
  let main_v48 : IVec S_ 1 := andi main_v43 main_v47
  let main_v49 : FVec F S4096 .f32 := Host.absf main_arg10
  let main_cst_18 : FVec F S_ .f32 := constant S_ .f32 0x7F800000#32
  let main_v50 : FVec F S4096 .f32 := broadcastInDim S4096 ![] bcast_S_S4096 main_cst_18
  fn_part3 (F := F) main_arg11 main_arg12 main_arg13 main_arg14 main_arg15 main_arg16 main_v48 main_v49 main_v50

def fn_part1 {F : FTy → Type} [FloatOps F] (main_arg4 : FVec F S1024 .f32) (main_arg5 : FVec F S1024x4096 .f32) (main_arg6 : FVec F S4096 .f32) (main_arg7 : FVec F S4096x1024 .f32) (main_arg8 : FVec F S1024 .f32) (main_arg9 : FVec F S1024x4096 .f32) (main_arg10 : FVec F S4096 .f32) (main_arg11 : FVec F S4096x1024 .f32) (main_arg12 : FVec F S1024 .f32) (main_arg13 : FVec F S1024x4096 .f32) (main_arg14 : FVec F S4096 .f32) (main_arg15 : FVec F S4096x1024 .f32) (main_arg16 : FVec F S1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x4096 .f32 := Host.absf main_arg5
  let main_cst_8 : FVec F S_ .f32 := constant S_ .f32 0x7F800000#32
  let main_v25 : FVec F S1024x4096 .f32 := broadcastInDim S1024x4096 ![] bcast_S_S1024x4096 main_cst_8
  let main_v26 : IVec S1024x4096 1 := cmpf .olt main_v24 main_v25
  let main_c_9 : IVec S_ 1 := constantI S_ 1 1#1
  let main_v27 : IVec S_ 1 := (fun x v => Host.reduce IntOp.andi x v reducesTo_S1024x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S8192x2048 .f32) (main_arg1 : FVec F S1024x4096 .f32) (main_arg2 : FVec F S4096 .f32) (main_arg3 : FVec F S4096x1024 .f32) (main_arg4 : FVec F S1024 .f32) (main_arg5 : FVec F S1024x4096 .f32) (main_arg6 : FVec F S4096 .f32) (main_arg7 : FVec F S4096x1024 .f32) (main_arg8 : FVec F S1024 .f32) (main_arg9 : FVec F S1024x4096 .f32) (main_arg10 : FVec F S4096 .f32) (main_arg11 : FVec F S4096x1024 .f32) (main_arg12 : FVec F S1024 .f32) (main_arg13 : FVec F S1024x4096 .f32) (main_arg14 : FVec F S4096 .f32) (main_arg15 : FVec F S4096x1024 .f32) (main_arg16 : FVec F S1024 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S8192x2048 : Shape := ⟨2, ![8192, 2048]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S8192x1024 : Shape := ⟨2, ![8192, 1024]⟩
abbrev S8192x1 : Shape := ⟨2, ![8192, 1]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩
abbrev S512x512 : Shape := ⟨2, ![512, 512]⟩
abbrev S1x512 : Shape := ⟨2, ![1, 512]⟩
abbrev S1x1024 : Shape := ⟨2, ![1, 1024]⟩
abbrev S8192 : Shape := ⟨1, ![8192]⟩

abbrev nBuf : Space → Nat
  | .hbm => 35
  | .vmem => 48
  | .smem => 0
  | _ => 0

abbrev bufTy : (tb : Table) → Fin (tcTables nBuf tb) → BufTy
  | .hbm, ⟨0, _⟩ => ⟨S8192x2048, .f32⟩
  | .hbm, ⟨1, _⟩ => ⟨S1024x4096, .f32⟩
  | .hbm, ⟨2, _⟩ => ⟨S4096, .f32⟩
  | .hbm, ⟨3, _⟩ => ⟨S4096x1024, .f32⟩
  | .hbm, ⟨4, _⟩ => ⟨S1024, .f32⟩
  | .hbm, ⟨5, _⟩ => ⟨S1024x4096, .f32⟩
  | .hbm, ⟨6, _⟩ => ⟨S4096, .f32⟩
  | .hbm, ⟨7, _⟩ => ⟨S4096x1024, .f32⟩
  | .hbm, ⟨8, _⟩ => ⟨S1024, .f32⟩
  | .hbm, ⟨9, _⟩ => ⟨S1024x4096, .f32⟩
  | .hbm, ⟨10, _⟩ => ⟨S4096, .f32⟩
  | .hbm, ⟨11, _⟩ => ⟨S4096x1024, .f32⟩
  | .hbm, ⟨12, _⟩ => ⟨S1024, .f32⟩
  | .hbm, ⟨13, _⟩ => ⟨S1024x4096, .f32⟩
  | .hbm, ⟨14, _⟩ => ⟨S4096, .f32⟩
  | .hbm, ⟨15, _⟩ => ⟨S4096x1024, .f32⟩
  | .hbm, ⟨16, _⟩ => ⟨S1024, .f32⟩
  | .hbm, ⟨17, _⟩ => ⟨S8192x1024, .f32⟩
  | .hbm, ⟨18, _⟩ => ⟨S8192x1024, .f32⟩
  | .hbm, ⟨19, _⟩ => ⟨S1024x4096, .bf16⟩
  | .hbm, ⟨20, _⟩ => ⟨S4096x1024, .bf16⟩
  | .hbm, ⟨21, _⟩ => ⟨S1024x4096, .bf16⟩
  | .hbm, ⟨22, _⟩ => ⟨S4096x1024, .bf16⟩
  | .hbm, ⟨23, _⟩ => ⟨S8192x1024, .f32⟩
  | .hbm, ⟨24, _⟩ => ⟨S8192x1, .f32⟩
  | .hbm, ⟨25, _⟩ => ⟨S1024x4096, .bf16⟩
  | .hbm, ⟨26, _⟩ => ⟨S4096x1024, .bf16⟩
  | .hbm, ⟨27, _⟩ => ⟨S1024x4096, .bf16⟩
  | .hbm, ⟨28, _⟩ => ⟨S4096x1024, .bf16⟩
  | .hbm, ⟨29, _⟩ => ⟨S8192x1024, .f32⟩
  | .hbm, ⟨30, _⟩ => ⟨S8192x1, .f32⟩
  | .hbm, ⟨31, _⟩ => ⟨S8192x2048, .f32⟩
  | .hbm, ⟨32, _⟩ => ⟨S8192, .f32⟩
  | .hbm, ⟨33, _⟩ => ⟨S8192, .f32⟩
  | .hbm, ⟨34, _⟩ => ⟨S8192, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x512, .bf16⟩
  | .local _ .vmem, ⟨5, _⟩ => ⟨S1024x512, .bf16⟩
  | .local _ .vmem, ⟨6, _⟩ => ⟨S512, .f32⟩
  | .local _ .vmem, ⟨7, _⟩ => ⟨S512, .f32⟩
  | .local _ .vmem, ⟨8, _⟩ => ⟨S512x1024, .bf16⟩
  | .local _ .vmem, ⟨9, _⟩ => ⟨S512x1024, .bf16⟩
  | .local _ .vmem, ⟨10, _⟩ => ⟨S1024, .f32⟩
  | .local _ .vmem, ⟨11, _⟩ => ⟨S1024x512, .bf16⟩
  | .local _ .vmem, ⟨12, _⟩ => ⟨S1024x512, .bf16⟩
  | .local _ .vmem, ⟨13, _⟩ => ⟨S512, .f32⟩
  | .local _ .vmem, ⟨14, _⟩ => ⟨S512, .f32⟩
  | .local _ .vmem, ⟨15, _⟩ => ⟨S512x1024, .bf16⟩
  | .local _ .vmem, ⟨16, _⟩ => ⟨S512x1024, .bf16⟩
  | .local _ .vmem, ⟨17, _⟩ => ⟨S1024, .f32⟩
  | .local _ .vmem, ⟨18, _⟩ => ⟨S512x1024, .f32⟩
  | .local _ .vmem, ⟨19, _⟩ => ⟨S512x1024, .f32⟩
  | .local _ .vmem, ⟨20, _⟩ => ⟨S512x1, .f32⟩
  | .local _ .vmem, ⟨21, _⟩ => ⟨S512x1, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .f32⟩
  | .local _ .vmem, ⟨28, _⟩ => ⟨S1024x512, .bf16⟩
  | .local _ .vmem, ⟨29, _⟩ => ⟨S1024x512, .bf16⟩
  | .local _ .vmem, ⟨30, _⟩ => ⟨S512, .f32⟩
  | .local _ .vmem, ⟨31, _⟩ => ⟨S512, .f32⟩
  | .local _ .vmem, ⟨32, _⟩ => ⟨S512x1024, .bf16⟩
  | .local _ .vmem, ⟨33, _⟩ => ⟨S512x1024, .bf16⟩
  | .local _ .vmem, ⟨34, _⟩ => ⟨S1024, .f32⟩
  | .local _ .vmem, ⟨35, _⟩ => ⟨S1024x512, .bf16⟩
  | .local _ .vmem, ⟨36, _⟩ => ⟨S1024x512, .bf16⟩
  | .local _ .vmem, ⟨37, _⟩ => ⟨S512, .f32⟩
  | .local _ .vmem, ⟨38, _⟩ => ⟨S512, .f32⟩
  | .local _ .vmem, ⟨39, _⟩ => ⟨S512x1024, .bf16⟩
  | .local _ .vmem, ⟨40, _⟩ => ⟨S512x1024, .bf16⟩
  | .local _ .vmem, ⟨41, _⟩ => ⟨S1024, .f32⟩
  | .local _ .vmem, ⟨42, _⟩ => ⟨S512x1024, .f32⟩
  | .local _ .vmem, ⟨43, _⟩ => ⟨S512x1024, .f32⟩
  | .local _ .vmem, ⟨44, _⟩ => ⟨S512x1, .f32⟩
  | .local _ .vmem, ⟨45, _⟩ => ⟨S512x1, .f32⟩
  | .local _ .vmem, ⟨46, _⟩ => ⟨S512x1024, .f32⟩
  | .local _ .vmem, ⟨47, _⟩ => ⟨S512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6_0 : Ref sig .tc := ⟨.hbm, 23, rfl⟩
abbrev main_v6_1 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11_0 : Ref sig .tc := ⟨.hbm, 29, rfl⟩
abbrev main_v11_1 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc1_stg0_0 : Ref sig .tc := ⟨.vmem, 24, rfl⟩
abbrev cc1_stg0_1 : Ref sig .tc := ⟨.vmem, 25, rfl⟩
abbrev cc1_stg1_0 : Ref sig .tc := ⟨.vmem, 26, rfl⟩
abbrev cc1_stg1_1 : Ref sig .tc := ⟨.vmem, 27, rfl⟩
abbrev cc1_stg2_0 : Ref sig .tc := ⟨.vmem, 28, rfl⟩
abbrev cc1_stg2_1 : Ref sig .tc := ⟨.vmem, 29, rfl⟩
abbrev cc1_stg3_0 : Ref sig .tc := ⟨.vmem, 30, rfl⟩
abbrev cc1_stg3_1 : Ref sig .tc := ⟨.vmem, 31, rfl⟩
abbrev cc1_stg4_0 : Ref sig .tc := ⟨.vmem, 32, rfl⟩
abbrev cc1_stg4_1 : Ref sig .tc := ⟨.vmem, 33, rfl⟩
abbrev cc1_stg5_0 : Ref sig .tc := ⟨.vmem, 34, rfl⟩
abbrev cc1_stg6_0 : Ref sig .tc := ⟨.vmem, 35, rfl⟩
abbrev cc1_stg6_1 : Ref sig .tc := ⟨.vmem, 36, rfl⟩
abbrev cc1_stg7_0 : Ref sig .tc := ⟨.vmem, 37, rfl⟩
abbrev cc1_stg7_1 : Ref sig .tc := ⟨.vmem, 38, rfl⟩
abbrev cc1_stg8_0 : Ref sig .tc := ⟨.vmem, 39, rfl⟩
abbrev cc1_stg8_1 : Ref sig .tc := ⟨.vmem, 40, rfl⟩
abbrev cc1_stg9_0 : Ref sig .tc := ⟨.vmem, 41, rfl⟩
abbrev cc1_stg10_0 : Ref sig .tc := ⟨.vmem, 42, rfl⟩
abbrev cc1_stg10_1 : Ref sig .tc := ⟨.vmem, 43, rfl⟩
abbrev cc1_stg11_0 : Ref sig .tc := ⟨.vmem, 44, rfl⟩
abbrev cc1_stg11_1 : Ref sig .tc := ⟨.vmem, 45, rfl⟩
abbrev cc1_scratch0 : Ref sig .tc := ⟨.vmem, 46, rfl⟩
abbrev cc1_scratch1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem3_1 : DmaSem sig := 29
abbrev cc1_sem4_0 : DmaSem sig := 30
abbrev cc1_sem4_1 : DmaSem sig := 31
abbrev cc1_sem5_0 : DmaSem sig := 32
abbrev cc1_sem6_0 : DmaSem sig := 33
abbrev cc1_sem6_1 : DmaSem sig := 34
abbrev cc1_sem7_0 : DmaSem sig := 35
abbrev cc1_sem7_1 : DmaSem sig := 36
abbrev cc1_sem8_0 : DmaSem sig := 37
abbrev cc1_sem8_1 : DmaSem sig := 38
abbrev cc1_sem9_0 : DmaSem sig := 39
abbrev cc1_sem10_0 : DmaSem sig := 40
abbrev cc1_sem10_1 : DmaSem sig := 41
abbrev cc1_sem11_0 : DmaSem sig := 42
abbrev cc1_sem11_1 : DmaSem sig := 43

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v42 : BitVec 1 := Scalar.cmpi .eq arg1 c7_i32
  let v43 : BitVec 32 := Scalar.extui v42
  let c0_i32_25 : BitVec 32 := 0#32
  let v44 : BitVec 1 := Scalar.cmpi .ne v43 c0_i32_25
  v44

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev grid1 : Pipeline.Grid := ⟨2, ![16, 8], ![false, false]⟩

def k1_cond2 (i : grid1.Coords) : BitVec 1 :=
  let arg1 : BitVec 32 := BitVec.ofNat 32 (i 1).val
  let c7_i32 : BitVec 32 := 7#32
  let v42 : BitVec 1 := Scalar.cmpi .eq arg1 c7_i32
  let v43 : BitVec 32 := Scalar.extui v42
  let c0_i32_25 : BitVec 32 := 0#32
  let v44 : BitVec 1 := Scalar.cmpi .ne v43 c0_i32_25
  v44

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_7 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_9 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 1 → Memref sig .tc .vmem S1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1024x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![false, true]

abbrev stage1_8 : Fin 2 → Memref sig .tc .vmem S512x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![false, true]

abbrev stage1_9 : Fin 1 → Memref sig .tc .vmem S1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 2 → Memref sig .tc .vmem S512x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

abbrev stage1_11 : Fin 2 → Memref sig .tc .vmem S512x1 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

class Facts₀ : Prop where
  slices_S8192x2048_S8192x1024_0_0 : S8192x2048.Slices ![0, 0] S8192x1024
  slices_S8192x2048_S8192x1024_0_1024 : S8192x2048.Slices ![0, 1024] S8192x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  reduces_S512x1024_S512 : S512x1024.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  concatenates_S8192x1024_S8192x1024_S8192x2048_d1 : Shape.Concatenates [S8192x1024, S8192x1024] S8192x2048 1
  shapeCasts_S8192x1_S8192 : S8192x1.ShapeCasts S8192
  dot_S512x1024_S1024x512_S512x512_1_0_0_1_n_n_wf : DotDims.WF S512x1024 S1024x512 S512x512 [1] [0] [0] [1] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .f32 = 32 ∨ (Rect.block (s := S8192x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x4096.size a
  hwx0_2 : ∀ i : grid0.Coords, EltTy.bits .bf16 = 32 ∨ (Rect.block (s := S1024x4096) S1024x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S4096.size a
  hwx0_3 : ∀ i : grid0.Coords, EltTy.bits .f32 = 32 ∨ (Rect.block (s := S4096) S512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S4096x1024.size a
  hwx0_4 : ∀ i : grid0.Coords, EltTy.bits .bf16 = 32 ∨ (Rect.block (s := S4096x1024) S512x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S1024x4096.size a
  hwx0_6 : ∀ i : grid0.Coords, EltTy.bits .bf16 = 32 ∨ (Rect.block (s := S1024x4096) S1024x512.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S4096.size a
  hwx0_7 : ∀ i : grid0.Coords, EltTy.bits .f32 = 32 ∨ (Rect.block (s := S4096) S512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S4096x1024.size a
  hwx0_8 : ∀ i : grid0.Coords, EltTy.bits .bf16 = 32 ∨ (Rect.block (s := S4096x1024) S512x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024.size a ≤ S1024.size a
  hwx0_9 : ∀ i : grid0.Coords, EltTy.bits .f32 = 32 ∨ (Rect.block (s := S1024) S1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x1024.size a ≤ S8192x1024.size a
  hwx0_10 : ∀ i : grid0.Coords, EltTy.bits .f32 = 32 ∨ (Rect.block (s := S8192x1024) S512x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x1.size a ≤ S8192x1.size a
  hwx0_11 : ∀ i : grid0.Coords, EltTy.bits .f32 = 32 ∨ (Rect.block (s := S8192x1) S512x1.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x1024.size a
  hwx1_0 : ∀ i : grid1.Coords, EltTy.bits .f32 = 32 ∨ (Rect.block (s := S8192x1024) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S8192x1024.size a
  hwx1_1 : ∀ i : grid1.Coords, EltTy.bits .f32 = 32 ∨ (Rect.block (s := S8192x1024) S512x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S1024x4096.size a
  hwx1_2 : ∀ i : grid1.Coords, EltTy.bits .bf16 = 32 ∨ (Rect.block (s := S1024x4096) S1024x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512.size a ≤ S4096.size a
  hwx1_3 : ∀ i : grid1.Coords, EltTy.bits .f32 = 32 ∨ (Rect.block (s := S4096) S512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1024.size a ≤ S4096x1024.size a
  hwx1_4 : ∀ i : grid1.Coords, EltTy.bits .bf16 = 32 ∨ (Rect.block (s := S4096x1024) S512x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024.size a ≤ S1024.size a
  hwx1_5 : ∀ i : grid1.Coords, EltTy.bits .f32 = 32 ∨ (Rect.block (s := S1024) S1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x512.size a ≤ S1024x4096.size a
  hwx1_6 : ∀ i : grid1.Coords, EltTy.bits .bf16 = 32 ∨ (Rect.block (s := S1024x4096) S1024x512.size (cc1_transform_6 i) (hinb1_6 i)).WholeWords (EltTy.packing .bf16)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512.size a ≤ S4096.size a
  hwx1_7 : ∀ i : grid1.Coords, EltTy.bits .f32 = 32 ∨ (Rect.block (s := S4096) S512.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S512x1024.size a ≤ S4096x1024.size a
  hwx1_8 : ∀ i : grid1.Coords, EltTy.bits .bf16 = 32 ∨ (Rect.block (s := S4096x1024) S512x1024.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1024.size a ≤ S1024.size a
  hwx1_9 : ∀ i : grid1.Coords, EltTy.bits .f32 = 32 ∨ (Rect.block (s := S1024) S1024.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S512x1024.size a ≤ S8192x1024.size a
  hwx1_10 : ∀ i : grid1.Coords, EltTy.bits .f32 = 32 ∨ (Rect.block (s := S8192x1024) S512x1024.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S512x1.size a ≤ S8192x1.size a
  hwx1_11 : ∀ i : grid1.Coords, EltTy.bits .f32 = 32 ∨ (Rect.block (s := S8192x1) S512x1.size (cc1_transform_11 i) (hinb1_11 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1024x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v5) S512x1024.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v6_0) S512x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v6_1) S512x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | 11 => fun i => !(k0_cond2 i == 1#1) | ⟨_ + 12, h⟩ => absurd h (Nat.not_lt.2 (Nat.le_add_left _ _))

abbrev win1_0 : Pipeline.Window sig grid1 :=
  Pipeline.Window.ofSpec (Memref.whole main_v6_0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1024x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8) S512x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v9) S1024x512.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_arg14) S512.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v10) S512x1024.size cc1_transform_8 reads1_8 false false 2 stage1_8 sem1_8
    hrank1 hreads1_8 hinb1_8 nbuf1_8 (Memref.isWhole_whole _) hwx1_8 hstage1_8

abbrev win1_9 : Pipeline.Window sig grid1 :=
  Pipeline.Window.ofSpec (Memref.whole main_arg16) S1024.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v11_0) S512x1024.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v11_1) S512x1.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev idle1 : Fin 12 → grid1.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k1_cond2 i == 1#1) | 11 => fun i => !(k1_cond2 i == 1#1) | ⟨_ + 12, h⟩ => absurd h (Nat.not_lt.2 (Nat.le_add_left _ _))

class Facts : Prop extends Facts₀ where

variable [Facts]
-- ==== ReferenceIdeal.lean ====
abbrev S8192x2048 : Shape := ⟨2, ![8192, 2048]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S8192x1024 : Shape := ⟨2, ![8192, 1024]⟩
abbrev S8192x4096 : Shape := ⟨2, ![8192, 4096]⟩
abbrev S1x4096 : Shape := ⟨2, ![1, 4096]⟩
abbrev S_ : Shape := ⟨0, ![]⟩
abbrev S1x1024 : Shape := ⟨2, ![1, 1024]⟩
abbrev S8192 : Shape := ⟨1, ![8192]⟩

abbrev nBuf : Space → Nat
  | .hbm => 83
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1024x4096, .f32⟩
  | .hbm, ⟨2, _⟩ => ⟨S4096, .f32⟩
  | .hbm, ⟨3, _⟩ => ⟨S4096x1024, .f32⟩
  | .hbm, ⟨4, _⟩ => ⟨S1024, .f32⟩
  | .hbm, ⟨5, _⟩ => ⟨S1024x4096, .f32⟩
  | .hbm, ⟨6, _⟩ => ⟨S4096, .f32⟩
  | .hbm, ⟨7, _⟩ => ⟨S4096x1024, .f32⟩
  | .hbm, ⟨8, _⟩ => ⟨S1024, .f32⟩
  | .hbm, ⟨9, _⟩ => ⟨S1024x4096, .f32⟩
  | .hbm, ⟨10, _⟩ => ⟨S4096, .f32⟩
  | .hbm, ⟨11, _⟩ => ⟨S4096x1024, .f32⟩
  | .hbm, ⟨12, _⟩ => ⟨S1024, .f32⟩
  | .hbm, ⟨13, _⟩ => ⟨S1024x4096, .f32⟩
  | .hbm, ⟨14, _⟩ => ⟨S4096, .f32⟩
  | .hbm, ⟨15, _⟩ => ⟨S4096x1024, .f32⟩
  | .hbm, ⟨16, _⟩ => ⟨S1024, .f32⟩
  | .hbm, ⟨17, _⟩ => ⟨S8192x1024, .f32⟩
  | .hbm, ⟨18, _⟩ => ⟨S8192x1024, .f32⟩
  | .hbm, ⟨19, _⟩ => ⟨S8192x4096, .f32⟩
  | .hbm, ⟨20, _⟩ => ⟨S1x4096, .f32⟩
  | .hbm, ⟨21, _⟩ => ⟨S8192x4096, .f32⟩
  | .hbm, ⟨22, _⟩ => ⟨S8192x4096, .f32⟩
  | .hbm, ⟨23, _⟩ => ⟨S_, .f32⟩
  | .hbm, ⟨24, _⟩ => ⟨S8192x4096, .f32⟩
  | .hbm, ⟨25, _⟩ => ⟨S8192x4096, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x4096, .f32⟩
  | .hbm, ⟨35, _⟩ => ⟨S1x4096, .f32⟩
  | .hbm, ⟨36, _⟩ => ⟨S8192x4096, .f32⟩
  | .hbm, ⟨37, _⟩ => ⟨S8192x4096, .f32⟩
  | .hbm, ⟨38, _⟩ => ⟨S_, .f32⟩
  | .hbm, ⟨39, _⟩ => ⟨S8192x4096, .f32⟩
  | .hbm, ⟨40, _⟩ => ⟨S8192x4096, .f32⟩
  | .hbm, ⟨41, _⟩ => ⟨S8192x1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x4096, .f32⟩
  | .hbm, ⟨49, _⟩ => ⟨S1x4096, .f32⟩
  | .hbm, ⟨50, _⟩ => ⟨S8192x4096, .f32⟩
  | .hbm, ⟨51, _⟩ => ⟨S8192x4096, .f32⟩
  | .hbm, ⟨52, _⟩ => ⟨S_, .f32⟩
  | .hbm, ⟨53, _⟩ => ⟨S8192x4096, .f32⟩
  | .hbm, ⟨54, _⟩ => ⟨S8192x4096, .f32⟩
  | .hbm, ⟨55, _⟩ => ⟨S8192x1024, .f32⟩
  | .hbm, ⟨56, _⟩ => ⟨S1x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S8192x1024, .f32⟩
  | .hbm, ⟨62, _⟩ => ⟨S8192x1024, .f32⟩
  | .hbm, ⟨63, _⟩ => ⟨S8192x4096, .f32⟩
  | .hbm, ⟨64, _⟩ => ⟨S1x4096, .f32⟩
  | .hbm, ⟨65, _⟩ => ⟨S8192x4096, .f32⟩
  | .hbm, ⟨66, _⟩ => ⟨S8192x4096, .f32⟩
  | .hbm, ⟨67, _⟩ => ⟨S_, .f32⟩
  | .hbm, ⟨68, _⟩ => ⟨S8192x4096, .f32⟩
  | .hbm, ⟨69, _⟩ => ⟨S8192x4096, .f32⟩
  | .hbm, ⟨70, _⟩ => ⟨S8192x1024, .f32⟩
  | .hbm, ⟨71, _⟩ => ⟨S1x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x2048, .f32⟩
  | .hbm, ⟨78, _⟩ => ⟨S_, .f32⟩
  | .hbm, ⟨79, _⟩ => ⟨S8192, .f32⟩
  | .hbm, ⟨80, _⟩ => ⟨S_, .f32⟩
  | .hbm, ⟨81, _⟩ => ⟨S8192, .f32⟩
  | .hbm, ⟨82, _⟩ => ⟨S8192, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_0 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_1 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_2 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_3 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_4 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_5 : Ref sig .tc := ⟨.hbm, 78, rfl⟩
abbrev main_v55 : Ref sig .tc := ⟨.hbm, 79, rfl⟩
abbrev main_cst_6 : Ref sig .tc := ⟨.hbm, 80, rfl⟩
abbrev main_v56 : Ref sig .tc := ⟨.hbm, 81, rfl⟩
abbrev main_v57 : Ref sig .tc := ⟨.hbm, 82, rfl⟩

abbrev nD : Nat := 1
abbrev τ : Topo := Topo.v7x

variable {F : FTy → Type} [FloatOps F]

class Facts₀ : Prop where
  slices_S8192x2048_S8192x1024_0_0 : S8192x2048.Slices ![0, 0] S8192x1024
  slices_S8192x2048_S8192x1024_0_1024 : S8192x2048.Slices ![0, 1024] S8192x1024
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  concatenates_S8192x1024_S8192x1024_S8192x2048_d1 : Shape.Concatenates [S8192x1024, S8192x1024] S8192x2048 1
  reducesTo_S8192x1024_S8192_d1 : S8192x1024.ReducesTo [1] S8192
  h_S_ : 0 < S_.numel
  dot_S8192x1024_S1024x4096_S8192x4096_1_0_0_1_n_n_wf : DotDims.WF S8192x1024 S1024x4096 S8192x4096 [1] [0] [0] [1] [] []
  dot_S8192x4096_S4096x1024_S8192x1024_1_0_0_1_n_n_wf : DotDims.WF S8192x4096 S4096x1024 S8192x1024 [1] [0] [0] [1] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf
def dot_S8192x4096_S4096x1024_S8192x1024_1_0_0_1_n_n : DotDims S8192x4096 S4096x1024 S8192x1024 where
  lhsContracting := [1]
  rhsContracting := [0]
  lhsNonContracting := [0]
  rhsNonContracting := [1]
  lhsBatch := []
  rhsBatch := []
  wf := dot_S8192x4096_S4096x1024_S8192x1024_1_0_0_1_n_n_wf

class Facts : Prop extends Facts₀ where

variable [Facts]
-- ==== Proof.K.Base0.lean ====
import proofs.«142033_j33071248180131_1_alg».proof.Proof.Gen.Kernel.Launch
import proofs.«142033_j33071248180131_1_alg».proof.Proof.Gen.Kernel.Skeleton
import proofs.«142033_j33071248180131_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

/-!
# The first half-step's region: what its three kinds of grid point share

The grid is 16 row blocks by 8 hidden tiles, walked row block by row block. Along a row block the
kernel keeps two accumulators (one per perceptron) in scratch: the tile `h = 0` clears them, every tile
adds its partial product, and the tile `h = 7` adds the output biases and writes the updated half and
the log-determinant column. So a point is of one of three kinds, told apart by `t mod 8`:
`0` (clear, then accumulate), `1..6` (accumulate), `7` (accumulate, then write the two outputs).
The output windows are idle, and not written back, at the points that store nothing into them.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, fetched there or not
    (a window is only left unfetched while its block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-! ## The two branch conditions, in closed form over the grid -/

/-- The accumulators are cleared: the hidden-tile coordinate is zero. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The outputs are written: the hidden-tile coordinate is the last. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
theorem idleAt0_10 : ∀ t : Fin cfg0.N, ¬cond0_1 (grid0.coords t) → cfg0.idle 10 (grid0.coords t) = true := by decide +kernel
theorem noFlush0_10 : ∀ t : Fin cfg0.N, ¬cond0_1 (grid0.coords t) → (cfg0.win 10).flush t = false := by decide +kernel
theorem liveAt0_10 : ∀ t : Fin cfg0.N, cond0_1 (grid0.coords t) → cfg0.idle 10 (grid0.coords t) = false := by decide +kernel
theorem idleAt0_11 : ∀ t : Fin cfg0.N, ¬cond0_1 (grid0.coords t) → cfg0.idle 11 (grid0.coords t) = true := by decide +kernel
theorem noFlush0_11 : ∀ t : Fin cfg0.N, ¬cond0_1 (grid0.coords t) → (cfg0.win 11).flush t = false := by decide +kernel
theorem liveAt0_11 : ∀ t : Fin cfg0.N, cond0_1 (grid0.coords t) → cfg0.idle 11 (grid0.coords t) = false := by decide +kernel

/-! ## The memrefs the body is called with -/

abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x1 .f32 := win0_11.stage (cfg0.slots t 11)
abbrev hs0_11 (t : Fin cfg0.N) : (ms0_11 t).IsWhole := hstage0_11 ((cfg0.slots t 11).cast nbuf0_11)
/-- The two accumulators: whole scoped buffers of the kernel's own. -/
abbrev scM0_0 : Memref sig .tc .vmem S512x1024 .f32 := Memref.whole cc0_scratch0
abbrev scM0_1 : Memref sig .tc .vmem S512x1024 .f32 := Memref.whole cc0_scratch1
/-- Views through which the outputs' and the accumulators' contents are stated. -/
abbrev VO0_10 : View sig .tc .vmem S512x1024 .f32 := (Memref.whole cc0_stg10_0 : Memref sig .tc .vmem S512x1024 .f32).view
abbrev VO0_11 : View sig .tc .vmem S512x1 .f32 := (Memref.whole cc0_stg11_0 : Memref sig .tc .vmem S512x1 .f32).view
abbrev VS0_0 : View sig .tc .vmem S512x1024 .f32 := scM0_0.view
abbrev VS0_1 : View sig .tc .vmem S512x1024 .f32 := scM0_1.view

/-- What the region's invariant holds besides the accumulators: every other scoped buffer the pipeline
    does not stage, unopened. -/
abbrev restBut0 (c : Dev nD) : sProp 𝕄 :=
  Pipeline.scopedRestBut (Ix := Unit) (Name := ℕ) (U := UR sig nD τ) (Lvl := ℕ) (Val := Elt F) spec0 c [cc0_scratch0, cc0_scratch1]

/-- The scoped rest with the two accumulators as memrefs owned at some contents. -/
theorem scopedRest0_owns (c : Dev nD) :
    (Pipeline.scopedRest (Ix := Unit) (Name := ℕ) (U := UR sig nD τ) (Lvl := ℕ) (Val := Elt F) spec0 c : sProp 𝕄)
      = iprop(iprop((∃ d, owns (c : Thread nD τ) scM0_0 fullShare d) ∗ (∃ d, owns (c : Thread nD τ) scM0_1 fullShare d)) ∗ restBut0 c) := by
  rw [scopedRest0_split]; simp only [scM0_0, scM0_1, owns_whole]; try rfl

end Cert.Kernel.Hand

end
-- ==== Proof.K.Run0A.lean ====
import proofs.«142033_j33071248180131_1_alg».proof.Proof.K.Base0

/-!
# A point that opens a row block (hidden tile 0)

Both accumulators are cleared and the first partial products added into them; nothing is stored into
the two output buffers, which are handed back as they came.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point with the hidden-tile coordinate zero: from the ten input buffers at their
    contents, the two output buffers at anything (`xi10`, `xi11`, handed back untouched) and the two
    accumulators at anything, it runs to its return with the inputs and outputs as they were and each
    accumulator written piece by piece; the pieces are what the run finds. -/
noncomputable def kernelRun0_A (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : cond0_0 i) (hc1 : ¬cond0_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) :
    Σ' (L10 : List (View.Piece (Elt F) S512x1024 .f32)) (L11 : List (View.Piece (Elt F) S512x1 .f32)) (LS0 : List (View.Piece (Elt F) S512x1024 .f32)), { LS1 : List (View.Piece (Elt F) S512x1024 .f32) //
      ∀ (xi10 : Vec F S512x1024 .f32) (xi11 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xi11 ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xi11 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc0__half_step_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], [], ?_, ?_, fun xi10 xi11 E K => ?run⟩
  case run =>
    simp only [cc0__half_step_kernel_eq_skeleton]; unfold cc0__half_step_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [HS0]; · iexists _; iexact HS0
    iexists _; iexact HS1

end Cert.Kernel.Hand

end
-- ==== Proof.K.Run0B.lean ====
import proofs.«142033_j33071248180131_1_alg».proof.Proof.K.Base0

/-!
# A point in the middle of a row block (hidden tiles 1 to 6)

Each accumulator, holding what the tile before left, takes this tile's partial product; nothing is
stored into the two output buffers, which are handed back as they came.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point whose hidden-tile coordinate is neither zero nor the last: from the ten input
    buffers at their contents, the two output buffers at anything (handed back untouched) and the two
    accumulators at what the point before left (`xs0`, `xs1`), it runs to its return with the inputs and
    outputs as they were and each accumulator written piece by piece; the pieces are what the run finds. -/
noncomputable def kernelRun0_B (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond0_0 i) (hc1 : ¬cond0_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) :
    Σ' (L10 : List (View.Piece (Elt F) S512x1024 .f32)) (L11 : List (View.Piece (Elt F) S512x1 .f32)) (LS0 : List (View.Piece (Elt F) S512x1024 .f32)), { LS1 : List (View.Piece (Elt F) S512x1024 .f32) //
      ∀ (xi10 : Vec F S512x1024 .f32) (xi11 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xi11 ∗ owns (c : Thread nD τ) arg14 fullShare xs0 ∗ owns (c : Thread nD τ) arg15 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xi11 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc0__half_step_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], [], ?_, ?_, fun xi10 xi11 E K => ?run⟩
  case run =>
    simp only [cc0__half_step_kernel_eq_skeleton]; unfold cc0__half_step_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hfs0; obtain rfl := harg15.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [HS0]; · iexists _; iexact HS0
    iexists _; iexact HS1

end Cert.Kernel.Hand

end
-- ==== Proof.K.Run0C.lean ====
import proofs.«142033_j33071248180131_1_alg».proof.Proof.K.Base0

/-!
# A point that closes a row block (hidden tile 7)

Each accumulator takes the last partial product; then the output biases are added, the log-scale is
formed, and the updated half and the log-determinant column are stored whole into the two output
buffers.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point with the last hidden-tile coordinate: from the ten input buffers at their
    contents, the two output buffers at anything and the two accumulators at what the point before left
    (`xs0`, `xs1`), it runs to its return with the inputs as they were and the two outputs and the two
    accumulators written piece by piece; the pieces are what the run finds. -/
noncomputable def kernelRun0_C (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond0_0 i) (hc1 : cond0_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) :
    Σ' (L10 : List (View.Piece (Elt F) S512x1024 .f32)) (L11 : List (View.Piece (Elt F) S512x1 .f32)) (LS0 : List (View.Piece (Elt F) S512x1024 .f32)), { LS1 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ owns (c : Thread nD τ) arg14 fullShare xs0 ∗ owns (c : Thread nD τ) arg15 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc0__half_step_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc0__half_step_kernel_eq_skeleton]; unfold cc0__half_step_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg14.eq_unread hfs0; obtain rfl := harg15.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [HS0]; · iexists _; iexact HS0
    iexists _; iexact HS1

end Cert.Kernel.Hand

end
-- ==== Proof.K.Dat0.lean ====
import proofs.«142033_j33071248180131_1_alg».proof.Proof.K.Run0A
import proofs.«142033_j33071248180131_1_alg».proof.Proof.K.Run0B
import proofs.«142033_j33071248180131_1_alg».proof.Proof.K.Run0C

/-!
# The first half-step's region: what its buffers hold point by point, and its proof data

Each kind of point leaves pieces in the accumulators (and, when it closes a row block, in the two
outputs); the pieces tile the buffer they are stored into, so reading them back gives the buffer's
contents. `outsAt0` follows the grid: a point that opens a row block starts from nothing, every other
point from what the point before left in the accumulators. The region's invariant holds the two
accumulators at those contents; the proof data say each input buffer holds its block and each output
buffer what `outsAt0` says.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each kind of point leaves -/

/-- In this case the pieces stored into the first accumulator tile it, so they cover it. -/
theorem scover0_A_0 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : cond0_0 i) (hc1 : ¬cond0_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (y : S512x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.1 S512x1024.size (by sl_kernel_rfl) y
/-- The same for the second accumulator. -/
theorem scover0_A_1 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : cond0_0 i) (hc1 : ¬cond0_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (y : S512x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.2.1 S512x1024.size (by sl_kernel_rfl) y
/-- What this case leaves in the first accumulator: its pieces read back. -/
def sout0_A_0 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : cond0_0 i) (hc1 : ¬cond0_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) : Vec F S512x1024 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.1)
/-- What this case leaves in the second accumulator. -/
def sout0_A_1 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : cond0_0 i) (hc1 : ¬cond0_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) : Vec F S512x1024 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.2.1)

/-- In this case the pieces stored into the first accumulator tile it, so they cover it. -/
theorem scover0_B_0 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond0_0 i) (hc1 : ¬cond0_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) (y : S512x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.1 S512x1024.size (by sl_kernel_rfl) y
/-- The same for the second accumulator. -/
theorem scover0_B_1 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond0_0 i) (hc1 : ¬cond0_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) (y : S512x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.2.1 S512x1024.size (by sl_kernel_rfl) y
/-- What this case leaves in the first accumulator: its pieces read back. -/
def sout0_B_0 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond0_0 i) (hc1 : ¬cond0_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) : Vec F S512x1024 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.1)
/-- What this case leaves in the second accumulator. -/
def sout0_B_1 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond0_0 i) (hc1 : ¬cond0_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) : Vec F S512x1024 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.2.1)

/-- In this case the pieces stored into the first accumulator tile it, so they cover it. -/
theorem scover0_C_0 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond0_0 i) (hc1 : cond0_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) (y : S512x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.1 S512x1024.size (by sl_kernel_rfl) y
/-- The same for the second accumulator. -/
theorem scover0_C_1 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond0_0 i) (hc1 : cond0_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) (y : S512x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.2.1 S512x1024.size (by sl_kernel_rfl) y
/-- What this case leaves in the first accumulator: its pieces read back. -/
def sout0_C_0 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond0_0 i) (hc1 : cond0_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) : Vec F S512x1024 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.1)
/-- What this case leaves in the second accumulator. -/
def sout0_C_1 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond0_0 i) (hc1 : cond0_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) : Vec F S512x1024 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.2.1)

/-- The closing case's pieces for the updated half tile its block, so they cover it. -/
theorem cover0_C_10 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond0_0 i) (hc1 : cond0_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) (y : S512x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).1 S512x1024.size (by sl_kernel_rfl) y
/-- The same for the log-determinant column. -/
theorem cover0_C_11 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond0_0 i) (hc1 : cond0_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.1 S512x1.size (by sl_kernel_rfl) y
/-- What the closing case leaves in the updated half's buffer. -/
def out0_C_10 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond0_0 i) (hc1 : cond0_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) : Vec F S512x1024 .f32 :=
  VO0_10.read (Elt F) (VO0_10.writes (Elt F) VO0_10.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).1)
/-- What it leaves in the log-determinant column's buffer. -/
def out0_C_11 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond0_0 i) (hc1 : cond0_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) : Vec F S512x1 .f32 :=
  VO0_11.read (Elt F) (VO0_11.writes (Elt F) VO0_11.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.1)

/-- Placeholders for an output buffer at a point that stores nothing into it (the window is idle and not
    written back there, so nothing consults them). -/
def idle0_10 : Vec F S512x1024 .f32 := VO0_10.read (Elt F) VO0_10.junk
def idle0_11 : Vec F S512x1 .f32 := VO0_11.read (Elt F) VO0_11.junk

-- the TensorCore's buffer contents when the region is entered
variable (V : (c : Dev nD) → (b : Ref sig .tc) → Buf (Elt F) ((c : Thread nD τ).loc b))

/-! ## Point by point -/

/-- What the two output buffers and the two accumulators hold after the body at position `n`: the kind
    of point is read off `n mod 8`; a point that does not open a row block starts from the accumulators
    as the point before left them. -/
def outsAt0 (c : Dev nD) : (n : ℕ) → n < cfg0.N → Vec F S512x1024 .f32 × Vec F S512x1 .f32 × Vec F S512x1024 .f32 × Vec F S512x1024 .f32
  | 0, hn => (idle0_10, idle0_11, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩))
  | n + 1, hn =>
    if h0 : (n + 1) % 8 = 0 then
      (idle0_10, idle0_11, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩))
    else
      if h1 : (n + 1) % 8 = 7 then
        (out0_C_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2.2.1 (outsAt0 c n (Nat.lt_of_succ_lt hn)).2.2.2, out0_C_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2.2.1 (outsAt0 c n (Nat.lt_of_succ_lt hn)).2.2.2)
      else
        (idle0_10, idle0_11, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2.2.1 (outsAt0 c n (Nat.lt_of_succ_lt hn)).2.2.2)

/-- At a point that opens a row block. -/
theorem outsAt0_A (c : Dev nD) (t : Fin cfg0.N) (h0 : t.val % 8 = 0) :
    outsAt0 V c t.val t.isLt = (idle0_10, idle0_11, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (fun h => (fun h => by (try dsimp only at h); omega) ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (fun h => (fun h => by (try dsimp only at h); omega) ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)) := by
  obtain ⟨n, hn⟩ := t
  cases n with
  | zero => exact rfl
  | succ n => exact (dif_pos h0).trans rfl

/-- At a point in the middle of a row block, over what the point before left. -/
theorem outsAt0_B (c : Dev nD) (t : Fin cfg0.N) (h0 : ¬t.val % 8 = 0) (h1 : ¬t.val % 8 = 7) :
    outsAt0 V c t.val t.isLt = (idle0_10, idle0_11, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- At a point that closes a row block, over what the point before left. -/
theorem outsAt0_C (c : Dev nD) (t : Fin cfg0.N) (h0 : ¬t.val % 8 = 0) (h1 : t.val % 8 = 7) :
    outsAt0 V c t.val t.isLt = (out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: at the start every scoped buffer the pipeline does not stage, at anything;
    afterwards the two accumulators at what the point before left, the other such buffers unopened. -/
def PhiS0 (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(iprop(owns (c : Thread nD τ) scM0_0 fullShare ((outsAt0 V c n hn).2.2.1) ∗ owns (c : Thread nD τ) scM0_1 fullShare ((outsAt0 V c n hn).2.2.2)) ∗ restBut0 c)

theorem PhiS0_zero (c : Dev nD) (n : ℕ) (h : n ≤ cfg0.N) (hz : n = 0) :
    PhiS0 V c n h = Pipeline.scopedRest (Ix := Unit) (Name := ℕ) (U := UR sig nD τ) (Lvl := ℕ) (Val := Elt F) spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2.2.1) ∗ owns (c : Thread nD τ) scM0_1 fullShare ((outsAt0 V c n hn).2.2.2)) ∗ restBut0 c) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.1) ∗ owns (c : Thread nD τ) scM0_1 fullShare ((outsAt0 V c (n - 1) (by omega)).2.2.2)) ∗ restBut0 c) := by
  cases n with
  | zero => exact absurd rfl hz
  | succ n => rfl

/-! ## The proof data -/

/-- The region's proof data on core `c`: the arrays as the region finds them; after the body at point `t`
    each input's buffer at its block and the two outputs' at `outsAt0`; the invariant `PhiS0`; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => (outsAt0 V c t.val t.isLt).1
    | ⟨11, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = (outsAt0 V c t.val t.isLt).1 := by dsimp only [dat0]
theorem after0_11 (c : Dev nD) (t : Fin cfg0.N) : (dat0 V c).after 11 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d

end Cert.Kernel.Hand

end
-- ==== Proof.K.Body0.lean ====
import proofs.«142033_j33071248180131_1_alg».proof.Proof.K.Dat0

/-!
# The first half-step's region: the body at every grid point

At a point the pipeline hands the body the twelve current staging buffers and the invariant. Each input
buffer holds its block; which kind of point it is follows from `t mod 8`; the invariant gives the two
accumulators (at anything before the first point, at what the point before left afterwards) and takes
them back at this point's contents, which the stored pieces cover; an output buffer is handed back
untouched where nothing is stored into it.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- What the body is called with at point `t`: the invariant, the core's dues, the twelve windows. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d)))

/-- What it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t
    ∗ (dat0 V c).leavesExact 11 t)

set_option maxHeartbeats 8000000 in
/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).owesAt () t.succ = (dat0 V c).owesAt () t.castSucc from rfl]
  rw [show (dat0 V c).Φ t.succ = PhiS0 V c (t.val + 1) t.isLt from rfl, PhiS0_succ]
  have hN : t.val < 128 := lt_of_lt_of_eq t.isLt (show cfg0.N = 128 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  rw [show (dat0 V c).leavesExact 7 t = owns (c : Thread nD τ) (ms0_7 t) fullShare ((dat0 V c).after 7 t) from by
    unfold Dat.leavesExact; rw [liveAt0_7 t], after0_7]
  rw [show (dat0 V c).leavesExact 8 t = owns (c : Thread nD τ) (ms0_8 t) fullShare ((dat0 V c).after 8 t) from by
    unfold Dat.leavesExact; rw [liveAt0_8 t], after0_8]
  rw [show (dat0 V c).leavesExact 9 t = owns (c : Thread nD τ) (ms0_9 t) fullShare ((dat0 V c).after 9 t) from by
    unfold Dat.leavesExact; rw [liveAt0_9 t], after0_9]
  by_cases h0 : t.val % 8 = 0
  · have h1 : ¬t.val % 8 = 7 := by omega
    rw [Dat.leavesExact_idle (dat0 V c) 10 t (idleAt0_10 t (fun h => h1 ((hcond0_1 t).mp h))) (noFlush0_10 t (fun h => h1 ((hcond0_1 t).mp h)))]
    rw [Dat.leavesExact_idle (dat0 V c) 11 t (idleAt0_11 t (fun h => h1 ((hcond0_1 t).mp h))) (noFlush0_11 t (fun h => h1 ((hcond0_1 t).mp h)))]
    rw [outsAt0_A V c t h0]
    unfold sout0_A_0 sout0_A_1; (try dsimp only)
    by_cases hz : t.val = 0
    · rw [PhiS0_castSucc V c t, PhiS0_zero V c _ _ hz, scopedRest0_owns]
      iintro ⟨⟨⟨HS0, HS1⟩, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_A c (grid0.coords t) _ _ _ _ _ _ _ _ _ _ _ _ _ _ _ _ _ _ _ _ _ _ _ _ _ _ _ _ ((hcond0_0 t).mpr h0) (fun h => (fun h => by (try dsimp only at h); omega) ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      isplitl [HS1]; · iexact HS1
      iintro ⟨H0, H1, H2, H3, H4, H5, H6, H7, H8, H9, H10, H11, ⟨%es0, HS0⟩, ⟨%es1, HS1⟩⟩
      isplitl [HS0 HS1 Hrest]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _ _ _ _ _)
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      iexists _; iexact H11
    · rw [PhiS0_castSucc V c t, PhiS0_pos V c _ _ hz]
      iintro ⟨⟨⟨HS0, HS1⟩, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_A c (grid0.coords t) _ _ _ _ _ _ _ _ _ _ _ _ _ _ _ _ _ _ _ _ _ _ _ _ _ _ _ _ ((hcond0_0 t).mpr h0) (fun h => (fun h => by (try dsimp only at h); omega) ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexists _; iexact HS0
      isplitl [HS1]; · iexists _; iexact HS1
      iintro ⟨H0, H1, H2, H3, H4, H5, H6, H7, H8, H9, H10, H11, ⟨%es0, HS0⟩, ⟨%es1, HS1⟩⟩
      isplitl [HS0 HS1 Hrest]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _ _ _ _ _)
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      iexists _; iexact H11
  · have hz : t.val ≠ 0 := fun h => h0 (by rw [h])
    by_cases h1 : t.val % 8 = 7
    · rw [show (dat0 V c).leavesExact 10 t = owns (c : Thread nD τ) (ms0_10 t) fullShare ((dat0 V c).after 10 t) from by
        unfold Dat.leavesExact; rw [liveAt0_10 t ((hcond0_1 t).mpr h1)], after0_10]
      rw [show (dat0 V c).leavesExact 11 t = owns (c : Thread nD τ) (ms0_11 t) fullShare ((dat0 V c).after 11 t) from by
        unfold Dat.leavesExact; rw [liveAt0_11 t ((hcond0_1 t).mpr h1)], after0_11]
      rw [outsAt0_C V c t h0 h1]
      unfold out0_C_10 out0_C_11 sout0_C_0 sout0_C_1; (try dsimp only)
      rw [PhiS0_castSucc V c t, PhiS0_pos V c _ _ hz]
      iintro ⟨⟨⟨HS0, HS1⟩, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_C c (grid0.coords t) _ _ _ _ _ _ _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [HS0]; · iexact HS0
      isplitl [HS1]; · iexact HS1
      iintro ⟨H0, H1, H2, H3, H4, H5, H6, H7, H8, H9, ⟨%e10, H10⟩, ⟨%e11, H11⟩, ⟨%es0, HS0⟩, ⟨%es1, HS1⟩⟩
      isplitl [HS0 HS1 Hrest]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ _ _ _ _ _ _ _ _ _ _ _ _)
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro; exact View.read_writes_of_cover _ _ _ _ _ (cover0_C_10 c _ _ _ _ _ _ _ _ _ _ _ _ _ _ _ _ _ _ _ _ _ _ _ _ _ _ _ _ _ _ _ _ _ _ _ _ _ _ _ _ _ _ _)
      unfold owns; iexists _; isplitr
      swap; · iexact H11
      ipureintro; exact View.read_writes_of_cover _ _ _ _ _ (cover0_C_11 c _ _ _ _ _ _ _ _ _ _ _ _ _ _ _ _ _ _ _ _ _ _ _ _ _ _ _ _ _ _ _ _ _ _ _ _ _ _ _ _ _ _ _)
    · rw [Dat.leavesExact_idle (dat0 V c) 10 t (idleAt0_10 t (fun h => h1 ((hcond0_1 t).mp h))) (noFlush0_10 t (fun h => h1 ((hcond0_1 t).mp h)))]
      rw [Dat.leavesExact_idle (dat0 V c) 11 t (idleAt0_11 t (fun h => h1 ((hcond0_1 t).mp h))) (noFlush0_11 t (fun h => h1 ((hcond0_1 t).mp h)))]
      rw [outsAt0_B V c t h0 h1]
      unfold sout0_B_0 sout0_B_1; (try dsimp only)
      rw [PhiS0_castSucc V c t, PhiS0_pos V c _ _ hz]
      iintro ⟨⟨⟨HS0, HS1⟩, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_B c (grid0.coords t) _ _ _ _ _ _ _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      isplitl [HS1]; · iexact HS1
      iintro ⟨H0, H1, H2, H3, H4, H5, H6, H7, H8, H9, H10, H11, ⟨%es0, HS0⟩, ⟨%es1, HS1⟩⟩
      isplitl [HS0 HS1 Hrest]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _ _ _ _ _ _ _ _ _ _ _)
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      iexists _; iexact H11

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is handed at its start is the invariant before the first point. -/
theorem hin0 (c : Dev nD) :
    (Pipeline.scopedRest (Ix := Unit) (Name := ℕ) (U := UR sig nD τ) (Lvl := ℕ) (Val := Elt F) spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives those buffers back: the accumulators' contents
    are forgotten. -/
theorem Phi_out0 (c : Dev nD) (t : Fin (cfg0.N + 1)) (ht : t.val ≠ 0) :
    (dat0 V c).Φ t ⊢ (Pipeline.scopedRest (Ix := Unit) (Name := ℕ) (U := UR sig nD τ) (Lvl := ℕ) (Val := Elt F) spec0 c : sProp 𝕄) := by
  rw [show (dat0 V c).Φ t = PhiS0 V c t.val (Nat.le_of_lt_succ t.isLt) from rfl, PhiS0_pos V c _ _ ht, scopedRest0_owns]
  iintro ⟨⟨HS0, HS1⟩, Hrest⟩
  isplitl [HS0 HS1]
  · isplitl [HS0]
    · iexists _; iexact HS0
    · iexists _; iexact HS1
  iexact Hrest

/-- The same after the last point. -/
theorem hout0 (c : Dev nD) :
    (dat0 V c).Φ (Fin.last cfg0.N) ⊢ (Pipeline.scopedRest (Ix := Unit) (Name := ℕ) (U := UR sig nD τ) (Lvl := ℕ) (Val := Elt F) spec0 c : sProp 𝕄) :=
  Phi_out0 V c _ (by rw [Fin.val_last]; have : cfg0.N = 128 := N_0; omega)

end Cert.Kernel.Hand

end
-- ==== Proof.K.Base1.lean ====
import proofs.«142033_j33071248180131_1_alg».proof.Proof.Gen.Kernel.Launch
import proofs.«142033_j33071248180131_1_alg».proof.Proof.Gen.Kernel.Skeleton
import proofs.«142033_j33071248180131_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

/-!
# The second half-step's region: what its three kinds of grid point share

The grid is 16 row blocks by 8 hidden tiles, walked row block by row block. Along a row block the
kernel keeps two accumulators (one per perceptron) in scratch: the tile `h = 0` clears them, every tile
adds its partial product, and the tile `h = 7` adds the output biases and writes the updated half and
the log-determinant column. So a point is of one of three kinds, told apart by `t mod 8`:
`0` (clear, then accumulate), `1..6` (accumulate), `7` (accumulate, then write the two outputs).
The output windows are idle, and not written back, at the points that store nothing into them.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not
    (a window is only left unfetched while its block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-! ## The two branch conditions, in closed form over the grid -/

/-- The accumulators are cleared: the hidden-tile coordinate is zero. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The outputs are written: the hidden-tile coordinate is the last. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
theorem liveAt1_8 : ∀ t : Fin cfg1.N, cfg1.idle 8 (grid1.coords t) = false := by decide +kernel
theorem liveAt1_9 : ∀ t : Fin cfg1.N, cfg1.idle 9 (grid1.coords t) = false := by decide +kernel
theorem idleAt1_10 : ∀ t : Fin cfg1.N, ¬cond1_1 (grid1.coords t) → cfg1.idle 10 (grid1.coords t) = true := by decide +kernel
theorem noFlush1_10 : ∀ t : Fin cfg1.N, ¬cond1_1 (grid1.coords t) → (cfg1.win 10).flush t = false := by decide +kernel
theorem liveAt1_10 : ∀ t : Fin cfg1.N, cond1_1 (grid1.coords t) → cfg1.idle 10 (grid1.coords t) = false := by decide +kernel
theorem idleAt1_11 : ∀ t : Fin cfg1.N, ¬cond1_1 (grid1.coords t) → cfg1.idle 11 (grid1.coords t) = true := by decide +kernel
theorem noFlush1_11 : ∀ t : Fin cfg1.N, ¬cond1_1 (grid1.coords t) → (cfg1.win 11).flush t = false := by decide +kernel
theorem liveAt1_11 : ∀ t : Fin cfg1.N, cond1_1 (grid1.coords t) → cfg1.idle 11 (grid1.coords t) = false := by decide +kernel

/-! ## The memrefs the body is called with -/

abbrev ms1_0 (t : Fin cfg1.N) : Memref sig .tc .vmem S512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x512 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S512 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S512x1024 .bf16 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1024 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S512x1024 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S512x1 .f32 := win1_11.stage (cfg1.slots t 11)
abbrev hs1_11 (t : Fin cfg1.N) : (ms1_11 t).IsWhole := hstage1_11 ((cfg1.slots t 11).cast nbuf1_11)
/-- The two accumulators: whole scoped buffers of the kernel's own. -/
abbrev scM1_0 : Memref sig .tc .vmem S512x1024 .f32 := Memref.whole cc1_scratch0
abbrev scM1_1 : Memref sig .tc .vmem S512x1024 .f32 := Memref.whole cc1_scratch1
/-- Views through which the outputs' and the accumulators' contents are stated. -/
abbrev VO1_10 : View sig .tc .vmem S512x1024 .f32 := (Memref.whole cc1_stg10_0 : Memref sig .tc .vmem S512x1024 .f32).view
abbrev VO1_11 : View sig .tc .vmem S512x1 .f32 := (Memref.whole cc1_stg11_0 : Memref sig .tc .vmem S512x1 .f32).view
abbrev VS1_0 : View sig .tc .vmem S512x1024 .f32 := scM1_0.view
abbrev VS1_1 : View sig .tc .vmem S512x1024 .f32 := scM1_1.view

/-- What the region's invariant holds besides the accumulators: every other scoped buffer the pipeline
    does not stage, unopened. -/
abbrev restBut1 (c : Dev nD) : sProp 𝕄 :=
  Pipeline.scopedRestBut (Ix := Unit) (Name := ℕ) (U := UR sig nD τ) (Lvl := ℕ) (Val := Elt F) spec1 c [cc1_scratch0, cc1_scratch1]

/-- The scoped rest with the two accumulators as memrefs owned at some contents. -/
theorem scopedRest1_owns (c : Dev nD) :
    (Pipeline.scopedRest (Ix := Unit) (Name := ℕ) (U := UR sig nD τ) (Lvl := ℕ) (Val := Elt F) spec1 c : sProp 𝕄)
      = iprop(iprop((∃ d, owns (c : Thread nD τ) scM1_0 fullShare d) ∗ (∃ d, owns (c : Thread nD τ) scM1_1 fullShare d)) ∗ restBut1 c) := by
  rw [scopedRest1_split]; simp only [scM1_0, scM1_1, owns_whole]; try rfl

end Cert.Kernel.Hand

end
-- ==== Proof.K.Run1A.lean ====
import proofs.«142033_j33071248180131_1_alg».proof.Proof.K.Base1

/-!
# A point that opens a row block (hidden tile 0)

Both accumulators are cleared and the first partial products added into them; nothing is stored into
the two output buffers, which are handed back as they came.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point with the hidden-tile coordinate zero: from the ten input buffers at their
    contents, the two output buffers at anything (`xi10`, `xi11`, handed back untouched) and the two
    accumulators at anything, it runs to its return with the inputs and outputs as they were and each
    accumulator written piece by piece; the pieces are what the run finds. -/
noncomputable def kernelRun1_A (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : cond1_0 i) (hc1 : ¬cond1_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) :
    Σ' (L10 : List (View.Piece (Elt F) S512x1024 .f32)) (L11 : List (View.Piece (Elt F) S512x1 .f32)) (LS0 : List (View.Piece (Elt F) S512x1024 .f32)), { LS1 : List (View.Piece (Elt F) S512x1024 .f32) //
      ∀ (xi10 : Vec F S512x1024 .f32) (xi11 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xi11 ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xi11 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc1__half_step_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], [], ?_, ?_, fun xi10 xi11 E K => ?run⟩
  case run =>
    simp only [cc1__half_step_kernel_eq_skeleton]; unfold cc1__half_step_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [HS0]; · iexists _; iexact HS0
    iexists _; iexact HS1

end Cert.Kernel.Hand

end
-- ==== Proof.K.Run1B.lean ====
import proofs.«142033_j33071248180131_1_alg».proof.Proof.K.Base1

/-!
# A point in the middle of a row block (hidden tiles 1 to 6)

Each accumulator, holding what the tile before left, takes this tile's partial product; nothing is
stored into the two output buffers, which are handed back as they came.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point whose hidden-tile coordinate is neither zero nor the last: from the ten input
    buffers at their contents, the two output buffers at anything (handed back untouched) and the two
    accumulators at what the point before left (`xs0`, `xs1`), it runs to its return with the inputs and
    outputs as they were and each accumulator written piece by piece; the pieces are what the run finds. -/
noncomputable def kernelRun1_B (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond1_0 i) (hc1 : ¬cond1_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) :
    Σ' (L10 : List (View.Piece (Elt F) S512x1024 .f32)) (L11 : List (View.Piece (Elt F) S512x1 .f32)) (LS0 : List (View.Piece (Elt F) S512x1024 .f32)), { LS1 : List (View.Piece (Elt F) S512x1024 .f32) //
      ∀ (xi10 : Vec F S512x1024 .f32) (xi11 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xi11 ∗ owns (c : Thread nD τ) arg14 fullShare xs0 ∗ owns (c : Thread nD τ) arg15 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xi11 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc1__half_step_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], [], ?_, ?_, fun xi10 xi11 E K => ?run⟩
  case run =>
    simp only [cc1__half_step_kernel_eq_skeleton]; unfold cc1__half_step_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hfs0; obtain rfl := harg15.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [HS0]; · iexists _; iexact HS0
    iexists _; iexact HS1

end Cert.Kernel.Hand

end
-- ==== Proof.K.Run1C.lean ====
import proofs.«142033_j33071248180131_1_alg».proof.Proof.K.Base1

/-!
# A point that closes a row block (hidden tile 7)

Each accumulator takes the last partial product; then the output biases are added, the log-scale is
formed, and the updated half and the log-determinant column are stored whole into the two output
buffers.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point with the last hidden-tile coordinate: from the ten input buffers at their
    contents, the two output buffers at anything and the two accumulators at what the point before left
    (`xs0`, `xs1`), it runs to its return with the inputs as they were and the two outputs and the two
    accumulators written piece by piece; the pieces are what the run finds. -/
noncomputable def kernelRun1_C (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond1_0 i) (hc1 : cond1_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) :
    Σ' (L10 : List (View.Piece (Elt F) S512x1024 .f32)) (L11 : List (View.Piece (Elt F) S512x1 .f32)) (LS0 : List (View.Piece (Elt F) S512x1024 .f32)), { LS1 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ owns (c : Thread nD τ) arg14 fullShare xs0 ∗ owns (c : Thread nD τ) arg15 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc1__half_step_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc1__half_step_kernel_eq_skeleton]; unfold cc1__half_step_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg14.eq_unread hfs0; obtain rfl := harg15.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [HS0]; · iexists _; iexact HS0
    iexists _; iexact HS1

end Cert.Kernel.Hand

end
-- ==== Proof.K.Dat1.lean ====
import proofs.«142033_j33071248180131_1_alg».proof.Proof.K.Run1A
import proofs.«142033_j33071248180131_1_alg».proof.Proof.K.Run1B
import proofs.«142033_j33071248180131_1_alg».proof.Proof.K.Run1C

/-!
# The second half-step's region: what its buffers hold point by point, and its proof data

Each kind of point leaves pieces in the accumulators (and, when it closes a row block, in the two
outputs); the pieces tile the buffer they are stored into, so reading them back gives the buffer's
contents. `outsAt1` follows the grid: a point that opens a row block starts from nothing, every other
point from what the point before left in the accumulators. The region's invariant holds the two
accumulators at those contents; the proof data say each input buffer holds its block and each output
buffer what `outsAt1` says.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each kind of point leaves -/

/-- In this case the pieces stored into the first accumulator tile it, so they cover it. -/
theorem scover1_A_0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : cond1_0 i) (hc1 : ¬cond1_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (y : S512x1024.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.1 S512x1024.size (by sl_kernel_rfl) y
/-- The same for the second accumulator. -/
theorem scover1_A_1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : cond1_0 i) (hc1 : ¬cond1_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (y : S512x1024.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.2.1 S512x1024.size (by sl_kernel_rfl) y
/-- What this case leaves in the first accumulator: its pieces read back. -/
def sout1_A_0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : cond1_0 i) (hc1 : ¬cond1_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) : Vec F S512x1024 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.1)
/-- What this case leaves in the second accumulator. -/
def sout1_A_1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : cond1_0 i) (hc1 : ¬cond1_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) : Vec F S512x1024 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.2.1)

/-- In this case the pieces stored into the first accumulator tile it, so they cover it. -/
theorem scover1_B_0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond1_0 i) (hc1 : ¬cond1_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) (y : S512x1024.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.1 S512x1024.size (by sl_kernel_rfl) y
/-- The same for the second accumulator. -/
theorem scover1_B_1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond1_0 i) (hc1 : ¬cond1_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) (y : S512x1024.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.2.1 S512x1024.size (by sl_kernel_rfl) y
/-- What this case leaves in the first accumulator: its pieces read back. -/
def sout1_B_0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond1_0 i) (hc1 : ¬cond1_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) : Vec F S512x1024 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.1)
/-- What this case leaves in the second accumulator. -/
def sout1_B_1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond1_0 i) (hc1 : ¬cond1_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) : Vec F S512x1024 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.2.1)

/-- In this case the pieces stored into the first accumulator tile it, so they cover it. -/
theorem scover1_C_0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond1_0 i) (hc1 : cond1_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) (y : S512x1024.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.1 S512x1024.size (by sl_kernel_rfl) y
/-- The same for the second accumulator. -/
theorem scover1_C_1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond1_0 i) (hc1 : cond1_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) (y : S512x1024.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.2.1 S512x1024.size (by sl_kernel_rfl) y
/-- What this case leaves in the first accumulator: its pieces read back. -/
def sout1_C_0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond1_0 i) (hc1 : cond1_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) : Vec F S512x1024 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.1)
/-- What this case leaves in the second accumulator. -/
def sout1_C_1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond1_0 i) (hc1 : cond1_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) : Vec F S512x1024 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.2.1)

/-- The closing case's pieces for the updated half tile its block, so they cover it. -/
theorem cover1_C_10 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond1_0 i) (hc1 : cond1_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) (y : S512x1024.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).1 S512x1024.size (by sl_kernel_rfl) y
/-- The same for the log-determinant column. -/
theorem cover1_C_11 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond1_0 i) (hc1 : cond1_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) (y : S512x1.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.1 S512x1.size (by sl_kernel_rfl) y
/-- What the closing case leaves in the updated half's buffer. -/
def out1_C_10 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond1_0 i) (hc1 : cond1_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) : Vec F S512x1024 .f32 :=
  VO1_10.read (Elt F) (VO1_10.writes (Elt F) VO1_10.junk (kernelRun1_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).1)
/-- What it leaves in the log-determinant column's buffer. -/
def out1_C_11 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond1_0 i) (hc1 : cond1_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) : Vec F S512x1 .f32 :=
  VO1_11.read (Elt F) (VO1_11.writes (Elt F) VO1_11.junk (kernelRun1_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.1)

/-- Placeholders for an output buffer at a point that stores nothing into it (the window is idle and not
    written back there, so nothing consults them). -/
def idle1_10 : Vec F S512x1024 .f32 := VO1_10.read (Elt F) VO1_10.junk
def idle1_11 : Vec F S512x1 .f32 := VO1_11.read (Elt F) VO1_11.junk

-- the TensorCore's buffer contents when the region is entered
variable (V : (c : Dev nD) → (b : Ref sig .tc) → Buf (Elt F) ((c : Thread nD τ).loc b))

/-! ## Point by point -/

/-- What the two output buffers and the two accumulators hold after the body at position `n`: the kind
    of point is read off `n mod 8`; a point that does not open a row block starts from the accumulators
    as the point before left them. -/
def outsAt1 (c : Dev nD) : (n : ℕ) → n < cfg1.N → Vec F S512x1024 .f32 × Vec F S512x1 .f32 × Vec F S512x1024 .f32 × Vec F S512x1024 .f32
  | 0, hn => (idle1_10, idle1_11, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩))
  | n + 1, hn =>
    if h0 : (n + 1) % 8 = 0 then
      (idle1_10, idle1_11, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩))
    else
      if h1 : (n + 1) % 8 = 7 then
        (out1_C_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.2.1 (outsAt1 c n (Nat.lt_of_succ_lt hn)).2.2.2, out1_C_11 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.2.1 (outsAt1 c n (Nat.lt_of_succ_lt hn)).2.2.2)
      else
        (idle1_10, idle1_11, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.2.1 (outsAt1 c n (Nat.lt_of_succ_lt hn)).2.2.2)

/-- At a point that opens a row block. -/
theorem outsAt1_A (c : Dev nD) (t : Fin cfg1.N) (h0 : t.val % 8 = 0) :
    outsAt1 V c t.val t.isLt = (idle1_10, idle1_11, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) ((hcond1_0 t).mpr h0) (fun h => (fun h => by (try dsimp only at h); omega) ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) ((hcond1_0 t).mpr h0) (fun h => (fun h => by (try dsimp only at h); omega) ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)) := by
  obtain ⟨n, hn⟩ := t
  cases n with
  | zero => exact rfl
  | succ n => exact (dif_pos h0).trans rfl

/-- At a point in the middle of a row block, over what the point before left. -/
theorem outsAt1_B (c : Dev nD) (t : Fin cfg1.N) (h0 : ¬t.val % 8 = 0) (h1 : ¬t.val % 8 = 7) :
    outsAt1 V c t.val t.isLt = (idle1_10, idle1_11, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- At a point that closes a row block, over what the point before left. -/
theorem outsAt1_C (c : Dev nD) (t : Fin cfg1.N) (h0 : ¬t.val % 8 = 0) (h1 : t.val % 8 = 7) :
    outsAt1 V c t.val t.isLt = (out1_C_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.2.1 (outsAt1 V c (t.val - 1) (Nat.lt_of_le_of_lt (Nat.sub_le _ _) t.isLt)).2.2.2, out1_C_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: at the start every scoped buffer the pipeline does not stage, at anything;
    afterwards the two accumulators at what the point before left, the other such buffers unopened. -/
def PhiS1 (c : Dev nD) : (n : ℕ) → n ≤ cfg1.N → sProp 𝕄
  | 0, _ => Pipeline.scopedRest (Ix := Unit) (Name := ℕ) (U := UR sig nD τ) (Lvl := ℕ) (Val := Elt F) spec1 c
  | n + 1, hn => iprop(iprop(owns (c : Thread nD τ) scM1_0 fullShare ((outsAt1 V c n hn).2.2.1) ∗ owns (c : Thread nD τ) scM1_1 fullShare ((outsAt1 V c n hn).2.2.2)) ∗ restBut1 c)

theorem PhiS1_zero (c : Dev nD) (n : ℕ) (h : n ≤ cfg1.N) (hz : n = 0) :
    PhiS1 V c n h = Pipeline.scopedRest (Ix := Unit) (Name := ℕ) (U := UR sig nD τ) (Lvl := ℕ) (Val := Elt F) spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2.2.1) ∗ owns (c : Thread nD τ) scM1_1 fullShare ((outsAt1 V c n hn).2.2.2)) ∗ restBut1 c) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2.2.1) ∗ owns (c : Thread nD τ) scM1_1 fullShare ((outsAt1 V c (n - 1) (by omega)).2.2.2)) ∗ restBut1 c) := by
  cases n with
  | zero => exact absurd rfl hz
  | succ n => rfl

/-! ## The proof data -/

/-- The region's proof data on core `c`: the arrays as the region finds them; after the body at point `t`
    each input's buffer at its block and the two outputs' at `outsAt1`; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => (outsAt1 V c t.val t.isLt).1
    | ⟨11, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = (outsAt1 V c t.val t.isLt).1 := by dsimp only [dat1]
theorem after1_11 (c : Dev nD) (t : Fin cfg1.N) : (dat1 V c).after 11 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

end Cert.Kernel.Hand

end
-- ==== Proof.K.Body1.lean ====
import proofs.«142033_j33071248180131_1_alg».proof.Proof.K.Dat1

/-!
# The second half-step's region: the body at every grid point

At a point the pipeline hands the body the twelve current staging buffers and the invariant. Each input
buffer holds its block; which kind of point it is follows from `t mod 8`; the invariant gives the two
accumulators (at anything before the first point, at what the point before left afterwards) and takes
them back at this point's contents, which the stored pieces cover; an output buffer is handed back
untouched where nothing is stored into it.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- What the body is called with at point `t`: the invariant, the core's dues, the twelve windows. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d)))

/-- What it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t)

set_option maxHeartbeats 8000000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  rw [show (dat1 V c).leavesExact 8 t = owns (c : Thread nD τ) (ms1_8 t) fullShare ((dat1 V c).after 8 t) from by
    unfold Dat.leavesExact; rw [liveAt1_8 t], after1_8]
  rw [show (dat1 V c).leavesExact 9 t = owns (c : Thread nD τ) (ms1_9 t) fullShare ((dat1 V c).after 9 t) from by
    unfold Dat.leavesExact; rw [liveAt1_9 t], after1_9]
  by_cases h0 : t.val % 8 = 0
  · have h1 : ¬t.val % 8 = 7 := by omega
    rw [Dat.leavesExact_idle (dat1 V c) 10 t (idleAt1_10 t (fun h => h1 ((hcond1_1 t).mp h))) (noFlush1_10 t (fun h => h1 ((hcond1_1 t).mp h)))]
    rw [Dat.leavesExact_idle (dat1 V c) 11 t (idleAt1_11 t (fun h => h1 ((hcond1_1 t).mp h))) (noFlush1_11 t (fun h => h1 ((hcond1_1 t).mp h)))]
    rw [outsAt1_A V c t h0]
    unfold sout1_A_0 sout1_A_1; (try dsimp only)
    by_cases hz : t.val = 0
    · rw [PhiS1_castSucc V c t, PhiS1_zero V c _ _ hz, scopedRest1_owns]
      iintro ⟨⟨⟨HS0, HS1⟩, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun1_A c (grid1.coords t) _ _ _ _ _ _ _ _ _ _ _ _ _ _ _ _ _ _ _ _ _ _ _ _ _ _ _ _ ((hcond1_0 t).mpr h0) (fun h => (fun h => by (try dsimp only at h); omega) ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      isplitl [HS1]; · iexact HS1
      iintro ⟨H0, H1, H2, H3, H4, H5, H6, H7, H8, H9, H10, H11, ⟨%es0, HS0⟩, ⟨%es1, HS1⟩⟩
      isplitl [HS0 HS1 Hrest]
      · isplitl [HS0 HS1]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover1_A_1 c _ _ _ _ _ _ _ _ _ _ _ _ _ _ _ _ _ _ _ _ _ _ _ _ _ _ _ _ _ _ _ _ _ _ _ _ _ _ _ _ _)
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      iexists _; iexact H11
    · rw [PhiS1_castSucc V c t, PhiS1_pos V c _ _ hz]
      iintro ⟨⟨⟨HS0, HS1⟩, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun1_A c (grid1.coords t) _ _ _ _ _ _ _ _ _ _ _ _ _ _ _ _ _ _ _ _ _ _ _ _ _ _ _ _ ((hcond1_0 t).mpr h0) (fun h => (fun h => by (try dsimp only at h); omega) ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexists _; iexact HS0
      isplitl [HS1]; · iexists _; iexact HS1
      iintro ⟨H0, H1, H2, H3, H4, H5, H6, H7, H8, H9, H10, H11, ⟨%es0, HS0⟩, ⟨%es1, HS1⟩⟩
      isplitl [HS0 HS1 Hrest]
      · isplitl [HS0 HS1]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover1_A_1 c _ _ _ _ _ _ _ _ _ _ _ _ _ _ _ _ _ _ _ _ _ _ _ _ _ _ _ _ _ _ _ _ _ _ _ _ _ _ _ _ _)
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      iexists _; iexact H11
  · have hz : t.val ≠ 0 := fun h => h0 (by rw [h])
    by_cases h1 : t.val % 8 = 7
    · rw [show (dat1 V c).leavesExact 10 t = owns (c : Thread nD τ) (ms1_10 t) fullShare ((dat1 V c).after 10 t) from by
        unfold Dat.leavesExact; rw [liveAt1_10 t ((hcond1_1 t).mpr h1)], after1_10]
      rw [show (dat1 V c).leavesExact 11 t = owns (c : Thread nD τ) (ms1_11 t) fullShare ((dat1 V c).after 11 t) from by
        unfold Dat.leavesExact; rw [liveAt1_11 t ((hcond1_1 t).mpr h1)], after1_11]
      rw [outsAt1_C V c t h0 h1]
      unfold out1_C_10 out1_C_11 sout1_C_0 sout1_C_1; (try dsimp only)
      rw [PhiS1_castSucc V c t, PhiS1_pos V c _ _ hz]
      iintro ⟨⟨⟨HS0, HS1⟩, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun1_C c (grid1.coords t) _ _ _ _ _ _ _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [HS0]; · iexact HS0
      isplitl [HS1]; · iexact HS1
      iintro ⟨H0, H1, H2, H3, H4, H5, H6, H7, H8, H9, ⟨%e10, H10⟩, ⟨%e11, H11⟩, ⟨%es0, HS0⟩, ⟨%es1, HS1⟩⟩
      isplitl [HS0 HS1 Hrest]
      · isplitl [HS0 HS1]
        · isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover1_C_1 c _ _ _ _ _ _ _ _ _ _ _ _ _ _ _ _ _ _ _ _ _ _ _ _ _ _ _ _ _ _ _ _ _ _ _ _ _ _ _ _ _ _ _)
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro; exact View.read_writes_of_cover _ _ _ _ _ (cover1_C_10 c _ _ _ _ _ _ _ _ _ _ _ _ _ _ _ _ _ _ _ _ _ _ _ _ _ _ _ _ _ _ _ _ _ _ _ _ _ _ _ _ _ _ _)
      unfold owns; iexists _; isplitr
      swap; · iexact H11
      ipureintro; exact View.read_writes_of_cover _ _ _ _ _ (cover1_C_11 c _ _ _ _ _ _ _ _ _ _ _ _ _ _ _ _ _ _ _ _ _ _ _ _ _ _ _ _ _ _ _ _ _ _ _ _ _ _ _ _ _ _ _)
    · rw [Dat.leavesExact_idle (dat1 V c) 10 t (idleAt1_10 t (fun h => h1 ((hcond1_1 t).mp h))) (noFlush1_10 t (fun h => h1 ((hcond1_1 t).mp h)))]
      rw [Dat.leavesExact_idle (dat1 V c) 11 t (idleAt1_11 t (fun h => h1 ((hcond1_1 t).mp h))) (noFlush1_11 t (fun h => h1 ((hcond1_1 t).mp h)))]
      rw [outsAt1_B V c t h0 h1]
      unfold sout1_B_0 sout1_B_1; (try dsimp only)
      rw [PhiS1_castSucc V c t, PhiS1_pos V c _ _ hz]
      iintro ⟨⟨⟨HS0, HS1⟩, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun1_B c (grid1.coords t) _ _ _ _ _ _ _ _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      isplitl [HS1]; · iexact HS1
      iintro ⟨H0, H1, H2, H3, H4, H5, H6, H7, H8, H9, H10, H11, ⟨%es0, HS0⟩, ⟨%es1, HS1⟩⟩
      isplitl [HS0 HS1 Hrest]
      · isplitl [HS0 HS1]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover1_B_1 c _ _ _ _ _ _ _ _ _ _ _ _ _ _ _ _ _ _ _ _ _ _ _ _ _ _ _ _ _ _ _ _ _ _ _ _ _ _ _ _ _ _ _)
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      iexists _; iexact H11

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is handed at its start is the invariant before the first point. -/
theorem hin1 (c : Dev nD) :
    (Pipeline.scopedRest (Ix := Unit) (Name := ℕ) (U := UR sig nD τ) (Lvl := ℕ) (Val := Elt F) spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives those buffers back: the accumulators' contents
    are forgotten. -/
theorem Phi_out1 (c : Dev nD) (t : Fin (cfg1.N + 1)) (ht : t.val ≠ 0) :
    (dat1 V c).Φ t ⊢ (Pipeline.scopedRest (Ix := Unit) (Name := ℕ) (U := UR sig nD τ) (Lvl := ℕ) (Val := Elt F) spec1 c : sProp 𝕄) := by
  rw [show (dat1 V c).Φ t = PhiS1 V c t.val (Nat.le_of_lt_succ t.isLt) from rfl, PhiS1_pos V c _ _ ht, scopedRest1_owns]
  iintro ⟨⟨HS0, HS1⟩, Hrest⟩
  isplitl [HS0 HS1]
  · isplitl [HS0]
    · iexists _; iexact HS0
    · iexists _; iexact HS1
  iexact Hrest

/-- The same after the last point. -/
theorem hout1 (c : Dev nD) :
    (dat1 V c).Φ (Fin.last cfg1.N) ⊢ (Pipeline.scopedRest (Ix := Unit) (Name := ℕ) (U := UR sig nD τ) (Lvl := ℕ) (Val := Elt F) spec1 c : sProp 𝕄) :=
  Phi_out1 V c _ (by rw [Fin.val_last]; have : cfg1.N = 128 := N_1; omega)

end Cert.Kernel.Hand

end
-- ==== Proof.K.RunCond.lean ====
/-
  The whole program's run, given each region's record: every weakly fair execution of the host
  operations and the two kernel regions terminates, and at the end EVERY buffer that outlives the
  regions holds what the last valuation says — the arguments as launched, and the two results as the
  host operations after the second region compute them from what the regions left.
-/
import proofs.«142033_j33071248180131_1_alg».proof.Proof.Gen.Kernel.Regions

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- `θ_run_regions_kit_dev`'s implicit arguments are found by unifying its conclusion with this one, which takes unfolding
-- plain definitions in a metavariable's type
set_option backward.isDefEq.respectTransparency.types false in
/-- THE RUN, GIVEN THE REGIONS' RECORDS, with every buffer that outlives the regions named at the end. For any user algebra, level assignment, launch dues and ghost resources, any rest states
    `E` the launch makes on every core at once (`hE0`) and that end owing nothing (`hE2`), any contents the regions
    leave (`outs`) and any proof data: GIVEN, per region K, a segment record entered from this module's thread state
    before it and left at the one after it (`RK`, `hpreK`, `hpostK`), every weakly fair execution of @main from memory `m`
    with zero counters terminates and every final memory holds each argument as launched (the post claims.py's frame
    claim states, at any `F`). -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c)) :
    θ_run defs (onTc (τ := τ) (main (F := F))) ⟨m, fun _ => 0, ρ⟩ (fun r => ∀ c : Dev nD,
      ∀ b ∈ Pipeline.ucRefs τ sig, r.2.mem ((c : Thread nD τ).1, b) = V5 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V5 m outs c))
    (hch := fun c => ⟨.rfl, hpre0 c, hpost0 c, hpre1 c, hpost1 c, sep_mono .rfl (hE2 c)⟩)
    (hinit := ?_) (QY := fun c s => ∀ b ∈ Pipeline.ucRefs τ sig, s.mem ((c : Thread nD τ).1, b) = V5 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V5 m outs c) s') $$ [Hh HSI]
    · isplitl [Hh] <;> iassumption
    icases Hr with ⟨%h, HSI⟩
    imodintro
    isplitr
    · ipureintro
      exact h
    · iexact HSI

end Cert.Kernel.Gen

end
-- ==== Proof.K.Launch.lean ====
import proofs.«142033_j33071248180131_1_alg».proof.Proof.K.Body0
import proofs.«142033_j33071248180131_1_alg».proof.Proof.K.Body1
import proofs.«142033_j33071248180131_1_alg».proof.Proof.K.RunCond

/-!
# The whole program: two half-step regions among the host operations

Between the program's items every buffer that outlives the regions is held at a valuation: the launch
memory, then each stretch of host operations applied, then — after a region — its two result arrays at
what the region's write-backs leave (the fold of the pipeline's flushes over the grid) and everything
else as before. The first region is entered from the valuation after the first stretch; the second from
the one after the second stretch, which already holds the first region's results. Each region's record
splits its twelve arrays out of the held buffers, runs the pipeline over the body obligation, and puts the
arrays back at their exit contents.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave, and the valuations between the items -/

/-- The first region's entry contents: the launch memory after the first stretch of host operations. -/
abbrev VV1 : (c : Dev nD) → (b : Ref sig .tc) → Buf (Elt F) ((c : Thread nD τ).loc b) := fun c b => Gen.V1 m c b

/-- After the first region: its arrays at what the pipeline leaves, everything else as entered. -/
def outsA : Gen.Outs (F := F) := fun _ r c =>
  Pipeline.withArrays spec0 c (Gen.V1 m c) (fun w => (dat0 (VV1 m) c).arrAt w cfg0.N) (Proc.devRef .tc r)

/-- The second region's entry contents: after the second stretch, from the first region's exit. -/
abbrev VV3 : (c : Dev nD) → (b : Ref sig .tc) → Buf (Elt F) ((c : Thread nD τ).loc b) := fun c b => Gen.V3 m (outsA m) c b

/-- What both regions leave: the second region's arrays at what its pipeline leaves. -/
def outsOf : Gen.Outs (F := F) := fun J r c =>
  match J with
  | 4 => Pipeline.withArrays spec1 c (Gen.V3 m (outsA m) c) (fun w => (dat1 (VV3 m) c).arrAt w cfg1.N) (Proc.devRef .tc r)
  | _ => outsA m J r c

/-- Up to the second region's entry the two choices agree. -/
theorem V2_outs (c : Dev nD) : Gen.V2 m (outsOf m) c = Gen.V2 m (outsA m) c := rfl
theorem V3_outs (c : Dev nD) : Gen.V3 m (outsOf m) c = Gen.V3 m (outsA m) c := rfl

/-- A region's result array after the region is what was put there. -/
theorem V2_at_v6_0 (outs : Gen.Outs (F := F)) (c : Dev nD) : Gen.V2 m outs c main_v6_0 = outs 2 main_v6_0 c := by
  simp only [Gen.V2]
  rw [Function.update_of_ne (StableHlo.devRef_ne_of_ne (by decide) : (Proc.devRef .tc main_v6_0 : DevRef τ sig) ≠ Proc.devRef .tc main_v6_1), Function.update_self]
theorem V2_at_v6_1 (outs : Gen.Outs (F := F)) (c : Dev nD) : Gen.V2 m outs c main_v6_1 = outs 2 main_v6_1 c := by
  simp only [Gen.V2]
  rw [Function.update_self]
theorem V4_at_v11_0 (outs : Gen.Outs (F := F)) (c : Dev nD) : Gen.V4 m outs c main_v11_0 = outs 4 main_v11_0 c := by
  simp only [Gen.V4]
  rw [Function.update_of_ne (StableHlo.devRef_ne_of_ne (by decide) : (Proc.devRef .tc main_v11_0 : DevRef τ sig) ≠ Proc.devRef .tc main_v11_1), Function.update_self]
theorem V4_at_v11_1 (outs : Gen.Outs (F := F)) (c : Dev nD) : Gen.V4 m outs c main_v11_1 = outs 4 main_v11_1 c := by
  simp only [Gen.V4]
  rw [Function.update_self]

/-- What was chosen for the first region's result arrays is what its pipeline leaves, -/
theorem outsA_v6_0 (J : ℕ) (c : Dev nD) : outsA m J main_v6_0 c = (dat0 (VV1 m) c).arrAt 10 cfg0.N := by
  unfold outsA; exact Pipeline.withArrays_arr spec0 launch0.win.arr_inj c _ _ 10
theorem outsA_v6_1 (J : ℕ) (c : Dev nD) : outsA m J main_v6_1 c = (dat0 (VV1 m) c).arrAt 11 cfg0.N := by
  unfold outsA; exact Pipeline.withArrays_arr spec0 launch0.win.arr_inj c _ _ 11
/-- and for the second region's. -/
theorem outsOf_v11_0 (c : Dev nD) : outsOf m 4 main_v11_0 c = (dat1 (VV3 m) c).arrAt 10 cfg1.N := by
  unfold outsOf; dsimp only; exact Pipeline.withArrays_arr spec1 launch1.win.arr_inj c _ _ 10
theorem outsOf_v11_1 (c : Dev nD) : outsOf m 4 main_v11_1 c = (dat1 (VV3 m) c).arrAt 11 cfg1.N := by
  unfold outsOf; dsimp only; exact Pipeline.withArrays_arr spec1 launch1.win.arr_inj c _ _ 11
theorem outsOf_two (r : Ref sig .tc) (c : Dev nD) : outsOf m 2 r c = outsA m 2 r c := rfl

/-- The first region's two result arrays in the valuation after it. -/
theorem V2_v6_0 (c : Dev nD) : Gen.V2 m (outsOf m) c main_v6_0 = (dat0 (VV1 m) c).arrAt 10 cfg0.N :=
  (V2_at_v6_0 m (outsOf m) c).trans ((outsOf_two m _ c).trans (outsA_v6_0 m 2 c))
theorem V2_v6_1 (c : Dev nD) : Gen.V2 m (outsOf m) c main_v6_1 = (dat0 (VV1 m) c).arrAt 11 cfg0.N :=
  (V2_at_v6_1 m (outsOf m) c).trans ((outsOf_two m _ c).trans (outsA_v6_1 m 2 c))
/-- The second region's. -/
theorem V4_v11_0 (c : Dev nD) : Gen.V4 m (outsOf m) c main_v11_0 = (dat1 (VV3 m) c).arrAt 10 cfg1.N :=
  (V4_at_v11_0 m (outsOf m) c).trans (outsOf_v11_0 m c)
theorem V4_v11_1 (c : Dev nD) : Gen.V4 m (outsOf m) c main_v11_1 = (dat1 (VV3 m) c).arrAt 11 cfg1.N :=
  (V4_at_v11_1 m (outsOf m) c).trans (outsOf_v11_1 m c)

/-- At the first region's exit each of its arrays holds what the pipeline leaves: an input its entry
    contents, a result the fold of its write-backs. -/
theorem hF0 (c : Dev nD) : ∀ w : Fin cfg0.W, (dat0 (VV1 m) c).arrAt w cfg0.N = Gen.V2 m (outsOf m) c (Pipeline.arrRef spec0 w)
  | ⟨0, _⟩ => (((dat0 (VV1 m) c).arrAt_in ⟨0, by decide⟩ rfl _).trans (A_eq0 (VV1 m) c _)).trans (Gen.V2_of m (outsOf m) c (Pipeline.arrRef spec0 ⟨0, by decide⟩) (by decide)).symm
  | ⟨1, _⟩ => (((dat0 (VV1 m) c).arrAt_in ⟨1, by decide⟩ rfl _).trans (A_eq0 (VV1 m) c _)).trans (Gen.V2_of m (outsOf m) c (Pipeline.arrRef spec0 ⟨1, by decide⟩) (by decide)).symm
  | ⟨2, _⟩ => (((dat0 (VV1 m) c).arrAt_in ⟨2, by decide⟩ rfl _).trans (A_eq0 (VV1 m) c _)).trans (Gen.V2_of m (outsOf m) c (Pipeline.arrRef spec0 ⟨2, by decide⟩) (by decide)).symm
  | ⟨3, _⟩ => (((dat0 (VV1 m) c).arrAt_in ⟨3, by decide⟩ rfl _).trans (A_eq0 (VV1 m) c _)).trans (Gen.V2_of m (outsOf m) c (Pipeline.arrRef spec0 ⟨3, by decide⟩) (by decide)).symm
  | ⟨4, _⟩ => (((dat0 (VV1 m) c).arrAt_in ⟨4, by decide⟩ rfl _).trans (A_eq0 (VV1 m) c _)).trans (Gen.V2_of m (outsOf m) c (Pipeline.arrRef spec0 ⟨4, by decide⟩) (by decide)).symm
  | ⟨5, _⟩ => (((dat0 (VV1 m) c).arrAt_in ⟨5, by decide⟩ rfl _).trans (A_eq0 (VV1 m) c _)).trans (Gen.V2_of m (outsOf m) c (Pipeline.arrRef spec0 ⟨5, by decide⟩) (by decide)).symm
  | ⟨6, _⟩ => (((dat0 (VV1 m) c).arrAt_in ⟨6, by decide⟩ rfl _).trans (A_eq0 (VV1 m) c _)).trans (Gen.V2_of m (outsOf m) c (Pipeline.arrRef spec0 ⟨6, by decide⟩) (by decide)).symm
  | ⟨7, _⟩ => (((dat0 (VV1 m) c).arrAt_in ⟨7, by decide⟩ rfl _).trans (A_eq0 (VV1 m) c _)).trans (Gen.V2_of m (outsOf m) c (Pipeline.arrRef spec0 ⟨7, by decide⟩) (by decide)).symm
  | ⟨8, _⟩ => (((dat0 (VV1 m) c).arrAt_in ⟨8, by decide⟩ rfl _).trans (A_eq0 (VV1 m) c _)).trans (Gen.V2_of m (outsOf m) c (Pipeline.arrRef spec0 ⟨8, by decide⟩) (by decide)).symm
  | ⟨9, _⟩ => (((dat0 (VV1 m) c).arrAt_in ⟨9, by decide⟩ rfl _).trans (A_eq0 (VV1 m) c _)).trans (Gen.V2_of m (outsOf m) c (Pipeline.arrRef spec0 ⟨9, by decide⟩) (by decide)).symm
  | ⟨10, _⟩ => (V2_v6_0 m c).symm
  | ⟨11, _⟩ => (V2_v6_1 m c).symm
/-- Every other buffer is as at entry. -/
theorem hrest0 (c : Dev nD) : ∀ b, b ∉ Finset.univ.image (Pipeline.arrRef spec0) → Gen.V2 m (outsOf m) c b = VV1 m c b :=
  fun b hb => Gen.V2_of m (outsOf m) c b fun h => by
    rcases List.mem_cons.mp h with rfl | h
    · exact hb (Finset.mem_image.mpr ⟨10, Finset.mem_univ _, rfl⟩)
    · rcases List.mem_cons.mp h with rfl | h
      · exact hb (Finset.mem_image.mpr ⟨11, Finset.mem_univ _, rfl⟩)
      · exact absurd h (List.not_mem_nil)

/-- The same at the second region's exit. -/
theorem hF1 (c : Dev nD) : ∀ w : Fin cfg1.W, (dat1 (VV3 m) c).arrAt w cfg1.N = Gen.V4 m (outsOf m) c (Pipeline.arrRef spec1 w)
  | ⟨0, _⟩ => (((dat1 (VV3 m) c).arrAt_in ⟨0, by decide⟩ rfl _).trans (A_eq1 (VV3 m) c _)).trans ((Gen.V4_of m (outsOf m) c (Pipeline.arrRef spec1 ⟨0, by decide⟩) (by decide)).trans (congrFun (V3_outs m c) _)).symm
  | ⟨1, _⟩ => (((dat1 (VV3 m) c).arrAt_in ⟨1, by decide⟩ rfl _).trans (A_eq1 (VV3 m) c _)).trans ((Gen.V4_of m (outsOf m) c (Pipeline.arrRef spec1 ⟨1, by decide⟩) (by decide)).trans (congrFun (V3_outs m c) _)).symm
  | ⟨2, _⟩ => (((dat1 (VV3 m) c).arrAt_in ⟨2, by decide⟩ rfl _).trans (A_eq1 (VV3 m) c _)).trans ((Gen.V4_of m (outsOf m) c (Pipeline.arrRef spec1 ⟨2, by decide⟩) (by decide)).trans (congrFun (V3_outs m c) _)).symm
  | ⟨3, _⟩ => (((dat1 (VV3 m) c).arrAt_in ⟨3, by decide⟩ rfl _).trans (A_eq1 (VV3 m) c _)).trans ((Gen.V4_of m (outsOf m) c (Pipeline.arrRef spec1 ⟨3, by decide⟩) (by decide)).trans (congrFun (V3_outs m c) _)).symm
  | ⟨4, _⟩ => (((dat1 (VV3 m) c).arrAt_in ⟨4, by decide⟩ rfl _).trans (A_eq1 (VV3 m) c _)).trans ((Gen.V4_of m (outsOf m) c (Pipeline.arrRef spec1 ⟨4, by decide⟩) (by decide)).trans (congrFun (V3_outs m c) _)).symm
  | ⟨5, _⟩ => (((dat1 (VV3 m) c).arrAt_in ⟨5, by decide⟩ rfl _).trans (A_eq1 (VV3 m) c _)).trans ((Gen.V4_of m (outsOf m) c (Pipeline.arrRef spec1 ⟨5, by decide⟩) (by decide)).trans (congrFun (V3_outs m c) _)).symm
  | ⟨6, _⟩ => (((dat1 (VV3 m) c).arrAt_in ⟨6, by decide⟩ rfl _).trans (A_eq1 (VV3 m) c _)).trans ((Gen.V4_of m (outsOf m) c (Pipeline.arrRef spec1 ⟨6, by decide⟩) (by decide)).trans (congrFun (V3_outs m c) _)).symm
  | ⟨7, _⟩ => (((dat1 (VV3 m) c).arrAt_in ⟨7, by decide⟩ rfl _).trans (A_eq1 (VV3 m) c _)).trans ((Gen.V4_of m (outsOf m) c (Pipeline.arrRef spec1 ⟨7, by decide⟩) (by decide)).trans (congrFun (V3_outs m c) _)).symm
  | ⟨8, _⟩ => (((dat1 (VV3 m) c).arrAt_in ⟨8, by decide⟩ rfl _).trans (A_eq1 (VV3 m) c _)).trans ((Gen.V4_of m (outsOf m) c (Pipeline.arrRef spec1 ⟨8, by decide⟩) (by decide)).trans (congrFun (V3_outs m c) _)).symm
  | ⟨9, _⟩ => (((dat1 (VV3 m) c).arrAt_in ⟨9, by decide⟩ rfl _).trans (A_eq1 (VV3 m) c _)).trans ((Gen.V4_of m (outsOf m) c (Pipeline.arrRef spec1 ⟨9, by decide⟩) (by decide)).trans (congrFun (V3_outs m c) _)).symm
  | ⟨10, _⟩ => (V4_v11_0 m c).symm
  | ⟨11, _⟩ => (V4_v11_1 m c).symm
theorem hrest1 (c : Dev nD) : ∀ b, b ∉ Finset.univ.image (Pipeline.arrRef spec1) → Gen.V4 m (outsOf m) c b = VV3 m c b :=
  fun b hb => (Gen.V4_of m (outsOf m) c b fun h => by
    rcases List.mem_cons.mp h with rfl | h
    · exact hb (Finset.mem_image.mpr ⟨10, Finset.mem_univ _, rfl⟩)
    · rcases List.mem_cons.mp h with rfl | h
      · exact hb (Finset.mem_image.mpr ⟨11, Finset.mem_univ _, rfl⟩)
      · exact absurd h (List.not_mem_nil)).trans (congrFun (V3_outs m c) _)

/-! ## The proof data family and what rides along -/

/-- Each region's proof data at its entry contents. -/
def pdats : (p : Fin 2) → (c : Dev nD) → Dat τ (Elt F) Unit ℕ (UR sig nD τ) ℕ (cfgs p) c
  | ⟨0, _⟩ => fun c => dat0 (VV1 m) c
  | ⟨1, _⟩ => fun c => dat1 (VV3 m) c

/-- No core owes another anything: no level is assigned. -/
abbrev LL : GSem nD τ sig → Finset Unit := fun _ => ∅
abbrev lvv : GSem nD τ sig → Unit → ℕ := fun _ _ => 0
/-- What rides beside the buffers through every item: the generator register at some state and the
    core's dues, at nothing. -/
abbrev RR (c : Dev nD) : sProp 𝕄 := iprop((∃ r, prngReg c r) ∗ ∃ W, owes (c : Thread nD τ) (0 : CellTallies nD τ sig Unit) W)

/-! ## The regions -/

-- a library lemma stated over the pinned configuration unifies with the printed one only when unification may
-- unfold plain definitions in a metavariable's type
set_option backward.isDefEq.respectTransparency.types false in
/-- The first half-step's region over the thread state: entered from every outliving buffer at the
    valuation before it, left at the one after it. Its twelve arrays are split out of those buffers and put back
    at the exit contents; the scoped buffers go into the invariant and come back; the generator register and the
    other buffers pass by; nothing is owed; the kernel has no semaphore of its own. -/
def reg0 : Pipeline.RegionSeg (pcfgs (F := F)) Gen.adm (pdats m) () defs₀ Variants.none LL lvv 0 where
  win := launch0.win.to₀
  block_pos := launch0.block_pos
  stage_whole := launch0.stage_whole
  K := PEmpty
  osem k := k.elim
  ho := Pipeline.OwnSemFacts.none _
  hbody c := (body_obligation0 (VV1 m) c).loose
  hwaits := Pipeline.hwaits_of_owed_zero _ _ _ _ LL lvv 0 fun _ _ => rfl
  pre c := iprop(StableHlo.held (c : Thread nD τ) (Pipeline.ucRefs τ sig) (Gen.V1 m c) ∗ RR c)
  post c := iprop(StableHlo.held (c : Thread nD τ) (Pipeline.ucRefs τ sig) (Gen.V2 m (outsOf m) c) ∗ RR c)
  X _ := BI.emp
  Y _ := BI.emp
  Z c := iprop(Pipeline.unscopedRest (Ix := Unit) (Name := ℕ) (U := UR sig nD τ) (Lvl := ℕ) spec0 c (VV1 m c) ∗ ∃ r, prngReg c r)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (VV1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 0 c).Φ 0 = (dat0 (VV1 m) c).Φ 0 from rfl]
    iintro ⟨-, -, Hr⟩
    iapply (hin0 (VV1 m) c)
    iexact Hr
  hout c := by
    rw [Pipeline.ownSems0_none, show (pdats m 0 c).Φ (Fin.last _) = (dat0 (VV1 m) c).Φ (Fin.last cfg0.N) from rfl]
    iintro Hr
    isplitr; · iempintro
    isplitr; · iempintro
    iapply (hout0 (VV1 m) c)
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (VV1 m c) (fun b => Gen.V2 m (outsOf m) c b) ((pdats m 0 c).arrAt · cfg0.N) (hF0 m c) (hrest0 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- The second half-step's region over the thread state: entered from every outliving buffer at the
    valuation before it, left at the one after it. Its twelve arrays are split out of those buffers and put back
    at the exit contents; the scoped buffers go into the invariant and come back; the generator register and the
    other buffers pass by; nothing is owed; the kernel has no semaphore of its own. -/
def reg1 : Pipeline.RegionSeg (pcfgs (F := F)) Gen.adm (pdats m) () defs₀ Variants.none LL lvv 1 where
  win := launch1.win.to₀
  block_pos := launch1.block_pos
  stage_whole := launch1.stage_whole
  K := PEmpty
  osem k := k.elim
  ho := Pipeline.OwnSemFacts.none _
  hbody c := (body_obligation1 (VV3 m) c).loose
  hwaits := Pipeline.hwaits_of_owed_zero _ _ _ _ LL lvv 1 fun _ _ => rfl
  pre c := iprop(StableHlo.held (c : Thread nD τ) (Pipeline.ucRefs τ sig) (Gen.V3 m (outsA m) c) ∗ RR c)
  post c := iprop(StableHlo.held (c : Thread nD τ) (Pipeline.ucRefs τ sig) (Gen.V4 m (outsOf m) c) ∗ RR c)
  X _ := BI.emp
  Y _ := BI.emp
  Z c := iprop(Pipeline.unscopedRest (Ix := Unit) (Name := ℕ) (U := UR sig nD τ) (Lvl := ℕ) spec1 c (VV3 m c) ∗ ∃ r, prngReg c r)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (VV3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 1 c).Φ 0 = (dat1 (VV3 m) c).Φ 0 from rfl]
    iintro ⟨-, -, Hr⟩
    iapply (hin1 (VV3 m) c)
    iexact Hr
  hout c := by
    rw [Pipeline.ownSems0_none, show (pdats m 1 c).Φ (Fin.last _) = (dat1 (VV3 m) c).Φ (Fin.last cfg1.N) from rfl]
    iintro Hr
    isplitr; · iempintro
    isplitr; · iempintro
    iapply (hout1 (VV3 m) c)
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (VV3 m c) (fun b => Gen.V4 m (outsOf m) c b) ((pdats m 1 c).arrAt · cfg1.N) (hF1 m c) (hrest1 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-- What the launch gives a core besides its buffers makes what rides along. -/
theorem ride_of_launch (c : Dev nD) :
    (iprop(unscopedSems0 c ∗ owes (c : Thread nD τ) ((0 : Dev nD → CellTallies nD τ sig Unit) c) ∅ ∗ Pipeline.launchCred (0 : Dev nD → CellTallies nD τ sig Unit) c ∗ prngReg c (ρ c) ∗ emp) : sProp 𝕄)
      ⊢ RR (F := F) c := by
  iintro ⟨-, HO, -, Hp, -⟩
  isplitl [Hp]; · iexists _; iexact Hp
  iexists ∅; iexact HO

/-! ## The run -/

/-- Every weakly fair execution of the program from memory `m` with zero counters terminates, and every
    buffer that outlives the regions ends at the last valuation. -/
theorem run_main : θ_run defs (onTc (τ := τ) (main (F := F))) ⟨m, fun _ => 0, ρ⟩ (fun r => ∀ c : Dev nD,
      ∀ b ∈ Pipeline.ucRefs τ sig, r.2.mem ((c : Thread nD τ).1, b) = Gen.V5 m (outsOf m) c b) :=
  Gen.run_cond m (Ix := Unit) (U := UR sig nD τ) (Lvl := ℕ) emb₁ () Variants.none LL lvv (fun _ _ => rfl) ρ (outsOf m) (pdats m)
    0 (fun _ => iprop(emp)) (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => RR c)
    (by
      iintro ⟨H, -⟩
      imodintro
      iapply (show (bigSep Finset.univ fun c : Dev nD => (iprop(unscopedSems0 c ∗ owes (c : Thread nD τ) ((0 : Dev nD → CellTallies nD τ sig Unit) c) ∅ ∗ Pipeline.launchCred (0 : Dev nD → CellTallies nD τ sig Unit) c ∗ prngReg c (ρ c) ∗ emp) : sProp 𝕄))
          ⊢ bigSep Finset.univ (fun c : Dev nD => RR (F := F) c) from bigSep_mono fun c _ => ride_of_launch ρ c)
      iexact H)
    (fun c => by iintro ⟨-, HO⟩; iexact HO)
    (reg0 m) (fun c => .rfl) (fun c => .rfl)
    (reg1 m) (fun c => by rw [V3_outs]; exact .rfl) (fun c => .rfl)

/-- An outliving TensorCore reference is among those the run names. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: the program runs to its end and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨(h c _ (mem_uc main_arg0 (by decide))).trans (Gen.V5_main_arg0 m (outsOf m) c),
    (h c _ (mem_uc main_arg1 (by decide))).trans (Gen.V5_main_arg1 m (outsOf m) c),
    (h c _ (mem_uc main_arg2 (by decide))).trans (Gen.V5_main_arg2 m (outsOf m) c),
    (h c _ (mem_uc main_arg3 (by decide))).trans (Gen.V5_main_arg3 m (outsOf m) c),
    (h c _ (mem_uc main_arg4 (by decide))).trans (Gen.V5_main_arg4 m (outsOf m) c),
    (h c _ (mem_uc main_arg5 (by decide))).trans (Gen.V5_main_arg5 m (outsOf m) c),
    (h c _ (mem_uc main_arg6 (by decide))).trans (Gen.V5_main_arg6 m (outsOf m) c),
    (h c _ (mem_uc main_arg7 (by decide))).trans (Gen.V5_main_arg7 m (outsOf m) c),
    (h c _ (mem_uc main_arg8 (by decide))).trans (Gen.V5_main_arg8 m (outsOf m) c),
    (h c _ (mem_uc main_arg9 (by decide))).trans (Gen.V5_main_arg9 m (outsOf m) c),
    (h c _ (mem_uc main_arg10 (by decide))).trans (Gen.V5_main_arg10 m (outsOf m) c),
    (h c _ (mem_uc main_arg11 (by decide))).trans (Gen.V5_main_arg11 m (outsOf m) c),
    (h c _ (mem_uc main_arg12 (by decide))).trans (Gen.V5_main_arg12 m (outsOf m) c),
    (h c _ (mem_uc main_arg13 (by decide))).trans (Gen.V5_main_arg13 m (outsOf m) c),
    (h c _ (mem_uc main_arg14 (by decide))).trans (Gen.V5_main_arg14 m (outsOf m) c),
    (h c _ (mem_uc main_arg15 (by decide))).trans (Gen.V5_main_arg15 m (outsOf m) c),
    (h c _ (mem_uc main_arg16 (by decide))).trans (Gen.V5_main_arg16 m (outsOf m) c)⟩) (run_main m ρ)

end Cert.Kernel.Hand

end
-- ==== Proof.KI.Base0.lean ====
import proofs.«142033_j33071248180131_1_alg».proof.Proof.Gen.KernelIdeal.Launch
import proofs.«142033_j33071248180131_1_alg».proof.Proof.Gen.KernelIdeal.Skeleton
import proofs.«142033_j33071248180131_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

/-!
# The first half-step's region: what its three kinds of grid point share

The grid is 16 row blocks by 8 hidden tiles, walked row block by row block. Along a row block the
kernel keeps two accumulators (one per perceptron) in scratch: the tile `h = 0` clears them, every tile
adds its partial product, and the tile `h = 7` adds the output biases and writes the updated half and
the log-determinant column. So a point is of one of three kinds, told apart by `t mod 8`:
`0` (clear, then accumulate), `1..6` (accumulate), `7` (accumulate, then write the two outputs).
The output windows are idle, and not written back, at the points that store nothing into them.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, fetched there or not
    (a window is only left unfetched while its block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-! ## The two branch conditions, in closed form over the grid -/

/-- The accumulators are cleared: the hidden-tile coordinate is zero. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The outputs are written: the hidden-tile coordinate is the last. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
theorem idleAt0_10 : ∀ t : Fin cfg0.N, ¬cond0_1 (grid0.coords t) → cfg0.idle 10 (grid0.coords t) = true := by decide +kernel
theorem noFlush0_10 : ∀ t : Fin cfg0.N, ¬cond0_1 (grid0.coords t) → (cfg0.win 10).flush t = false := by decide +kernel
theorem liveAt0_10 : ∀ t : Fin cfg0.N, cond0_1 (grid0.coords t) → cfg0.idle 10 (grid0.coords t) = false := by decide +kernel
theorem idleAt0_11 : ∀ t : Fin cfg0.N, ¬cond0_1 (grid0.coords t) → cfg0.idle 11 (grid0.coords t) = true := by decide +kernel
theorem noFlush0_11 : ∀ t : Fin cfg0.N, ¬cond0_1 (grid0.coords t) → (cfg0.win 11).flush t = false := by decide +kernel
theorem liveAt0_11 : ∀ t : Fin cfg0.N, cond0_1 (grid0.coords t) → cfg0.idle 11 (grid0.coords t) = false := by decide +kernel

/-! ## The memrefs the body is called with -/

abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x1 .f32 := win0_11.stage (cfg0.slots t 11)
abbrev hs0_11 (t : Fin cfg0.N) : (ms0_11 t).IsWhole := hstage0_11 ((cfg0.slots t 11).cast nbuf0_11)
/-- The two accumulators: whole scoped buffers of the kernel's own. -/
abbrev scM0_0 : Memref sig .tc .vmem S512x1024 .f32 := Memref.whole cc0_scratch0
abbrev scM0_1 : Memref sig .tc .vmem S512x1024 .f32 := Memref.whole cc0_scratch1
/-- Views through which the outputs' and the accumulators' contents are stated. -/
abbrev VO0_10 : View sig .tc .vmem S512x1024 .f32 := (Memref.whole cc0_stg10_0 : Memref sig .tc .vmem S512x1024 .f32).view
abbrev VO0_11 : View sig .tc .vmem S512x1 .f32 := (Memref.whole cc0_stg11_0 : Memref sig .tc .vmem S512x1 .f32).view
abbrev VS0_0 : View sig .tc .vmem S512x1024 .f32 := scM0_0.view
abbrev VS0_1 : View sig .tc .vmem S512x1024 .f32 := scM0_1.view

/-- What the region's invariant holds besides the accumulators: every other scoped buffer the pipeline
    does not stage, unopened. -/
abbrev restBut0 (c : Dev nD) : sProp 𝕄 :=
  Pipeline.scopedRestBut (Ix := Unit) (Name := ℕ) (U := UR sig nD τ) (Lvl := ℕ) (Val := Elt F) spec0 c [cc0_scratch0, cc0_scratch1]

/-- The scoped rest with the two accumulators as memrefs owned at some contents. -/
theorem scopedRest0_owns (c : Dev nD) :
    (Pipeline.scopedRest (Ix := Unit) (Name := ℕ) (U := UR sig nD τ) (Lvl := ℕ) (Val := Elt F) spec0 c : sProp 𝕄)
      = iprop(iprop((∃ d, owns (c : Thread nD τ) scM0_0 fullShare d) ∗ (∃ d, owns (c : Thread nD τ) scM0_1 fullShare d)) ∗ restBut0 c) := by
  rw [scopedRest0_split]; simp only [scM0_0, scM0_1, owns_whole]; try rfl

end Cert.KernelIdeal.Hand

end
-- ==== Proof.KI.Run0A.lean ====
import proofs.«142033_j33071248180131_1_alg».proof.Proof.KI.Base0

/-!
# A point that opens a row block (hidden tile 0)

Both accumulators are cleared and the first partial products added into them; nothing is stored into
the two output buffers, which are handed back as they came.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point with the hidden-tile coordinate zero: from the ten input buffers at their
    contents, the two output buffers at anything (`xi10`, `xi11`, handed back untouched) and the two
    accumulators at anything, it runs to its return with the inputs and outputs as they were and each
    accumulator written piece by piece; the pieces are what the run finds. -/
noncomputable def kernelRun0_A (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : cond0_0 i) (hc1 : ¬cond0_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) :
    Σ' (L10 : List (View.Piece (Elt F) S512x1024 .f32)) (L11 : List (View.Piece (Elt F) S512x1 .f32)) (LS0 : List (View.Piece (Elt F) S512x1024 .f32)), { LS1 : List (View.Piece (Elt F) S512x1024 .f32) //
      ∀ (xi10 : Vec F S512x1024 .f32) (xi11 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xi11 ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xi11 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc0__half_step_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], [], ?_, ?_, fun xi10 xi11 E K => ?run⟩
  case run =>
    simp only [cc0__half_step_kernel_eq_skeleton]; unfold cc0__half_step_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [HS0]; · iexists _; iexact HS0
    iexists _; iexact HS1

end Cert.KernelIdeal.Hand

end
-- ==== Proof.KI.Run0B.lean ====
import proofs.«142033_j33071248180131_1_alg».proof.Proof.KI.Base0

/-!
# A point in the middle of a row block (hidden tiles 1 to 6)

Each accumulator, holding what the tile before left, takes this tile's partial product; nothing is
stored into the two output buffers, which are handed back as they came.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point whose hidden-tile coordinate is neither zero nor the last: from the ten input
    buffers at their contents, the two output buffers at anything (handed back untouched) and the two
    accumulators at what the point before left (`xs0`, `xs1`), it runs to its return with the inputs and
    outputs as they were and each accumulator written piece by piece; the pieces are what the run finds. -/
noncomputable def kernelRun0_B (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond0_0 i) (hc1 : ¬cond0_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) :
    Σ' (L10 : List (View.Piece (Elt F) S512x1024 .f32)) (L11 : List (View.Piece (Elt F) S512x1 .f32)) (LS0 : List (View.Piece (Elt F) S512x1024 .f32)), { LS1 : List (View.Piece (Elt F) S512x1024 .f32) //
      ∀ (xi10 : Vec F S512x1024 .f32) (xi11 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xi11 ∗ owns (c : Thread nD τ) arg14 fullShare xs0 ∗ owns (c : Thread nD τ) arg15 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xi11 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc0__half_step_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], [], ?_, ?_, fun xi10 xi11 E K => ?run⟩
  case run =>
    simp only [cc0__half_step_kernel_eq_skeleton]; unfold cc0__half_step_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hfs0; obtain rfl := harg15.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [HS0]; · iexists _; iexact HS0
    iexists _; iexact HS1

end Cert.KernelIdeal.Hand

end
-- ==== Proof.KI.Run0C.lean ====
import proofs.«142033_j33071248180131_1_alg».proof.Proof.KI.Base0

/-!
# A point that closes a row block (hidden tile 7)

Each accumulator takes the last partial product; then the output biases are added, the log-scale is
formed, and the updated half and the log-determinant column are stored whole into the two output
buffers.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point with the last hidden-tile coordinate: from the ten input buffers at their
    contents, the two output buffers at anything and the two accumulators at what the point before left
    (`xs0`, `xs1`), it runs to its return with the inputs as they were and the two outputs and the two
    accumulators written piece by piece; the pieces are what the run finds. -/
noncomputable def kernelRun0_C (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond0_0 i) (hc1 : cond0_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) :
    Σ' (L10 : List (View.Piece (Elt F) S512x1024 .f32)) (L11 : List (View.Piece (Elt F) S512x1 .f32)) (LS0 : List (View.Piece (Elt F) S512x1024 .f32)), { LS1 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ owns (c : Thread nD τ) arg14 fullShare xs0 ∗ owns (c : Thread nD τ) arg15 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc0__half_step_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc0__half_step_kernel_eq_skeleton]; unfold cc0__half_step_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg14.eq_unread hfs0; obtain rfl := harg15.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [HS0]; · iexists _; iexact HS0
    iexists _; iexact HS1

end Cert.KernelIdeal.Hand

end
-- ==== Proof.KI.Dat0.lean ====
import proofs.«142033_j33071248180131_1_alg».proof.Proof.KI.Run0A
import proofs.«142033_j33071248180131_1_alg».proof.Proof.KI.Run0B
import proofs.«142033_j33071248180131_1_alg».proof.Proof.KI.Run0C

/-!
# The first half-step's region: what its buffers hold point by point, and its proof data

Each kind of point leaves pieces in the accumulators (and, when it closes a row block, in the two
outputs); the pieces tile the buffer they are stored into, so reading them back gives the buffer's
contents. `outsAt0` follows the grid: a point that opens a row block starts from nothing, every other
point from what the point before left in the accumulators. The region's invariant holds the two
accumulators at those contents; the proof data say each input buffer holds its block and each output
buffer what `outsAt0` says.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each kind of point leaves -/

/-- In this case the pieces stored into the first accumulator tile it, so they cover it. -/
theorem scover0_A_0 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : cond0_0 i) (hc1 : ¬cond0_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (y : S512x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.1 S512x1024.size (by sl_kernel_rfl) y
/-- The same for the second accumulator. -/
theorem scover0_A_1 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : cond0_0 i) (hc1 : ¬cond0_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (y : S512x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.2.1 S512x1024.size (by sl_kernel_rfl) y
/-- What this case leaves in the first accumulator: its pieces read back. -/
def sout0_A_0 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : cond0_0 i) (hc1 : ¬cond0_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) : Vec F S512x1024 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.1)
/-- What this case leaves in the second accumulator. -/
def sout0_A_1 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : cond0_0 i) (hc1 : ¬cond0_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) : Vec F S512x1024 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.2.1)

/-- In this case the pieces stored into the first accumulator tile it, so they cover it. -/
theorem scover0_B_0 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond0_0 i) (hc1 : ¬cond0_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) (y : S512x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.1 S512x1024.size (by sl_kernel_rfl) y
/-- The same for the second accumulator. -/
theorem scover0_B_1 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond0_0 i) (hc1 : ¬cond0_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) (y : S512x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.2.1 S512x1024.size (by sl_kernel_rfl) y
/-- What this case leaves in the first accumulator: its pieces read back. -/
def sout0_B_0 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond0_0 i) (hc1 : ¬cond0_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) : Vec F S512x1024 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.1)
/-- What this case leaves in the second accumulator. -/
def sout0_B_1 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond0_0 i) (hc1 : ¬cond0_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) : Vec F S512x1024 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.2.1)

/-- In this case the pieces stored into the first accumulator tile it, so they cover it. -/
theorem scover0_C_0 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond0_0 i) (hc1 : cond0_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) (y : S512x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.1 S512x1024.size (by sl_kernel_rfl) y
/-- The same for the second accumulator. -/
theorem scover0_C_1 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond0_0 i) (hc1 : cond0_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) (y : S512x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.2.1 S512x1024.size (by sl_kernel_rfl) y
/-- What this case leaves in the first accumulator: its pieces read back. -/
def sout0_C_0 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond0_0 i) (hc1 : cond0_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) : Vec F S512x1024 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.1)
/-- What this case leaves in the second accumulator. -/
def sout0_C_1 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond0_0 i) (hc1 : cond0_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) : Vec F S512x1024 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.2.1)

/-- The closing case's pieces for the updated half tile its block, so they cover it. -/
theorem cover0_C_10 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond0_0 i) (hc1 : cond0_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) (y : S512x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).1 S512x1024.size (by sl_kernel_rfl) y
/-- The same for the log-determinant column. -/
theorem cover0_C_11 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond0_0 i) (hc1 : cond0_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.1 S512x1.size (by sl_kernel_rfl) y
/-- What the closing case leaves in the updated half's buffer. -/
def out0_C_10 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond0_0 i) (hc1 : cond0_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) : Vec F S512x1024 .f32 :=
  VO0_10.read (Elt F) (VO0_10.writes (Elt F) VO0_10.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).1)
/-- What it leaves in the log-determinant column's buffer. -/
def out0_C_11 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond0_0 i) (hc1 : cond0_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) : Vec F S512x1 .f32 :=
  VO0_11.read (Elt F) (VO0_11.writes (Elt F) VO0_11.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.1)

/-- Placeholders for an output buffer at a point that stores nothing into it (the window is idle and not
    written back there, so nothing consults them). -/
def idle0_10 : Vec F S512x1024 .f32 := VO0_10.read (Elt F) VO0_10.junk
def idle0_11 : Vec F S512x1 .f32 := VO0_11.read (Elt F) VO0_11.junk

-- the TensorCore's buffer contents when the region is entered
variable (V : (c : Dev nD) → (b : Ref sig .tc) → Buf (Elt F) ((c : Thread nD τ).loc b))

/-! ## Point by point -/

/-- What the two output buffers and the two accumulators hold after the body at position `n`: the kind
    of point is read off `n mod 8`; a point that does not open a row block starts from the accumulators
    as the point before left them. -/
def outsAt0 (c : Dev nD) : (n : ℕ) → n < cfg0.N → Vec F S512x1024 .f32 × Vec F S512x1 .f32 × Vec F S512x1024 .f32 × Vec F S512x1024 .f32
  | 0, hn => (idle0_10, idle0_11, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩))
  | n + 1, hn =>
    if h0 : (n + 1) % 8 = 0 then
      (idle0_10, idle0_11, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩))
    else
      if h1 : (n + 1) % 8 = 7 then
        (out0_C_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2.2.1 (outsAt0 c n (Nat.lt_of_succ_lt hn)).2.2.2, out0_C_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2.2.1 (outsAt0 c n (Nat.lt_of_succ_lt hn)).2.2.2)
      else
        (idle0_10, idle0_11, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2.2.1 (outsAt0 c n (Nat.lt_of_succ_lt hn)).2.2.2)

/-- At a point that opens a row block. -/
theorem outsAt0_A (c : Dev nD) (t : Fin cfg0.N) (h0 : t.val % 8 = 0) :
    outsAt0 V c t.val t.isLt = (idle0_10, idle0_11, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (fun h => (fun h => by (try dsimp only at h); omega) ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (fun h => (fun h => by (try dsimp only at h); omega) ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)) := by
  obtain ⟨n, hn⟩ := t
  cases n with
  | zero => exact rfl
  | succ n => exact (dif_pos h0).trans rfl

/-- At a point in the middle of a row block, over what the point before left. -/
theorem outsAt0_B (c : Dev nD) (t : Fin cfg0.N) (h0 : ¬t.val % 8 = 0) (h1 : ¬t.val % 8 = 7) :
    outsAt0 V c t.val t.isLt = (idle0_10, idle0_11, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- At a point that closes a row block, over what the point before left. -/
theorem outsAt0_C (c : Dev nD) (t : Fin cfg0.N) (h0 : ¬t.val % 8 = 0) (h1 : t.val % 8 = 7) :
    outsAt0 V c t.val t.isLt = (out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: at the start every scoped buffer the pipeline does not stage, at anything;
    afterwards the two accumulators at what the point before left, the other such buffers unopened. -/
def PhiS0 (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(iprop(owns (c : Thread nD τ) scM0_0 fullShare ((outsAt0 V c n hn).2.2.1) ∗ owns (c : Thread nD τ) scM0_1 fullShare ((outsAt0 V c n hn).2.2.2)) ∗ restBut0 c)

theorem PhiS0_zero (c : Dev nD) (n : ℕ) (h : n ≤ cfg0.N) (hz : n = 0) :
    PhiS0 V c n h = Pipeline.scopedRest (Ix := Unit) (Name := ℕ) (U := UR sig nD τ) (Lvl := ℕ) (Val := Elt F) spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2.2.1) ∗ owns (c : Thread nD τ) scM0_1 fullShare ((outsAt0 V c n hn).2.2.2)) ∗ restBut0 c) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.1) ∗ owns (c : Thread nD τ) scM0_1 fullShare ((outsAt0 V c (n - 1) (by omega)).2.2.2)) ∗ restBut0 c) := by
  cases n with
  | zero => exact absurd rfl hz
  | succ n => rfl

/-! ## The proof data -/

/-- The region's proof data on core `c`: the arrays as the region finds them; after the body at point `t`
    each input's buffer at its block and the two outputs' at `outsAt0`; the invariant `PhiS0`; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => (outsAt0 V c t.val t.isLt).1
    | ⟨11, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = (outsAt0 V c t.val t.isLt).1 := by dsimp only [dat0]
theorem after0_11 (c : Dev nD) (t : Fin cfg0.N) : (dat0 V c).after 11 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d

end Cert.KernelIdeal.Hand

end
-- ==== Proof.KI.Body0.lean ====
import proofs.«142033_j33071248180131_1_alg».proof.Proof.KI.Dat0

/-!
# The first half-step's region: the body at every grid point

At a point the pipeline hands the body the twelve current staging buffers and the invariant. Each input
buffer holds its block; which kind of point it is follows from `t mod 8`; the invariant gives the two
accumulators (at anything before the first point, at what the point before left afterwards) and takes
them back at this point's contents, which the stored pieces cover; an output buffer is handed back
untouched where nothing is stored into it.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- What the body is called with at point `t`: the invariant, the core's dues, the twelve windows. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d)))

/-- What it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t
    ∗ (dat0 V c).leavesExact 11 t)

set_option maxHeartbeats 8000000 in
/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).owesAt () t.succ = (dat0 V c).owesAt () t.castSucc from rfl]
  rw [show (dat0 V c).Φ t.succ = PhiS0 V c (t.val + 1) t.isLt from rfl, PhiS0_succ]
  have hN : t.val < 128 := lt_of_lt_of_eq t.isLt (show cfg0.N = 128 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  rw [show (dat0 V c).leavesExact 7 t = owns (c : Thread nD τ) (ms0_7 t) fullShare ((dat0 V c).after 7 t) from by
    unfold Dat.leavesExact; rw [liveAt0_7 t], after0_7]
  rw [show (dat0 V c).leavesExact 8 t = owns (c : Thread nD τ) (ms0_8 t) fullShare ((dat0 V c).after 8 t) from by
    unfold Dat.leavesExact; rw [liveAt0_8 t], after0_8]
  rw [show (dat0 V c).leavesExact 9 t = owns (c : Thread nD τ) (ms0_9 t) fullShare ((dat0 V c).after 9 t) from by
    unfold Dat.leavesExact; rw [liveAt0_9 t], after0_9]
  by_cases h0 : t.val % 8 = 0
  · have h1 : ¬t.val % 8 = 7 := by omega
    rw [Dat.leavesExact_idle (dat0 V c) 10 t (idleAt0_10 t (fun h => h1 ((hcond0_1 t).mp h))) (noFlush0_10 t (fun h => h1 ((hcond0_1 t).mp h)))]
    rw [Dat.leavesExact_idle (dat0 V c) 11 t (idleAt0_11 t (fun h => h1 ((hcond0_1 t).mp h))) (noFlush0_11 t (fun h => h1 ((hcond0_1 t).mp h)))]
    rw [outsAt0_A V c t h0]
    unfold sout0_A_0 sout0_A_1; (try dsimp only)
    by_cases hz : t.val = 0
    · rw [PhiS0_castSucc V c t, PhiS0_zero V c _ _ hz, scopedRest0_owns]
      iintro ⟨⟨⟨HS0, HS1⟩, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_A c (grid0.coords t) _ _ _ _ _ _ _ _ _ _ _ _ _ _ _ _ _ _ _ _ _ _ _ _ _ _ _ _ ((hcond0_0 t).mpr h0) (fun h => (fun h => by (try dsimp only at h); omega) ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      isplitl [HS1]; · iexact HS1
      iintro ⟨H0, H1, H2, H3, H4, H5, H6, H7, H8, H9, H10, H11, ⟨%es0, HS0⟩, ⟨%es1, HS1⟩⟩
      isplitl [HS0 HS1 Hrest]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _ _ _ _ _)
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      iexists _; iexact H11
    · rw [PhiS0_castSucc V c t, PhiS0_pos V c _ _ hz]
      iintro ⟨⟨⟨HS0, HS1⟩, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_A c (grid0.coords t) _ _ _ _ _ _ _ _ _ _ _ _ _ _ _ _ _ _ _ _ _ _ _ _ _ _ _ _ ((hcond0_0 t).mpr h0) (fun h => (fun h => by (try dsimp only at h); omega) ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexists _; iexact HS0
      isplitl [HS1]; · iexists _; iexact HS1
      iintro ⟨H0, H1, H2, H3, H4, H5, H6, H7, H8, H9, H10, H11, ⟨%es0, HS0⟩, ⟨%es1, HS1⟩⟩
      isplitl [HS0 HS1 Hrest]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _ _ _ _ _)
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      iexists _; iexact H11
  · have hz : t.val ≠ 0 := fun h => h0 (by rw [h])
    by_cases h1 : t.val % 8 = 7
    · rw [show (dat0 V c).leavesExact 10 t = owns (c : Thread nD τ) (ms0_10 t) fullShare ((dat0 V c).after 10 t) from by
        unfold Dat.leavesExact; rw [liveAt0_10 t ((hcond0_1 t).mpr h1)], after0_10]
      rw [show (dat0 V c).leavesExact 11 t = owns (c : Thread nD τ) (ms0_11 t) fullShare ((dat0 V c).after 11 t) from by
        unfold Dat.leavesExact; rw [liveAt0_11 t ((hcond0_1 t).mpr h1)], after0_11]
      rw [outsAt0_C V c t h0 h1]
      unfold out0_C_10 out0_C_11 sout0_C_0 sout0_C_1; (try dsimp only)
      rw [PhiS0_castSucc V c t, PhiS0_pos V c _ _ hz]
      iintro ⟨⟨⟨HS0, HS1⟩, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_C c (grid0.coords t) _ _ _ _ _ _ _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [HS0]; · iexact HS0
      isplitl [HS1]; · iexact HS1
      iintro ⟨H0, H1, H2, H3, H4, H5, H6, H7, H8, H9, ⟨%e10, H10⟩, ⟨%e11, H11⟩, ⟨%es0, HS0⟩, ⟨%es1, HS1⟩⟩
      isplitl [HS0 HS1 Hrest]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ _ _ _ _ _ _ _ _ _ _ _ _)
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro; exact View.read_writes_of_cover _ _ _ _ _ (cover0_C_10 c _ _ _ _ _ _ _ _ _ _ _ _ _ _ _ _ _ _ _ _ _ _ _ _ _ _ _ _ _ _ _ _ _ _ _ _ _ _ _ _ _ _ _)
      unfold owns; iexists _; isplitr
      swap; · iexact H11
      ipureintro; exact View.read_writes_of_cover _ _ _ _ _ (cover0_C_11 c _ _ _ _ _ _ _ _ _ _ _ _ _ _ _ _ _ _ _ _ _ _ _ _ _ _ _ _ _ _ _ _ _ _ _ _ _ _ _ _ _ _ _)
    · rw [Dat.leavesExact_idle (dat0 V c) 10 t (idleAt0_10 t (fun h => h1 ((hcond0_1 t).mp h))) (noFlush0_10 t (fun h => h1 ((hcond0_1 t).mp h)))]
      rw [Dat.leavesExact_idle (dat0 V c) 11 t (idleAt0_11 t (fun h => h1 ((hcond0_1 t).mp h))) (noFlush0_11 t (fun h => h1 ((hcond0_1 t).mp h)))]
      rw [outsAt0_B V c t h0 h1]
      unfold sout0_B_0 sout0_B_1; (try dsimp only)
      rw [PhiS0_castSucc V c t, PhiS0_pos V c _ _ hz]
      iintro ⟨⟨⟨HS0, HS1⟩, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_B c (grid0.coords t) _ _ _ _ _ _ _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      isplitl [HS1]; · iexact HS1
      iintro ⟨H0, H1, H2, H3, H4, H5, H6, H7, H8, H9, H10, H11, ⟨%es0, HS0⟩, ⟨%es1, HS1⟩⟩
      isplitl [HS0 HS1 Hrest]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _ _ _ _ _ _ _ _ _ _ _)
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      iexists _; iexact H11

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is handed at its start is the invariant before the first point. -/
theorem hin0 (c : Dev nD) :
    (Pipeline.scopedRest (Ix := Unit) (Name := ℕ) (U := UR sig nD τ) (Lvl := ℕ) (Val := Elt F) spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives those buffers back: the accumulators' contents
    are forgotten. -/
theorem Phi_out0 (c : Dev nD) (t : Fin (cfg0.N + 1)) (ht : t.val ≠ 0) :
    (dat0 V c).Φ t ⊢ (Pipeline.scopedRest (Ix := Unit) (Name := ℕ) (U := UR sig nD τ) (Lvl := ℕ) (Val := Elt F) spec0 c : sProp 𝕄) := by
  rw [show (dat0 V c).Φ t = PhiS0 V c t.val (Nat.le_of_lt_succ t.isLt) from rfl, PhiS0_pos V c _ _ ht, scopedRest0_owns]
  iintro ⟨⟨HS0, HS1⟩, Hrest⟩
  isplitl [HS0 HS1]
  · isplitl [HS0]
    · iexists _; iexact HS0
    · iexists _; iexact HS1
  iexact Hrest

/-- The same after the last point. -/
theorem hout0 (c : Dev nD) :
    (dat0 V c).Φ (Fin.last cfg0.N) ⊢ (Pipeline.scopedRest (Ix := Unit) (Name := ℕ) (U := UR sig nD τ) (Lvl := ℕ) (Val := Elt F) spec0 c : sProp 𝕄) :=
  Phi_out0 V c _ (by rw [Fin.val_last]; have : cfg0.N = 128 := N_0; omega)

end Cert.KernelIdeal.Hand

end
-- ==== Proof.KI.Base1.lean ====
import proofs.«142033_j33071248180131_1_alg».proof.Proof.Gen.KernelIdeal.Launch
import proofs.«142033_j33071248180131_1_alg».proof.Proof.Gen.KernelIdeal.Skeleton
import proofs.«142033_j33071248180131_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

/-!
# The second half-step's region: what its three kinds of grid point share

The grid is 16 row blocks by 8 hidden tiles, walked row block by row block. Along a row block the
kernel keeps two accumulators (one per perceptron) in scratch: the tile `h = 0` clears them, every tile
adds its partial product, and the tile `h = 7` adds the output biases and writes the updated half and
the log-determinant column. So a point is of one of three kinds, told apart by `t mod 8`:
`0` (clear, then accumulate), `1..6` (accumulate), `7` (accumulate, then write the two outputs).
The output windows are idle, and not written back, at the points that store nothing into them.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not
    (a window is only left unfetched while its block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-! ## The two branch conditions, in closed form over the grid -/

/-- The accumulators are cleared: the hidden-tile coordinate is zero. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The outputs are written: the hidden-tile coordinate is the last. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
theorem liveAt1_8 : ∀ t : Fin cfg1.N, cfg1.idle 8 (grid1.coords t) = false := by decide +kernel
theorem liveAt1_9 : ∀ t : Fin cfg1.N, cfg1.idle 9 (grid1.coords t) = false := by decide +kernel
theorem idleAt1_10 : ∀ t : Fin cfg1.N, ¬cond1_1 (grid1.coords t) → cfg1.idle 10 (grid1.coords t) = true := by decide +kernel
theorem noFlush1_10 : ∀ t : Fin cfg1.N, ¬cond1_1 (grid1.coords t) → (cfg1.win 10).flush t = false := by decide +kernel
theorem liveAt1_10 : ∀ t : Fin cfg1.N, cond1_1 (grid1.coords t) → cfg1.idle 10 (grid1.coords t) = false := by decide +kernel
theorem idleAt1_11 : ∀ t : Fin cfg1.N, ¬cond1_1 (grid1.coords t) → cfg1.idle 11 (grid1.coords t) = true := by decide +kernel
theorem noFlush1_11 : ∀ t : Fin cfg1.N, ¬cond1_1 (grid1.coords t) → (cfg1.win 11).flush t = false := by decide +kernel
theorem liveAt1_11 : ∀ t : Fin cfg1.N, cond1_1 (grid1.coords t) → cfg1.idle 11 (grid1.coords t) = false := by decide +kernel

/-! ## The memrefs the body is called with -/

abbrev ms1_0 (t : Fin cfg1.N) : Memref sig .tc .vmem S512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x512 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S512 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S512x1024 .bf16 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1024 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S512x1024 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S512x1 .f32 := win1_11.stage (cfg1.slots t 11)
abbrev hs1_11 (t : Fin cfg1.N) : (ms1_11 t).IsWhole := hstage1_11 ((cfg1.slots t 11).cast nbuf1_11)
/-- The two accumulators: whole scoped buffers of the kernel's own. -/
abbrev scM1_0 : Memref sig .tc .vmem S512x1024 .f32 := Memref.whole cc1_scratch0
abbrev scM1_1 : Memref sig .tc .vmem S512x1024 .f32 := Memref.whole cc1_scratch1
/-- Views through which the outputs' and the accumulators' contents are stated. -/
abbrev VO1_10 : View sig .tc .vmem S512x1024 .f32 := (Memref.whole cc1_stg10_0 : Memref sig .tc .vmem S512x1024 .f32).view
abbrev VO1_11 : View sig .tc .vmem S512x1 .f32 := (Memref.whole cc1_stg11_0 : Memref sig .tc .vmem S512x1 .f32).view
abbrev VS1_0 : View sig .tc .vmem S512x1024 .f32 := scM1_0.view
abbrev VS1_1 : View sig .tc .vmem S512x1024 .f32 := scM1_1.view

/-- What the region's invariant holds besides the accumulators: every other scoped buffer the pipeline
    does not stage, unopened. -/
abbrev restBut1 (c : Dev nD) : sProp 𝕄 :=
  Pipeline.scopedRestBut (Ix := Unit) (Name := ℕ) (U := UR sig nD τ) (Lvl := ℕ) (Val := Elt F) spec1 c [cc1_scratch0, cc1_scratch1]

/-- The scoped rest with the two accumulators as memrefs owned at some contents. -/
theorem scopedRest1_owns (c : Dev nD) :
    (Pipeline.scopedRest (Ix := Unit) (Name := ℕ) (U := UR sig nD τ) (Lvl := ℕ) (Val := Elt F) spec1 c : sProp 𝕄)
      = iprop(iprop((∃ d, owns (c : Thread nD τ) scM1_0 fullShare d) ∗ (∃ d, owns (c : Thread nD τ) scM1_1 fullShare d)) ∗ restBut1 c) := by
  rw [scopedRest1_split]; simp only [scM1_0, scM1_1, owns_whole]; try rfl

end Cert.KernelIdeal.Hand

end
-- ==== Proof.KI.Run1A.lean ====
import proofs.«142033_j33071248180131_1_alg».proof.Proof.KI.Base1

/-!
# A point that opens a row block (hidden tile 0)

Both accumulators are cleared and the first partial products added into them; nothing is stored into
the two output buffers, which are handed back as they came.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point with the hidden-tile coordinate zero: from the ten input buffers at their
    contents, the two output buffers at anything (`xi10`, `xi11`, handed back untouched) and the two
    accumulators at anything, it runs to its return with the inputs and outputs as they were and each
    accumulator written piece by piece; the pieces are what the run finds. -/
noncomputable def kernelRun1_A (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : cond1_0 i) (hc1 : ¬cond1_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) :
    Σ' (L10 : List (View.Piece (Elt F) S512x1024 .f32)) (L11 : List (View.Piece (Elt F) S512x1 .f32)) (LS0 : List (View.Piece (Elt F) S512x1024 .f32)), { LS1 : List (View.Piece (Elt F) S512x1024 .f32) //
      ∀ (xi10 : Vec F S512x1024 .f32) (xi11 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xi11 ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xi11 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc1__half_step_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], [], ?_, ?_, fun xi10 xi11 E K => ?run⟩
  case run =>
    simp only [cc1__half_step_kernel_eq_skeleton]; unfold cc1__half_step_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [HS0]; · iexists _; iexact HS0
    iexists _; iexact HS1

end Cert.KernelIdeal.Hand

end
-- ==== Proof.KI.Run1B.lean ====
import proofs.«142033_j33071248180131_1_alg».proof.Proof.KI.Base1

/-!
# A point in the middle of a row block (hidden tiles 1 to 6)

Each accumulator, holding what the tile before left, takes this tile's partial product; nothing is
stored into the two output buffers, which are handed back as they came.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point whose hidden-tile coordinate is neither zero nor the last: from the ten input
    buffers at their contents, the two output buffers at anything (handed back untouched) and the two
    accumulators at what the point before left (`xs0`, `xs1`), it runs to its return with the inputs and
    outputs as they were and each accumulator written piece by piece; the pieces are what the run finds. -/
noncomputable def kernelRun1_B (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond1_0 i) (hc1 : ¬cond1_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) :
    Σ' (L10 : List (View.Piece (Elt F) S512x1024 .f32)) (L11 : List (View.Piece (Elt F) S512x1 .f32)) (LS0 : List (View.Piece (Elt F) S512x1024 .f32)), { LS1 : List (View.Piece (Elt F) S512x1024 .f32) //
      ∀ (xi10 : Vec F S512x1024 .f32) (xi11 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xi11 ∗ owns (c : Thread nD τ) arg14 fullShare xs0 ∗ owns (c : Thread nD τ) arg15 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xi11 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc1__half_step_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], [], ?_, ?_, fun xi10 xi11 E K => ?run⟩
  case run =>
    simp only [cc1__half_step_kernel_eq_skeleton]; unfold cc1__half_step_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hfs0; obtain rfl := harg15.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [HS0]; · iexists _; iexact HS0
    iexists _; iexact HS1

end Cert.KernelIdeal.Hand

end
-- ==== Proof.KI.Run1C.lean ====
import proofs.«142033_j33071248180131_1_alg».proof.Proof.KI.Base1

/-!
# A point that closes a row block (hidden tile 7)

Each accumulator takes the last partial product; then the output biases are added, the log-scale is
formed, and the updated half and the log-determinant column are stored whole into the two output
buffers.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point with the last hidden-tile coordinate: from the ten input buffers at their
    contents, the two output buffers at anything and the two accumulators at what the point before left
    (`xs0`, `xs1`), it runs to its return with the inputs as they were and the two outputs and the two
    accumulators written piece by piece; the pieces are what the run finds. -/
noncomputable def kernelRun1_C (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond1_0 i) (hc1 : cond1_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) :
    Σ' (L10 : List (View.Piece (Elt F) S512x1024 .f32)) (L11 : List (View.Piece (Elt F) S512x1 .f32)) (LS0 : List (View.Piece (Elt F) S512x1024 .f32)), { LS1 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ owns (c : Thread nD τ) arg14 fullShare xs0 ∗ owns (c : Thread nD τ) arg15 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc1__half_step_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc1__half_step_kernel_eq_skeleton]; unfold cc1__half_step_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg14.eq_unread hfs0; obtain rfl := harg15.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [HS0]; · iexists _; iexact HS0
    iexists _; iexact HS1

end Cert.KernelIdeal.Hand

end
-- ==== Proof.KI.Dat1.lean ====
import proofs.«142033_j33071248180131_1_alg».proof.Proof.KI.Run1A
import proofs.«142033_j33071248180131_1_alg».proof.Proof.KI.Run1B
import proofs.«142033_j33071248180131_1_alg».proof.Proof.KI.Run1C

/-!
# The second half-step's region: what its buffers hold point by point, and its proof data

Each kind of point leaves pieces in the accumulators (and, when it closes a row block, in the two
outputs); the pieces tile the buffer they are stored into, so reading them back gives the buffer's
contents. `outsAt1` follows the grid: a point that opens a row block starts from nothing, every other
point from what the point before left in the accumulators. The region's invariant holds the two
accumulators at those contents; the proof data say each input buffer holds its block and each output
buffer what `outsAt1` says.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each kind of point leaves -/

/-- In this case the pieces stored into the first accumulator tile it, so they cover it. -/
theorem scover1_A_0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : cond1_0 i) (hc1 : ¬cond1_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (y : S512x1024.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.1 S512x1024.size (by sl_kernel_rfl) y
/-- The same for the second accumulator. -/
theorem scover1_A_1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : cond1_0 i) (hc1 : ¬cond1_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (y : S512x1024.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.2.1 S512x1024.size (by sl_kernel_rfl) y
/-- What this case leaves in the first accumulator: its pieces read back. -/
def sout1_A_0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : cond1_0 i) (hc1 : ¬cond1_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) : Vec F S512x1024 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.1)
/-- What this case leaves in the second accumulator. -/
def sout1_A_1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : cond1_0 i) (hc1 : ¬cond1_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) : Vec F S512x1024 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.2.1)

/-- In this case the pieces stored into the first accumulator tile it, so they cover it. -/
theorem scover1_B_0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond1_0 i) (hc1 : ¬cond1_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) (y : S512x1024.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.1 S512x1024.size (by sl_kernel_rfl) y
/-- The same for the second accumulator. -/
theorem scover1_B_1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond1_0 i) (hc1 : ¬cond1_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) (y : S512x1024.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.2.1 S512x1024.size (by sl_kernel_rfl) y
/-- What this case leaves in the first accumulator: its pieces read back. -/
def sout1_B_0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond1_0 i) (hc1 : ¬cond1_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) : Vec F S512x1024 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.1)
/-- What this case leaves in the second accumulator. -/
def sout1_B_1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond1_0 i) (hc1 : ¬cond1_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) : Vec F S512x1024 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.2.1)

/-- In this case the pieces stored into the first accumulator tile it, so they cover it. -/
theorem scover1_C_0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond1_0 i) (hc1 : cond1_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) (y : S512x1024.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.1 S512x1024.size (by sl_kernel_rfl) y
/-- The same for the second accumulator. -/
theorem scover1_C_1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond1_0 i) (hc1 : cond1_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) (y : S512x1024.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.2.1 S512x1024.size (by sl_kernel_rfl) y
/-- What this case leaves in the first accumulator: its pieces read back. -/
def sout1_C_0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond1_0 i) (hc1 : cond1_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) : Vec F S512x1024 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.1)
/-- What this case leaves in the second accumulator. -/
def sout1_C_1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond1_0 i) (hc1 : cond1_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) : Vec F S512x1024 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.2.1)

/-- The closing case's pieces for the updated half tile its block, so they cover it. -/
theorem cover1_C_10 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond1_0 i) (hc1 : cond1_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) (y : S512x1024.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).1 S512x1024.size (by sl_kernel_rfl) y
/-- The same for the log-determinant column. -/
theorem cover1_C_11 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond1_0 i) (hc1 : cond1_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) (y : S512x1.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.1 S512x1.size (by sl_kernel_rfl) y
/-- What the closing case leaves in the updated half's buffer. -/
def out1_C_10 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond1_0 i) (hc1 : cond1_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) : Vec F S512x1024 .f32 :=
  VO1_10.read (Elt F) (VO1_10.writes (Elt F) VO1_10.junk (kernelRun1_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).1)
/-- What it leaves in the log-determinant column's buffer. -/
def out1_C_11 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond1_0 i) (hc1 : cond1_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) : Vec F S512x1 .f32 :=
  VO1_11.read (Elt F) (VO1_11.writes (Elt F) VO1_11.junk (kernelRun1_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.1)

/-- Placeholders for an output buffer at a point that stores nothing into it (the window is idle and not
    written back there, so nothing consults them). -/
def idle1_10 : Vec F S512x1024 .f32 := VO1_10.read (Elt F) VO1_10.junk
def idle1_11 : Vec F S512x1 .f32 := VO1_11.read (Elt F) VO1_11.junk

-- the TensorCore's buffer contents when the region is entered
variable (V : (c : Dev nD) → (b : Ref sig .tc) → Buf (Elt F) ((c : Thread nD τ).loc b))

/-! ## Point by point -/

/-- What the two output buffers and the two accumulators hold after the body at position `n`: the kind
    of point is read off `n mod 8`; a point that does not open a row block starts from the accumulators
    as the point before left them. -/
def outsAt1 (c : Dev nD) : (n : ℕ) → n < cfg1.N → Vec F S512x1024 .f32 × Vec F S512x1 .f32 × Vec F S512x1024 .f32 × Vec F S512x1024 .f32
  | 0, hn => (idle1_10, idle1_11, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩))
  | n + 1, hn =>
    if h0 : (n + 1) % 8 = 0 then
      (idle1_10, idle1_11, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩))
    else
      if h1 : (n + 1) % 8 = 7 then
        (out1_C_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.2.1 (outsAt1 c n (Nat.lt_of_succ_lt hn)).2.2.2, out1_C_11 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.2.1 (outsAt1 c n (Nat.lt_of_succ_lt hn)).2.2.2)
      else
        (idle1_10, idle1_11, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.2.1 (outsAt1 c n (Nat.lt_of_succ_lt hn)).2.2.2)

/-- At a point that opens a row block. -/
theorem outsAt1_A (c : Dev nD) (t : Fin cfg1.N) (h0 : t.val % 8 = 0) :
    outsAt1 V c t.val t.isLt = (idle1_10, idle1_11, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) ((hcond1_0 t).mpr h0) (fun h => (fun h => by (try dsimp only at h); omega) ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) ((hcond1_0 t).mpr h0) (fun h => (fun h => by (try dsimp only at h); omega) ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)) := by
  obtain ⟨n, hn⟩ := t
  cases n with
  | zero => exact rfl
  | succ n => exact (dif_pos h0).trans rfl

/-- At a point in the middle of a row block, over what the point before left. -/
theorem outsAt1_B (c : Dev nD) (t : Fin cfg1.N) (h0 : ¬t.val % 8 = 0) (h1 : ¬t.val % 8 = 7) :
    outsAt1 V c t.val t.isLt = (idle1_10, idle1_11, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- At a point that closes a row block, over what the point before left. -/
theorem outsAt1_C (c : Dev nD) (t : Fin cfg1.N) (h0 : ¬t.val % 8 = 0) (h1 : t.val % 8 = 7) :
    outsAt1 V c t.val t.isLt = (out1_C_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.2.1 (outsAt1 V c (t.val - 1) (Nat.lt_of_le_of_lt (Nat.sub_le _ _) t.isLt)).2.2.2, out1_C_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: at the start every scoped buffer the pipeline does not stage, at anything;
    afterwards the two accumulators at what the point before left, the other such buffers unopened. -/
def PhiS1 (c : Dev nD) : (n : ℕ) → n ≤ cfg1.N → sProp 𝕄
  | 0, _ => Pipeline.scopedRest (Ix := Unit) (Name := ℕ) (U := UR sig nD τ) (Lvl := ℕ) (Val := Elt F) spec1 c
  | n + 1, hn => iprop(iprop(owns (c : Thread nD τ) scM1_0 fullShare ((outsAt1 V c n hn).2.2.1) ∗ owns (c : Thread nD τ) scM1_1 fullShare ((outsAt1 V c n hn).2.2.2)) ∗ restBut1 c)

theorem PhiS1_zero (c : Dev nD) (n : ℕ) (h : n ≤ cfg1.N) (hz : n = 0) :
    PhiS1 V c n h = Pipeline.scopedRest (Ix := Unit) (Name := ℕ) (U := UR sig nD τ) (Lvl := ℕ) (Val := Elt F) spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2.2.1) ∗ owns (c : Thread nD τ) scM1_1 fullShare ((outsAt1 V c n hn).2.2.2)) ∗ restBut1 c) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2.2.1) ∗ owns (c : Thread nD τ) scM1_1 fullShare ((outsAt1 V c (n - 1) (by omega)).2.2.2)) ∗ restBut1 c) := by
  cases n with
  | zero => exact absurd rfl hz
  | succ n => rfl

/-! ## The proof data -/

/-- The region's proof data on core `c`: the arrays as the region finds them; after the body at point `t`
    each input's buffer at its block and the two outputs' at `outsAt1`; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => (outsAt1 V c t.val t.isLt).1
    | ⟨11, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = (outsAt1 V c t.val t.isLt).1 := by dsimp only [dat1]
theorem after1_11 (c : Dev nD) (t : Fin cfg1.N) : (dat1 V c).after 11 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

end Cert.KernelIdeal.Hand

end
-- ==== Proof.KI.Body1.lean ====
import proofs.«142033_j33071248180131_1_alg».proof.Proof.KI.Dat1

/-!
# The second half-step's region: the body at every grid point

At a point the pipeline hands the body the twelve current staging buffers and the invariant. Each input
buffer holds its block; which kind of point it is follows from `t mod 8`; the invariant gives the two
accumulators (at anything before the first point, at what the point before left afterwards) and takes
them back at this point's contents, which the stored pieces cover; an output buffer is handed back
untouched where nothing is stored into it.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- What the body is called with at point `t`: the invariant, the core's dues, the twelve windows. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d)))

/-- What it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t)

set_option maxHeartbeats 8000000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  rw [show (dat1 V c).leavesExact 8 t = owns (c : Thread nD τ) (ms1_8 t) fullShare ((dat1 V c).after 8 t) from by
    unfold Dat.leavesExact; rw [liveAt1_8 t], after1_8]
  rw [show (dat1 V c).leavesExact 9 t = owns (c : Thread nD τ) (ms1_9 t) fullShare ((dat1 V c).after 9 t) from by
    unfold Dat.leavesExact; rw [liveAt1_9 t], after1_9]
  by_cases h0 : t.val % 8 = 0
  · have h1 : ¬t.val % 8 = 7 := by omega
    rw [Dat.leavesExact_idle (dat1 V c) 10 t (idleAt1_10 t (fun h => h1 ((hcond1_1 t).mp h))) (noFlush1_10 t (fun h => h1 ((hcond1_1 t).mp h)))]
    rw [Dat.leavesExact_idle (dat1 V c) 11 t (idleAt1_11 t (fun h => h1 ((hcond1_1 t).mp h))) (noFlush1_11 t (fun h => h1 ((hcond1_1 t).mp h)))]
    rw [outsAt1_A V c t h0]
    unfold sout1_A_0 sout1_A_1; (try dsimp only)
    by_cases hz : t.val = 0
    · rw [PhiS1_castSucc V c t, PhiS1_zero V c _ _ hz, scopedRest1_owns]
      iintro ⟨⟨⟨HS0, HS1⟩, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun1_A c (grid1.coords t) _ _ _ _ _ _ _ _ _ _ _ _ _ _ _ _ _ _ _ _ _ _ _ _ _ _ _ _ ((hcond1_0 t).mpr h0) (fun h => (fun h => by (try dsimp only at h); omega) ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      isplitl [HS1]; · iexact HS1
      iintro ⟨H0, H1, H2, H3, H4, H5, H6, H7, H8, H9, H10, H11, ⟨%es0, HS0⟩, ⟨%es1, HS1⟩⟩
      isplitl [HS0 HS1 Hrest]
      · isplitl [HS0 HS1]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover1_A_1 c _ _ _ _ _ _ _ _ _ _ _ _ _ _ _ _ _ _ _ _ _ _ _ _ _ _ _ _ _ _ _ _ _ _ _ _ _ _ _ _ _)
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      iexists _; iexact H11
    · rw [PhiS1_castSucc V c t, PhiS1_pos V c _ _ hz]
      iintro ⟨⟨⟨HS0, HS1⟩, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun1_A c (grid1.coords t) _ _ _ _ _ _ _ _ _ _ _ _ _ _ _ _ _ _ _ _ _ _ _ _ _ _ _ _ ((hcond1_0 t).mpr h0) (fun h => (fun h => by (try dsimp only at h); omega) ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexists _; iexact HS0
      isplitl [HS1]; · iexists _; iexact HS1
      iintro ⟨H0, H1, H2, H3, H4, H5, H6, H7, H8, H9, H10, H11, ⟨%es0, HS0⟩, ⟨%es1, HS1⟩⟩
      isplitl [HS0 HS1 Hrest]
      · isplitl [HS0 HS1]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover1_A_1 c _ _ _ _ _ _ _ _ _ _ _ _ _ _ _ _ _ _ _ _ _ _ _ _ _ _ _ _ _ _ _ _ _ _ _ _ _ _ _ _ _)
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      iexists _; iexact H11
  · have hz : t.val ≠ 0 := fun h => h0 (by rw [h])
    by_cases h1 : t.val % 8 = 7
    · rw [show (dat1 V c).leavesExact 10 t = owns (c : Thread nD τ) (ms1_10 t) fullShare ((dat1 V c).after 10 t) from by
        unfold Dat.leavesExact; rw [liveAt1_10 t ((hcond1_1 t).mpr h1)], after1_10]
      rw [show (dat1 V c).leavesExact 11 t = owns (c : Thread nD τ) (ms1_11 t) fullShare ((dat1 V c).after 11 t) from by
        unfold Dat.leavesExact; rw [liveAt1_11 t ((hcond1_1 t).mpr h1)], after1_11]
      rw [outsAt1_C V c t h0 h1]
      unfold out1_C_10 out1_C_11 sout1_C_0 sout1_C_1; (try dsimp only)
      rw [PhiS1_castSucc V c t, PhiS1_pos V c _ _ hz]
      iintro ⟨⟨⟨HS0, HS1⟩, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun1_C c (grid1.coords t) _ _ _ _ _ _ _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [HS0]; · iexact HS0
      isplitl [HS1]; · iexact HS1
      iintro ⟨H0, H1, H2, H3, H4, H5, H6, H7, H8, H9, ⟨%e10, H10⟩, ⟨%e11, H11⟩, ⟨%es0, HS0⟩, ⟨%es1, HS1⟩⟩
      isplitl [HS0 HS1 Hrest]
      · isplitl [HS0 HS1]
        · isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover1_C_1 c _ _ _ _ _ _ _ _ _ _ _ _ _ _ _ _ _ _ _ _ _ _ _ _ _ _ _ _ _ _ _ _ _ _ _ _ _ _ _ _ _ _ _)
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro; exact View.read_writes_of_cover _ _ _ _ _ (cover1_C_10 c _ _ _ _ _ _ _ _ _ _ _ _ _ _ _ _ _ _ _ _ _ _ _ _ _ _ _ _ _ _ _ _ _ _ _ _ _ _ _ _ _ _ _)
      unfold owns; iexists _; isplitr
      swap; · iexact H11
      ipureintro; exact View.read_writes_of_cover _ _ _ _ _ (cover1_C_11 c _ _ _ _ _ _ _ _ _ _ _ _ _ _ _ _ _ _ _ _ _ _ _ _ _ _ _ _ _ _ _ _ _ _ _ _ _ _ _ _ _ _ _)
    · rw [Dat.leavesExact_idle (dat1 V c) 10 t (idleAt1_10 t (fun h => h1 ((hcond1_1 t).mp h))) (noFlush1_10 t (fun h => h1 ((hcond1_1 t).mp h)))]
      rw [Dat.leavesExact_idle (dat1 V c) 11 t (idleAt1_11 t (fun h => h1 ((hcond1_1 t).mp h))) (noFlush1_11 t (fun h => h1 ((hcond1_1 t).mp h)))]
      rw [outsAt1_B V c t h0 h1]
      unfold sout1_B_0 sout1_B_1; (try dsimp only)
      rw [PhiS1_castSucc V c t, PhiS1_pos V c _ _ hz]
      iintro ⟨⟨⟨HS0, HS1⟩, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun1_B c (grid1.coords t) _ _ _ _ _ _ _ _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      isplitl [HS1]; · iexact HS1
      iintro ⟨H0, H1, H2, H3, H4, H5, H6, H7, H8, H9, H10, H11, ⟨%es0, HS0⟩, ⟨%es1, HS1⟩⟩
      isplitl [HS0 HS1 Hrest]
      · isplitl [HS0 HS1]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover1_B_1 c _ _ _ _ _ _ _ _ _ _ _ _ _ _ _ _ _ _ _ _ _ _ _ _ _ _ _ _ _ _ _ _ _ _ _ _ _ _ _ _ _ _ _)
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      iexists _; iexact H11

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is handed at its start is the invariant before the first point. -/
theorem hin1 (c : Dev nD) :
    (Pipeline.scopedRest (Ix := Unit) (Name := ℕ) (U := UR sig nD τ) (Lvl := ℕ) (Val := Elt F) spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives those buffers back: the accumulators' contents
    are forgotten. -/
theorem Phi_out1 (c : Dev nD) (t : Fin (cfg1.N + 1)) (ht : t.val ≠ 0) :
    (dat1 V c).Φ t ⊢ (Pipeline.scopedRest (Ix := Unit) (Name := ℕ) (U := UR sig nD τ) (Lvl := ℕ) (Val := Elt F) spec1 c : sProp 𝕄) := by
  rw [show (dat1 V c).Φ t = PhiS1 V c t.val (Nat.le_of_lt_succ t.isLt) from rfl, PhiS1_pos V c _ _ ht, scopedRest1_owns]
  iintro ⟨⟨HS0, HS1⟩, Hrest⟩
  isplitl [HS0 HS1]
  · isplitl [HS0]
    · iexists _; iexact HS0
    · iexists _; iexact HS1
  iexact Hrest

/-- The same after the last point. -/
theorem hout1 (c : Dev nD) :
    (dat1 V c).Φ (Fin.last cfg1.N) ⊢ (Pipeline.scopedRest (Ix := Unit) (Name := ℕ) (U := UR sig nD τ) (Lvl := ℕ) (Val := Elt F) spec1 c : sProp 𝕄) :=
  Phi_out1 V c _ (by rw [Fin.val_last]; have : cfg1.N = 128 := N_1; omega)

end Cert.KernelIdeal.Hand

end
-- ==== Proof.KI.RunCond.lean ====
/-
  The whole program's run, given each region's record: every weakly fair execution of the host
  operations and the two kernel regions terminates, and at the end EVERY buffer that outlives the
  regions holds what the last valuation says — the arguments as launched, and the two results as the
  host operations after the second region compute them from what the regions left.
-/
import proofs.«142033_j33071248180131_1_alg».proof.Proof.Gen.KernelIdeal.Regions

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- `θ_run_regions_kit_dev`'s implicit arguments are found by unifying its conclusion with this one, which takes unfolding
-- plain definitions in a metavariable's type
set_option backward.isDefEq.respectTransparency.types false in
/-- THE RUN, GIVEN THE REGIONS' RECORDS, with every buffer that outlives the regions named at the end. For any user algebra, level assignment, launch dues and ghost resources, any rest states
    `E` the launch makes on every core at once (`hE0`) and that end owing nothing (`hE2`), any contents the regions
    leave (`outs`) and any proof data: GIVEN, per region K, a segment record entered from this module's thread state
    before it and left at the one after it (`RK`, `hpreK`, `hpostK`), every weakly fair execution of @main from memory `m`
    with zero counters terminates and every final memory holds each argument as launched (the post claims.py's frame
    claim states, at any `F`). -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c)) :
    θ_run defs (onTc (τ := τ) (main (F := F))) ⟨m, fun _ => 0, ρ⟩ (fun r => ∀ c : Dev nD,
      ∀ b ∈ Pipeline.ucRefs τ sig, r.2.mem ((c : Thread nD τ).1, b) = V5 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V5 m outs c))
    (hch := fun c => ⟨.rfl, hpre0 c, hpost0 c, hpre1 c, hpost1 c, sep_mono .rfl (hE2 c)⟩)
    (hinit := ?_) (QY := fun c s => ∀ b ∈ Pipeline.ucRefs τ sig, s.mem ((c : Thread nD τ).1, b) = V5 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V5 m outs c) s') $$ [Hh HSI]
    · isplitl [Hh] <;> iassumption
    icases Hr with ⟨%h, HSI⟩
    imodintro
    isplitr
    · ipureintro
      exact h
    · iexact HSI

end Cert.KernelIdeal.Gen

end
-- ==== Proof.KI.Launch.lean ====
import proofs.«142033_j33071248180131_1_alg».proof.Proof.KI.Body0
import proofs.«142033_j33071248180131_1_alg».proof.Proof.KI.Body1
import proofs.«142033_j33071248180131_1_alg».proof.Proof.KI.RunCond

/-!
# The whole program: two half-step regions among the host operations

Between the program's items every buffer that outlives the regions is held at a valuation: the launch
memory, then each stretch of host operations applied, then — after a region — its two result arrays at
what the region's write-backs leave (the fold of the pipeline's flushes over the grid) and everything
else as before. The first region is entered from the valuation after the first stretch; the second from
the one after the second stretch, which already holds the first region's results. Each region's record
splits its twelve arrays out of the held buffers, runs the pipeline over the body obligation, and puts the
arrays back at their exit contents.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave, and the valuations between the items -/

/-- The first region's entry contents: the launch memory after the first stretch of host operations. -/
abbrev VV1 : (c : Dev nD) → (b : Ref sig .tc) → Buf (Elt F) ((c : Thread nD τ).loc b) := fun c b => Gen.V1 m c b

/-- After the first region: its arrays at what the pipeline leaves, everything else as entered. -/
def outsA : Gen.Outs (F := F) := fun _ r c =>
  Pipeline.withArrays spec0 c (Gen.V1 m c) (fun w => (dat0 (VV1 m) c).arrAt w cfg0.N) (Proc.devRef .tc r)

/-- The second region's entry contents: after the second stretch, from the first region's exit. -/
abbrev VV3 : (c : Dev nD) → (b : Ref sig .tc) → Buf (Elt F) ((c : Thread nD τ).loc b) := fun c b => Gen.V3 m (outsA m) c b

/-- What both regions leave: the second region's arrays at what its pipeline leaves. -/
def outsOf : Gen.Outs (F := F) := fun J r c =>
  match J with
  | 4 => Pipeline.withArrays spec1 c (Gen.V3 m (outsA m) c) (fun w => (dat1 (VV3 m) c).arrAt w cfg1.N) (Proc.devRef .tc r)
  | _ => outsA m J r c

/-- Up to the second region's entry the two choices agree. -/
theorem V2_outs (c : Dev nD) : Gen.V2 m (outsOf m) c = Gen.V2 m (outsA m) c := rfl
theorem V3_outs (c : Dev nD) : Gen.V3 m (outsOf m) c = Gen.V3 m (outsA m) c := rfl

/-- A region's result array after the region is what was put there. -/
theorem V2_at_v6_0 (outs : Gen.Outs (F := F)) (c : Dev nD) : Gen.V2 m outs c main_v6_0 = outs 2 main_v6_0 c := by
  simp only [Gen.V2]
  rw [Function.update_of_ne (StableHlo.devRef_ne_of_ne (by decide) : (Proc.devRef .tc main_v6_0 : DevRef τ sig) ≠ Proc.devRef .tc main_v6_1), Function.update_self]
theorem V2_at_v6_1 (outs : Gen.Outs (F := F)) (c : Dev nD) : Gen.V2 m outs c main_v6_1 = outs 2 main_v6_1 c := by
  simp only [Gen.V2]
  rw [Function.update_self]
theorem V4_at_v11_0 (outs : Gen.Outs (F := F)) (c : Dev nD) : Gen.V4 m outs c main_v11_0 = outs 4 main_v11_0 c := by
  simp only [Gen.V4]
  rw [Function.update_of_ne (StableHlo.devRef_ne_of_ne (by decide) : (Proc.devRef .tc main_v11_0 : DevRef τ sig) ≠ Proc.devRef .tc main_v11_1), Function.update_self]
theorem V4_at_v11_1 (outs : Gen.Outs (F := F)) (c : Dev nD) : Gen.V4 m outs c main_v11_1 = outs 4 main_v11_1 c := by
  simp only [Gen.V4]
  rw [Function.update_self]

/-- What was chosen for the first region's result arrays is what its pipeline leaves, -/
theorem outsA_v6_0 (J : ℕ) (c : Dev nD) : outsA m J main_v6_0 c = (dat0 (VV1 m) c).arrAt 10 cfg0.N := by
  unfold outsA; exact Pipeline.withArrays_arr spec0 launch0.win.arr_inj c _ _ 10
theorem outsA_v6_1 (J : ℕ) (c : Dev nD) : outsA m J main_v6_1 c = (dat0 (VV1 m) c).arrAt 11 cfg0.N := by
  unfold outsA; exact Pipeline.withArrays_arr spec0 launch0.win.arr_inj c _ _ 11
/-- and for the second region's. -/
theorem outsOf_v11_0 (c : Dev nD) : outsOf m 4 main_v11_0 c = (dat1 (VV3 m) c).arrAt 10 cfg1.N := by
  unfold outsOf; dsimp only; exact Pipeline.withArrays_arr spec1 launch1.win.arr_inj c _ _ 10
theorem outsOf_v11_1 (c : Dev nD) : outsOf m 4 main_v11_1 c = (dat1 (VV3 m) c).arrAt 11 cfg1.N := by
  unfold outsOf; dsimp only; exact Pipeline.withArrays_arr spec1 launch1.win.arr_inj c _ _ 11
theorem outsOf_two (r : Ref sig .tc) (c : Dev nD) : outsOf m 2 r c = outsA m 2 r c := rfl

/-- The first region's two result arrays in the valuation after it. -/
theorem V2_v6_0 (c : Dev nD) : Gen.V2 m (outsOf m) c main_v6_0 = (dat0 (VV1 m) c).arrAt 10 cfg0.N :=
  (V2_at_v6_0 m (outsOf m) c).trans ((outsOf_two m _ c).trans (outsA_v6_0 m 2 c))
theorem V2_v6_1 (c : Dev nD) : Gen.V2 m (outsOf m) c main_v6_1 = (dat0 (VV1 m) c).arrAt 11 cfg0.N :=
  (V2_at_v6_1 m (outsOf m) c).trans ((outsOf_two m _ c).trans (outsA_v6_1 m 2 c))
/-- The second region's. -/
theorem V4_v11_0 (c : Dev nD) : Gen.V4 m (outsOf m) c main_v11_0 = (dat1 (VV3 m) c).arrAt 10 cfg1.N :=
  (V4_at_v11_0 m (outsOf m) c).trans (outsOf_v11_0 m c)
theorem V4_v11_1 (c : Dev nD) : Gen.V4 m (outsOf m) c main_v11_1 = (dat1 (VV3 m) c).arrAt 11 cfg1.N :=
  (V4_at_v11_1 m (outsOf m) c).trans (outsOf_v11_1 m c)

/-- At the first region's exit each of its arrays holds what the pipeline leaves: an input its entry
    contents, a result the fold of its write-backs. -/
theorem hF0 (c : Dev nD) : ∀ w : Fin cfg0.W, (dat0 (VV1 m) c).arrAt w cfg0.N = Gen.V2 m (outsOf m) c (Pipeline.arrRef spec0 w)
  | ⟨0, _⟩ => (((dat0 (VV1 m) c).arrAt_in ⟨0, by decide⟩ rfl _).trans (A_eq0 (VV1 m) c _)).trans (Gen.V2_of m (outsOf m) c (Pipeline.arrRef spec0 ⟨0, by decide⟩) (by decide)).symm
  | ⟨1, _⟩ => (((dat0 (VV1 m) c).arrAt_in ⟨1, by decide⟩ rfl _).trans (A_eq0 (VV1 m) c _)).trans (Gen.V2_of m (outsOf m) c (Pipeline.arrRef spec0 ⟨1, by decide⟩) (by decide)).symm
  | ⟨2, _⟩ => (((dat0 (VV1 m) c).arrAt_in ⟨2, by decide⟩ rfl _).trans (A_eq0 (VV1 m) c _)).trans (Gen.V2_of m (outsOf m) c (Pipeline.arrRef spec0 ⟨2, by decide⟩) (by decide)).symm
  | ⟨3, _⟩ => (((dat0 (VV1 m) c).arrAt_in ⟨3, by decide⟩ rfl _).trans (A_eq0 (VV1 m) c _)).trans (Gen.V2_of m (outsOf m) c (Pipeline.arrRef spec0 ⟨3, by decide⟩) (by decide)).symm
  | ⟨4, _⟩ => (((dat0 (VV1 m) c).arrAt_in ⟨4, by decide⟩ rfl _).trans (A_eq0 (VV1 m) c _)).trans (Gen.V2_of m (outsOf m) c (Pipeline.arrRef spec0 ⟨4, by decide⟩) (by decide)).symm
  | ⟨5, _⟩ => (((dat0 (VV1 m) c).arrAt_in ⟨5, by decide⟩ rfl _).trans (A_eq0 (VV1 m) c _)).trans (Gen.V2_of m (outsOf m) c (Pipeline.arrRef spec0 ⟨5, by decide⟩) (by decide)).symm
  | ⟨6, _⟩ => (((dat0 (VV1 m) c).arrAt_in ⟨6, by decide⟩ rfl _).trans (A_eq0 (VV1 m) c _)).trans (Gen.V2_of m (outsOf m) c (Pipeline.arrRef spec0 ⟨6, by decide⟩) (by decide)).symm
  | ⟨7, _⟩ => (((dat0 (VV1 m) c).arrAt_in ⟨7, by decide⟩ rfl _).trans (A_eq0 (VV1 m) c _)).trans (Gen.V2_of m (outsOf m) c (Pipeline.arrRef spec0 ⟨7, by decide⟩) (by decide)).symm
  | ⟨8, _⟩ => (((dat0 (VV1 m) c).arrAt_in ⟨8, by decide⟩ rfl _).trans (A_eq0 (VV1 m) c _)).trans (Gen.V2_of m (outsOf m) c (Pipeline.arrRef spec0 ⟨8, by decide⟩) (by decide)).symm
  | ⟨9, _⟩ => (((dat0 (VV1 m) c).arrAt_in ⟨9, by decide⟩ rfl _).trans (A_eq0 (VV1 m) c _)).trans (Gen.V2_of m (outsOf m) c (Pipeline.arrRef spec0 ⟨9, by decide⟩) (by decide)).symm
  | ⟨10, _⟩ => (V2_v6_0 m c).symm
  | ⟨11, _⟩ => (V2_v6_1 m c).symm
/-- Every other buffer is as at entry. -/
theorem hrest0 (c : Dev nD) : ∀ b, b ∉ Finset.univ.image (Pipeline.arrRef spec0) → Gen.V2 m (outsOf m) c b = VV1 m c b :=
  fun b hb => Gen.V2_of m (outsOf m) c b fun h => by
    rcases List.mem_cons.mp h with rfl | h
    · exact hb (Finset.mem_image.mpr ⟨10, Finset.mem_univ _, rfl⟩)
    · rcases List.mem_cons.mp h with rfl | h
      · exact hb (Finset.mem_image.mpr ⟨11, Finset.mem_univ _, rfl⟩)
      · exact absurd h (List.not_mem_nil)

/-- The same at the second region's exit. -/
theorem hF1 (c : Dev nD) : ∀ w : Fin cfg1.W, (dat1 (VV3 m) c).arrAt w cfg1.N = Gen.V4 m (outsOf m) c (Pipeline.arrRef spec1 w)
  | ⟨0, _⟩ => (((dat1 (VV3 m) c).arrAt_in ⟨0, by decide⟩ rfl _).trans (A_eq1 (VV3 m) c _)).trans ((Gen.V4_of m (outsOf m) c (Pipeline.arrRef spec1 ⟨0, by decide⟩) (by decide)).trans (congrFun (V3_outs m c) _)).symm
  | ⟨1, _⟩ => (((dat1 (VV3 m) c).arrAt_in ⟨1, by decide⟩ rfl _).trans (A_eq1 (VV3 m) c _)).trans ((Gen.V4_of m (outsOf m) c (Pipeline.arrRef spec1 ⟨1, by decide⟩) (by decide)).trans (congrFun (V3_outs m c) _)).symm
  | ⟨2, _⟩ => (((dat1 (VV3 m) c).arrAt_in ⟨2, by decide⟩ rfl _).trans (A_eq1 (VV3 m) c _)).trans ((Gen.V4_of m (outsOf m) c (Pipeline.arrRef spec1 ⟨2, by decide⟩) (by decide)).trans (congrFun (V3_outs m c) _)).symm
  | ⟨3, _⟩ => (((dat1 (VV3 m) c).arrAt_in ⟨3, by decide⟩ rfl _).trans (A_eq1 (VV3 m) c _)).trans ((Gen.V4_of m (outsOf m) c (Pipeline.arrRef spec1 ⟨3, by decide⟩) (by decide)).trans (congrFun (V3_outs m c) _)).symm
  | ⟨4, _⟩ => (((dat1 (VV3 m) c).arrAt_in ⟨4, by decide⟩ rfl _).trans (A_eq1 (VV3 m) c _)).trans ((Gen.V4_of m (outsOf m) c (Pipeline.arrRef spec1 ⟨4, by decide⟩) (by decide)).trans (congrFun (V3_outs m c) _)).symm
  | ⟨5, _⟩ => (((dat1 (VV3 m) c).arrAt_in ⟨5, by decide⟩ rfl _).trans (A_eq1 (VV3 m) c _)).trans ((Gen.V4_of m (outsOf m) c (Pipeline.arrRef spec1 ⟨5, by decide⟩) (by decide)).trans (congrFun (V3_outs m c) _)).symm
  | ⟨6, _⟩ => (((dat1 (VV3 m) c).arrAt_in ⟨6, by decide⟩ rfl _).trans (A_eq1 (VV3 m) c _)).trans ((Gen.V4_of m (outsOf m) c (Pipeline.arrRef spec1 ⟨6, by decide⟩) (by decide)).trans (congrFun (V3_outs m c) _)).symm
  | ⟨7, _⟩ => (((dat1 (VV3 m) c).arrAt_in ⟨7, by decide⟩ rfl _).trans (A_eq1 (VV3 m) c _)).trans ((Gen.V4_of m (outsOf m) c (Pipeline.arrRef spec1 ⟨7, by decide⟩) (by decide)).trans (congrFun (V3_outs m c) _)).symm
  | ⟨8, _⟩ => (((dat1 (VV3 m) c).arrAt_in ⟨8, by decide⟩ rfl _).trans (A_eq1 (VV3 m) c _)).trans ((Gen.V4_of m (outsOf m) c (Pipeline.arrRef spec1 ⟨8, by decide⟩) (by decide)).trans (congrFun (V3_outs m c) _)).symm
  | ⟨9, _⟩ => (((dat1 (VV3 m) c).arrAt_in ⟨9, by decide⟩ rfl _).trans (A_eq1 (VV3 m) c _)).trans ((Gen.V4_of m (outsOf m) c (Pipeline.arrRef spec1 ⟨9, by decide⟩) (by decide)).trans (congrFun (V3_outs m c) _)).symm
  | ⟨10, _⟩ => (V4_v11_0 m c).symm
  | ⟨11, _⟩ => (V4_v11_1 m c).symm
theorem hrest1 (c : Dev nD) : ∀ b, b ∉ Finset.univ.image (Pipeline.arrRef spec1) → Gen.V4 m (outsOf m) c b = VV3 m c b :=
  fun b hb => (Gen.V4_of m (outsOf m) c b fun h => by
    rcases List.mem_cons.mp h with rfl | h
    · exact hb (Finset.mem_image.mpr ⟨10, Finset.mem_univ _, rfl⟩)
    · rcases List.mem_cons.mp h with rfl | h
      · exact hb (Finset.mem_image.mpr ⟨11, Finset.mem_univ _, rfl⟩)
      · exact absurd h (List.not_mem_nil)).trans (congrFun (V3_outs m c) _)

/-! ## The proof data family and what rides along -/

/-- Each region's proof data at its entry contents. -/
def pdats : (p : Fin 2) → (c : Dev nD) → Dat τ (Elt F) Unit ℕ (UR sig nD τ) ℕ (cfgs p) c
  | ⟨0, _⟩ => fun c => dat0 (VV1 m) c
  | ⟨1, _⟩ => fun c => dat1 (VV3 m) c

/-- No core owes another anything: no level is assigned. -/
abbrev LL : GSem nD τ sig → Finset Unit := fun _ => ∅
abbrev lvv : GSem nD τ sig → Unit → ℕ := fun _ _ => 0
/-- What rides beside the buffers through every item: the generator register at some state and the
    core's dues, at nothing. -/
abbrev RR (c : Dev nD) : sProp 𝕄 := iprop((∃ r, prngReg c r) ∗ ∃ W, owes (c : Thread nD τ) (0 : CellTallies nD τ sig Unit) W)

/-! ## The regions -/

-- a library lemma stated over the pinned configuration unifies with the printed one only when unification may
-- unfold plain definitions in a metavariable's type
set_option backward.isDefEq.respectTransparency.types false in
/-- The first half-step's region over the thread state: entered from every outliving buffer at the
    valuation before it, left at the one after it. Its twelve arrays are split out of those buffers and put back
    at the exit contents; the scoped buffers go into the invariant and come back; the generator register and the
    other buffers pass by; nothing is owed; the kernel has no semaphore of its own. -/
def reg0 : Pipeline.RegionSeg (pcfgs (F := F)) Gen.adm (pdats m) () defs₀ Variants.none LL lvv 0 where
  win := launch0.win.to₀
  block_pos := launch0.block_pos
  stage_whole := launch0.stage_whole
  K := PEmpty
  osem k := k.elim
  ho := Pipeline.OwnSemFacts.none _
  hbody c := (body_obligation0 (VV1 m) c).loose
  hwaits := Pipeline.hwaits_of_owed_zero _ _ _ _ LL lvv 0 fun _ _ => rfl
  pre c := iprop(StableHlo.held (c : Thread nD τ) (Pipeline.ucRefs τ sig) (Gen.V1 m c) ∗ RR c)
  post c := iprop(StableHlo.held (c : Thread nD τ) (Pipeline.ucRefs τ sig) (Gen.V2 m (outsOf m) c) ∗ RR c)
  X _ := BI.emp
  Y _ := BI.emp
  Z c := iprop(Pipeline.unscopedRest (Ix := Unit) (Name := ℕ) (U := UR sig nD τ) (Lvl := ℕ) spec0 c (VV1 m c) ∗ ∃ r, prngReg c r)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (VV1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 0 c).Φ 0 = (dat0 (VV1 m) c).Φ 0 from rfl]
    iintro ⟨-, -, Hr⟩
    iapply (hin0 (VV1 m) c)
    iexact Hr
  hout c := by
    rw [Pipeline.ownSems0_none, show (pdats m 0 c).Φ (Fin.last _) = (dat0 (VV1 m) c).Φ (Fin.last cfg0.N) from rfl]
    iintro Hr
    isplitr; · iempintro
    isplitr; · iempintro
    iapply (hout0 (VV1 m) c)
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (VV1 m c) (fun b => Gen.V2 m (outsOf m) c b) ((pdats m 0 c).arrAt · cfg0.N) (hF0 m c) (hrest0 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- The second half-step's region over the thread state: entered from every outliving buffer at the
    valuation before it, left at the one after it. Its twelve arrays are split out of those buffers and put back
    at the exit contents; the scoped buffers go into the invariant and come back; the generator register and the
    other buffers pass by; nothing is owed; the kernel has no semaphore of its own. -/
def reg1 : Pipeline.RegionSeg (pcfgs (F := F)) Gen.adm (pdats m) () defs₀ Variants.none LL lvv 1 where
  win := launch1.win.to₀
  block_pos := launch1.block_pos
  stage_whole := launch1.stage_whole
  K := PEmpty
  osem k := k.elim
  ho := Pipeline.OwnSemFacts.none _
  hbody c := (body_obligation1 (VV3 m) c).loose
  hwaits := Pipeline.hwaits_of_owed_zero _ _ _ _ LL lvv 1 fun _ _ => rfl
  pre c := iprop(StableHlo.held (c : Thread nD τ) (Pipeline.ucRefs τ sig) (Gen.V3 m (outsA m) c) ∗ RR c)
  post c := iprop(StableHlo.held (c : Thread nD τ) (Pipeline.ucRefs τ sig) (Gen.V4 m (outsOf m) c) ∗ RR c)
  X _ := BI.emp
  Y _ := BI.emp
  Z c := iprop(Pipeline.unscopedRest (Ix := Unit) (Name := ℕ) (U := UR sig nD τ) (Lvl := ℕ) spec1 c (VV3 m c) ∗ ∃ r, prngReg c r)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (VV3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 1 c).Φ 0 = (dat1 (VV3 m) c).Φ 0 from rfl]
    iintro ⟨-, -, Hr⟩
    iapply (hin1 (VV3 m) c)
    iexact Hr
  hout c := by
    rw [Pipeline.ownSems0_none, show (pdats m 1 c).Φ (Fin.last _) = (dat1 (VV3 m) c).Φ (Fin.last cfg1.N) from rfl]
    iintro Hr
    isplitr; · iempintro
    isplitr; · iempintro
    iapply (hout1 (VV3 m) c)
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (VV3 m c) (fun b => Gen.V4 m (outsOf m) c b) ((pdats m 1 c).arrAt · cfg1.N) (hF1 m c) (hrest1 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-- What the launch gives a core besides its buffers makes what rides along. -/
theorem ride_of_launch (c : Dev nD) :
    (iprop(unscopedSems0 c ∗ owes (c : Thread nD τ) ((0 : Dev nD → CellTallies nD τ sig Unit) c) ∅ ∗ Pipeline.launchCred (0 : Dev nD → CellTallies nD τ sig Unit) c ∗ prngReg c (ρ c) ∗ emp) : sProp 𝕄)
      ⊢ RR (F := F) c := by
  iintro ⟨-, HO, -, Hp, -⟩
  isplitl [Hp]; · iexists _; iexact Hp
  iexists ∅; iexact HO

/-! ## The run -/

/-- Every weakly fair execution of the program from memory `m` with zero counters terminates, and every
    buffer that outlives the regions ends at the last valuation. -/
theorem run_main : θ_run defs (onTc (τ := τ) (main (F := F))) ⟨m, fun _ => 0, ρ⟩ (fun r => ∀ c : Dev nD,
      ∀ b ∈ Pipeline.ucRefs τ sig, r.2.mem ((c : Thread nD τ).1, b) = Gen.V5 m (outsOf m) c b) :=
  Gen.run_cond m (Ix := Unit) (U := UR sig nD τ) (Lvl := ℕ) emb₁ () Variants.none LL lvv (fun _ _ => rfl) ρ (outsOf m) (pdats m)
    0 (fun _ => iprop(emp)) (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => RR c)
    (by
      iintro ⟨H, -⟩
      imodintro
      iapply (show (bigSep Finset.univ fun c : Dev nD => (iprop(unscopedSems0 c ∗ owes (c : Thread nD τ) ((0 : Dev nD → CellTallies nD τ sig Unit) c) ∅ ∗ Pipeline.launchCred (0 : Dev nD → CellTallies nD τ sig Unit) c ∗ prngReg c (ρ c) ∗ emp) : sProp 𝕄))
          ⊢ bigSep Finset.univ (fun c : Dev nD => RR (F := F) c) from bigSep_mono fun c _ => ride_of_launch ρ c)
      iexact H)
    (fun c => by iintro ⟨-, HO⟩; iexact HO)
    (reg0 m) (fun c => .rfl) (fun c => .rfl)
    (reg1 m) (fun c => by rw [V3_outs]; exact .rfl) (fun c => .rfl)

/-- An outliving TensorCore reference is among those the run names. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: the program runs to its end and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨(h c _ (mem_uc main_arg0 (by decide))).trans (Gen.V5_main_arg0 m (outsOf m) c),
    (h c _ (mem_uc main_arg1 (by decide))).trans (Gen.V5_main_arg1 m (outsOf m) c),
    (h c _ (mem_uc main_arg2 (by decide))).trans (Gen.V5_main_arg2 m (outsOf m) c),
    (h c _ (mem_uc main_arg3 (by decide))).trans (Gen.V5_main_arg3 m (outsOf m) c),
    (h c _ (mem_uc main_arg4 (by decide))).trans (Gen.V5_main_arg4 m (outsOf m) c),
    (h c _ (mem_uc main_arg5 (by decide))).trans (Gen.V5_main_arg5 m (outsOf m) c),
    (h c _ (mem_uc main_arg6 (by decide))).trans (Gen.V5_main_arg6 m (outsOf m) c),
    (h c _ (mem_uc main_arg7 (by decide))).trans (Gen.V5_main_arg7 m (outsOf m) c),
    (h c _ (mem_uc main_arg8 (by decide))).trans (Gen.V5_main_arg8 m (outsOf m) c),
    (h c _ (mem_uc main_arg9 (by decide))).trans (Gen.V5_main_arg9 m (outsOf m) c),
    (h c _ (mem_uc main_arg10 (by decide))).trans (Gen.V5_main_arg10 m (outsOf m) c),
    (h c _ (mem_uc main_arg11 (by decide))).trans (Gen.V5_main_arg11 m (outsOf m) c),
    (h c _ (mem_uc main_arg12 (by decide))).trans (Gen.V5_main_arg12 m (outsOf m) c),
    (h c _ (mem_uc main_arg13 (by decide))).trans (Gen.V5_main_arg13 m (outsOf m) c),
    (h c _ (mem_uc main_arg14 (by decide))).trans (Gen.V5_main_arg14 m (outsOf m) c),
    (h c _ (mem_uc main_arg15 (by decide))).trans (Gen.V5_main_arg15 m (outsOf m) c),
    (h c _ (mem_uc main_arg16 (by decide))).trans (Gen.V5_main_arg16 m (outsOf m) c)⟩) (run_main m ρ)

end Cert.KernelIdeal.Hand

end
-- ==== Proof.KI.Pieces0.lean ====
import proofs.«142033_j33071248180131_1_alg».proof.Proof.KI.Dat0
import Idealize.ShloMosaic.Lib.Pipeline.Value

/-!
# The first half-step's region: what the stored pieces are

Each piece a kind of point stores is one whole-buffer store of a value computed from the loaded blocks;
read back, the buffer holds that value. A point that opens a row block adds the first partial product to
a cleared accumulator; any other point adds to what the accumulator held; a closing point then forms the
two outputs from the updated accumulators and the bias, self and shift blocks.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a whole-buffer rectangle, of rank two and of rank one. -/
private theorem hz2 : (![0, 0] : Fin 2 → Nat) = fun _ => 0 := funext fun a => by fin_cases a <;> rfl
private theorem hz1 : (![0] : Fin 1 → Nat) = fun _ => 0 := funext fun a => by fin_cases a <;> rfl

/-- Opening a row block, first accumulator: the partial product over the cleared value. -/
theorem sout0_A_0_eq (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : cond0_0 i) (hc1 : ¬cond0_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 = k0_pay8 x0 x2 x3 (k0_pay5 (F := F)) x4 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9)]
  unfold kernelRun0_A
  dsimp only
  sl_unfold_words
  rw [View.canon_cons_unit_zero (S := S512x1024) hz2]
  simp only [View.readAt_eq_ld, harg2.read_unread, harg4.read_unread, harg5.read_unread, harg6.read_unread, View.ld_unit_zero (S := S512x1024) hz2, View.ld_unit_zero (S := S1024x512) hz2, View.ld_unit_zero (S := S512) hz1, View.ld_unit_zero (S := S1024) hz1, View.readCov_unit_zero (S := S512x1024) _ hz2]
/-- Opening a row block, second accumulator. -/
theorem sout0_A_1_eq (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : cond0_0 i) (hc1 : ¬cond0_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 = k0_pay1 (k0_pay9 x0 x6 x7) (k0_pay6 (F := F)) x8 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9)]
  unfold kernelRun0_A
  dsimp only
  sl_unfold_words
  rw [View.canon_cons_unit_zero (S := S512x1024) hz2]
  simp only [View.readAt_eq_ld, harg2.read_unread, harg8.read_unread, harg9.read_unread, harg10.read_unread, View.ld_unit_zero (S := S512x1024) hz2, View.ld_unit_zero (S := S1024x512) hz2, View.ld_unit_zero (S := S512) hz1, View.ld_unit_zero (S := S1024) hz1, View.readCov_unit_zero (S := S512x1024) _ hz2]
/-- In the middle of a row block: the partial product over what the accumulator held. -/
theorem sout0_B_0_eq (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond0_0 i) (hc1 : ¬cond0_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 = k0_pay8 x0 x2 x3 xs0 x4 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1)]
  unfold kernelRun0_B
  dsimp only
  sl_unfold_words
  rw [View.canon_unit_zero hz2]
  simp only [View.readAt_eq_ld, harg2.read_unread, harg4.read_unread, harg5.read_unread, harg6.read_unread, harg14.read_unread, View.ld_unit_zero (S := S512x1024) hz2, View.ld_unit_zero (S := S1024x512) hz2, View.ld_unit_zero (S := S512) hz1, View.ld_unit_zero (S := S1024) hz1]
theorem sout0_B_1_eq (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond0_0 i) (hc1 : ¬cond0_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 = k0_pay1 (k0_pay9 x0 x6 x7) xs1 x8 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1)]
  unfold kernelRun0_B
  dsimp only
  sl_unfold_words
  rw [View.canon_unit_zero hz2]
  simp only [View.readAt_eq_ld, harg2.read_unread, harg8.read_unread, harg9.read_unread, harg10.read_unread, harg15.read_unread, View.ld_unit_zero (S := S512x1024) hz2, View.ld_unit_zero (S := S1024x512) hz2, View.ld_unit_zero (S := S512) hz1, View.ld_unit_zero (S := S1024) hz1]
/-- Closing a row block: the accumulators as in the middle, -/
theorem sout0_C_0_eq (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond0_0 i) (hc1 : cond0_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 = k0_pay8 x0 x2 x3 xs0 x4 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1)]
  unfold kernelRun0_C
  dsimp only
  sl_unfold_words
  rw [View.canon_unit_zero hz2]
  simp only [View.readAt_eq_ld, harg2.read_unread, harg4.read_unread, harg5.read_unread, harg6.read_unread, harg14.read_unread, View.ld_unit_zero (S := S512x1024) hz2, View.ld_unit_zero (S := S1024x512) hz2, View.ld_unit_zero (S := S512) hz1, View.ld_unit_zero (S := S1024) hz1]
theorem sout0_C_1_eq (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond0_0 i) (hc1 : cond0_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 = k0_pay1 (k0_pay9 x0 x6 x7) xs1 x8 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1)]
  unfold kernelRun0_C
  dsimp only
  sl_unfold_words
  rw [View.canon_unit_zero hz2]
  simp only [View.readAt_eq_ld, harg2.read_unread, harg8.read_unread, harg9.read_unread, harg10.read_unread, harg15.read_unread, View.ld_unit_zero (S := S512x1024) hz2, View.ld_unit_zero (S := S1024x512) hz2, View.ld_unit_zero (S := S512) hz1, View.ld_unit_zero (S := S1024) hz1]
/-- the updated half from the two updated accumulators, the two output biases and the self block, -/
theorem out0_C_10_eq (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond0_0 i) (hc1 : cond0_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) :
    out0_C_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 = k0_pay3 (k0_pay8 x0 x2 x3 xs0 x4) x5 (k0_pay1 (k0_pay9 x0 x6 x7) xs1 x8) x9 x1 := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg14.read_unread, harg15.read_unread, View.ld_unit_zero (S := S512x1024) hz2, View.ld_unit_zero (S := S1024x512) hz2, View.ld_unit_zero (S := S512) hz1, View.ld_unit_zero (S := S1024) hz1, View.readCov_unit_zero (S := S512x1024) _ hz2]
/-- and the log-determinant column from the first updated accumulator and its bias. -/
theorem out0_C_11_eq (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond0_0 i) (hc1 : cond0_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) :
    out0_C_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 = k0_pay4 (k0_pay8 x0 x2 x3 xs0 x4) x5 := by
  unfold out0_C_11
  rw [View.read_writes_eq_canon _ _ _ (cover0_C_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1)]
  unfold kernelRun0_C
  dsimp only
  sl_unfold_words
  rw [View.canon_unit_zero hz2]
  simp only [View.readAt_eq_ld, harg2.read_unread, harg4.read_unread, harg5.read_unread, harg6.read_unread, harg7.read_unread, harg14.read_unread, View.ld_unit_zero (S := S512x1024) hz2, View.ld_unit_zero (S := S1024x512) hz2, View.ld_unit_zero (S := S512) hz1, View.ld_unit_zero (S := S1024) hz1, View.readCov_unit_zero (S := S512x1024) _ hz2]

end Cert.KernelIdeal.Hand

end
-- ==== Proof.Spec.lean ====
import Idealize.ShloMosaic.PureOps.Ideal
import Idealize.ShloMosaic.PureOps.Ideal.Laws
import Idealize.ShloMosaic.Lib.ValueIdx

/-!
# One affine coupling half-step, as a function of the argument arrays

A row `r` of the conditioning half goes through a two-layer perceptron with a rectifier between the
layers: the hidden unit `j` is `max (∑ₖ x r k · W1 k j + b1 j) 0`, the output `d` is
`∑ⱼ hidden j · W2 j d + b2 d`. One perceptron gives the log-scale `s = tanh(·) · 1`, a second the shift
`t`; the updated half is `self · exp s + t` and the row's log-determinant is `∑_d s r d`.
Everything is over the extended reals; the two float words both programs spell (zero and one) are kept
as their words' values, never evaluated.
-/

noncomputable section

namespace Cert.Spec

open Idealize.ShloMosaic Idealize.ShloMosaic.ValueIdx

/-- A matrix and a vector of extended reals, at literal extents. -/
abbrev Mat (a b : ℕ) : Type := (⟨2, ![a, b]⟩ : Shape).Idx → EReal
abbrev Row (a : ℕ) : Type := (⟨1, ![a]⟩ : Shape).Idx → EReal

/-- The value of the f32 word of zero, and of one. -/
abbrev zeroW : EReal := Ideal.ofBits .f32 0x00000000#32
abbrev oneW : EReal := Ideal.ofBits .f32 0x3F800000#32

/-- Hidden unit `j` of row `r`, after the rectifier. -/
def hidden (x : Mat 8192 1024) (W1 : Mat 1024 4096) (b1 : Row 4096) (r : Fin 8192) (j : Fin 4096) : EReal :=
  max ((∑ k : Fin 1024, x (ix2 r k) * W1 (ix2 k j)) + b1 (ix1 j)) zeroW

/-- The perceptron's output `d` of row `r`. -/
def mlp (x : Mat 8192 1024) (W1 : Mat 1024 4096) (b1 : Row 4096) (W2 : Mat 4096 1024) (b2 : Row 1024)
    (r : Fin 8192) (d : Fin 1024) : EReal :=
  (∑ j : Fin 4096, hidden x W1 b1 r j * W2 (ix2 j d)) + b2 (ix1 d)

/-- The log-scale: the hyperbolic tangent of the first perceptron, times one. -/
def scale (x : Mat 8192 1024) (W1 : Mat 1024 4096) (b1 : Row 4096) (W2 : Mat 4096 1024) (b2 : Row 1024)
    (r : Fin 8192) (d : Fin 1024) : EReal :=
  Ideal.tanh (mlp x W1 b1 W2 b2 r d) * oneW

/-- The updated half: `self · exp s + t`. -/
def coupled (cond self : Mat 8192 1024)
    (sW1 : Mat 1024 4096) (sb1 : Row 4096) (sW2 : Mat 4096 1024) (sb2 : Row 1024)
    (tW1 : Mat 1024 4096) (tb1 : Row 4096) (tW2 : Mat 4096 1024) (tb2 : Row 1024)
    (r : Fin 8192) (d : Fin 1024) : EReal :=
  self (ix2 r d) * Ideal.exp (scale cond sW1 sb1 sW2 sb2 r d) + mlp cond tW1 tb1 tW2 tb2 r d

/-- The row's log-determinant: the sum of its log-scales. -/
def logdet (cond : Mat 8192 1024) (sW1 : Mat 1024 4096) (sb1 : Row 4096) (sW2 : Mat 4096 1024) (sb2 : Row 1024)
    (r : Fin 8192) : EReal :=
  ∑ d : Fin 1024, scale cond sW1 sb1 sW2 sb2 r d

/-! ## The whole layer over the program's seventeen argument arrays -/

/-- The argument arrays: the input `x` (two halves side by side) and four perceptrons (log-scale and
    shift of the first half-step, then of the second), each a pair of weight matrices with their biases. -/
structure Args where
  x : Mat 8192 2048
  s1W1 : Mat 1024 4096
  s1b1 : Row 4096
  s1W2 : Mat 4096 1024
  s1b2 : Row 1024
  t1W1 : Mat 1024 4096
  t1b1 : Row 4096
  t1W2 : Mat 4096 1024
  t1b2 : Row 1024
  s2W1 : Mat 1024 4096
  s2b1 : Row 4096
  s2W2 : Mat 4096 1024
  s2b2 : Row 1024
  t2W1 : Mat 1024 4096
  t2b1 : Row 4096
  t2W2 : Mat 4096 1024
  t2b2 : Row 1024

/-- The left and the right half of `x`. -/
def xLeft (a : Args) : Mat 8192 1024 := fun i => a.x (ix2 (i 0) ⟨(i 1).val, by have := (i 1).isLt; simp at this; omega⟩)
def xRight (a : Args) : Mat 8192 1024 := fun i => a.x (ix2 (i 0) ⟨(i 1).val + 1024, by have := (i 1).isLt; simp at this; omega⟩)

/-- First half-step: the left half updated, conditioned on the right half. -/
def y1 (a : Args) : Mat 8192 1024 := fun i =>
  coupled (xRight a) (xLeft a) a.s1W1 a.s1b1 a.s1W2 a.s1b2 a.t1W1 a.t1b1 a.t1W2 a.t1b2 (i 0) (i 1)

/-- Second half-step: the right half updated, conditioned on the new left half. -/
def y2 (a : Args) : Mat 8192 1024 := fun i =>
  coupled (y1 a) (xRight a) a.s2W1 a.s2b1 a.s2W2 a.s2b2 a.t2W1 a.t2b1 a.t2W2 a.t2b2 (i 0) (i 1)

/-- The result: the two updated halves side by side. -/
def yOut (a : Args) : Mat 8192 2048 := fun i =>
  if h : (i 1).val < 1024 then y1 a (ix2 (i 0) ⟨(i 1).val, h⟩)
  else y2 a (ix2 (i 0) ⟨(i 1).val - 1024, by have := (i 1).isLt; simp at this; omega⟩)

/-- The log-determinant of each row: the two half-steps' log-scales summed. -/
def ldOut (a : Args) : Row 8192 := fun i =>
  logdet (xRight a) a.s1W1 a.s1b1 a.s1W2 a.s1b2 (i 0) + logdet (y1 a) a.s2W1 a.s2b1 a.s2W2 a.s2b2 (i 0)

end Cert.Spec

end
-- ==== Proof.LibColumns.lean ====
/-
  Column forms of the layout operations, and a row sum, read at an index.

  A sum along the second axis of an `[a, b]` array that keeps the axis gives an `[a, 1]` column; taking it off the
  array again broadcasts the column back to `[a, b]`. Here: the cast `[a] → [a, 1]` reads entry `p` at `(p, u)`
  whatever the unit coordinate `u`; the broadcast `[a, 1] → [a, b]` reads the column's entry `(p, 0)` at every
  `(p, c)`; and a lane sum of an `[n, b]` array over its second axis is, at row `r`, the sum over `k` of the
  entries `(r, k)`. All for arbitrary extents.
-/
import Idealize.ShloMosaic.Lib.ValueIdx
import Idealize.ShloMosaic.Lib.Pipeline.Value
import Idealize.ShloMosaic.PureOps.Ideal.Laws

noncomputable section

open scoped BigOperators

namespace Cert.Columns

open Idealize.ShloMosaic Idealize.ShloMosaic.ValueIdx

variable {α : Type}

/-- An `[a]` array cast to the column `[a, 1]` reads, at `(p, u)`, the operand at `p`: the row-major position of
    `(p, u)` in `[a, 1]` is `p · 1 + u` with `u = 0`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum over the second axis of an `[n, b]` array of extended reals, from the zero word, is at row `r` the sum
    of that row's entries. -/
theorem rowSum_apply {n b : ℕ} {φ : FTy} (src : FVec Ideal ⟨2, ![n, b]⟩ φ) (acc : BitVec φ.bits)
    (h : (⟨2, ![n, b]⟩ : Shape).Reduces [1] ⟨1, ![n]⟩) (hφ : FKind.Formats φ) (hacc : acc = FKind.add.neutral φ hφ) (r : Fin n) :
    multiReduction .add [1] ⟨1, ![n]⟩ src acc h hφ hacc (ix1 r) = ∑ k : Fin b, src (ix2 r k) := by
  refine (Ideal.multiReduction_add_single src acc h hφ hacc (ix1 r)).trans ?_
  refine Finset.sum_congr rfl fun k _ => congrArg src ?_
  funext ax
  apply Fin.ext
  match ax with
  | ⟨0, _⟩ => rfl
  | ⟨1, _⟩ => rfl

end Cert.Columns

end
-- ==== Proof.KI.Acc0.lean ====
import proofs.«142033_j33071248180131_1_alg».proof.Proof.Gen.KernelIdeal.Skeleton
import proofs.«142033_j33071248180131_1_alg».proof.Proof.Spec
import proofs.«142033_j33071248180131_1_alg».proof.Proof.LibColumns
import Idealize.ShloMosaic.PureOps.Ideal.Laws
import Idealize.ShloMosaic.Lib.ValueIdx
import Idealize.ShloMosaic.Lib.ValueLayout
import Idealize.ShloMosaic.Lib.Pipeline.Value

/-!
# The first half-step's body, read at an index over the extended reals

With floats exact and format changes the identity, a tile's update of an accumulator at row `p`, column
`q` adds `∑ⱼ max(∑ₖ x p k · W1 k j + b1 j, 0) · W2 j q` over the tile's 512 hidden units; the log-scale is
`tanh(acc + b2) · 1`; the updated half is `self · exp(log-scale) + (acc' + b2')`; the log-determinant
column is the row sum of the log-scale.
-/

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Acc0

/-! ## The pointwise transcendental operations at an index -/

/-- A vector's hyperbolic tangent reads, at an index, the extended reals' hyperbolic tangent of the element. -/
theorem tanh_apply {s : Shape} {φ : FTy} (a : FVec Ideal s φ) (i : s.Idx) :
    Idealize.ShloMosaic.tanh a i = Ideal.tanh (a i) := rfl
/-- A vector's exponential reads, at an index, the extended reals' exponential of the element. -/
theorem exp_apply {s : Shape} {φ : FTy} (a : FVec Ideal s φ) (i : s.Idx) :
    Idealize.ShloMosaic.exp a i = Ideal.exp (a i) := rfl

/-! ## The two matrix products at an index

The first layer multiplies a 512×1024 block by a 1024×512 tile of weights, the second a 512×512 hidden block by a
512×1024 tile: each contracts the left operand's columns against the right operand's rows, so the operand indices
at output `(p, j)` and contraction coordinate `k` are `(p, k)` and `(k, j)`. -/

theorem lhs_first_0 (i : S512x512.Idx) (c : dot_S512x1024_S1024x512_S512x512_1_0_0_1_n_n.contr.Idx) :
    (dot_S512x1024_S1024x512_S512x512_1_0_0_1_n_n.lhsIdx i c 0).val = (i 0).val := by
  unfold DotDims.lhsIdx
  rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
  rfl
theorem lhs_first_1 (i : S512x512.Idx) (c : dot_S512x1024_S1024x512_S512x512_1_0_0_1_n_n.contr.Idx) :
    (dot_S512x1024_S1024x512_S512x512_1_0_0_1_n_n.lhsIdx i c 1).val = (c ⟨0, by decide⟩).val :=
  dot_S512x1024_S1024x512_S512x512_1_0_0_1_n_n.lhsIdx_val_of_single rfl i c
theorem rhs_first_0 (i : S512x512.Idx) (c : dot_S512x1024_S1024x512_S512x512_1_0_0_1_n_n.contr.Idx) :
    (dot_S512x1024_S1024x512_S512x512_1_0_0_1_n_n.rhsIdx i c 0).val = (c ⟨0, by decide⟩).val :=
  dot_S512x1024_S1024x512_S512x512_1_0_0_1_n_n.rhsIdx_val_of_single rfl i c
theorem rhs_first_1 (i : S512x512.Idx) (c : dot_S512x1024_S1024x512_S512x512_1_0_0_1_n_n.contr.Idx) :
    (dot_S512x1024_S1024x512_S512x512_1_0_0_1_n_n.rhsIdx i c 1).val = (i 1).val := by
  unfold DotDims.rhsIdx
  rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
  rfl

/-- The first layer's product into the zero accumulator at `(p, j)`: `∑ₖ A p k · B k j`. -/
theorem matmul_first_apply (A : FVec Ideal S512x1024 .bf16) (B : FVec Ideal S1024x512 .bf16) (p : Fin 512) (j : Fin 512) :
    matmul dot_S512x1024_S1024x512_S512x512_1_0_0_1_n_n none A B (constant (F := Ideal) S512x512 .f32 0x00000000#32) (ix2 p j)
      = ∑ k : Fin 1024, A (ix2 p k) * B (ix2 k j) := by
  simp only [matmul]
  rw [Ideal.matmul_constant_zero_apply, ← Equiv.sum_comp (contrEquiv1 dot_S512x1024_S1024x512_S512x512_1_0_0_1_n_n 1024 rfl rfl).symm]
  refine Finset.sum_congr rfl fun k _ => ?_
  have hk := contrEquiv1_symm_val dot_S512x1024_S1024x512_S512x512_1_0_0_1_n_n 1024 rfl rfl k
  have el : dot_S512x1024_S1024x512_S512x512_1_0_0_1_n_n.lhsIdx (ix2 p j) ((contrEquiv1 dot_S512x1024_S1024x512_S512x512_1_0_0_1_n_n 1024 rfl rfl).symm k) = ix2 p k := funext fun a => Fin.ext (by
    match a with
    | ⟨0, _⟩ => exact lhs_first_0 _ _
    | ⟨1, _⟩ => exact (lhs_first_1 _ _).trans hk)
  have er : dot_S512x1024_S1024x512_S512x512_1_0_0_1_n_n.rhsIdx (ix2 p j) ((contrEquiv1 dot_S512x1024_S1024x512_S512x512_1_0_0_1_n_n 1024 rfl rfl).symm k) = ix2 k j := funext fun a => Fin.ext (by
    match a with
    | ⟨0, _⟩ => exact (rhs_first_0 _ _).trans hk
    | ⟨1, _⟩ => exact rhs_first_1 _ _)
  rw [el, er]

theorem lhs_second_0 (i : S512x1024.Idx) (c : dot_S512x512_S512x1024_S512x1024_1_0_0_1_n_n.contr.Idx) :
    (dot_S512x512_S512x1024_S512x1024_1_0_0_1_n_n.lhsIdx i c 0).val = (i 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
theorem lhs_second_1 (i : S512x1024.Idx) (c : dot_S512x512_S512x1024_S512x1024_1_0_0_1_n_n.contr.Idx) :
    (dot_S512x512_S512x1024_S512x1024_1_0_0_1_n_n.lhsIdx i c 1).val = (c ⟨0, by decide⟩).val :=
  dot_S512x512_S512x1024_S512x1024_1_0_0_1_n_n.lhsIdx_val_of_single rfl i c
theorem rhs_second_0 (i : S512x1024.Idx) (c : dot_S512x512_S512x1024_S512x1024_1_0_0_1_n_n.contr.Idx) :
    (dot_S512x512_S512x1024_S512x1024_1_0_0_1_n_n.rhsIdx i c 0).val = (c ⟨0, by decide⟩).val :=
  dot_S512x512_S512x1024_S512x1024_1_0_0_1_n_n.rhsIdx_val_of_single rfl i c
theorem rhs_second_1 (i : S512x1024.Idx) (c : dot_S512x512_S512x1024_S512x1024_1_0_0_1_n_n.contr.Idx) :
    (dot_S512x512_S512x1024_S512x1024_1_0_0_1_n_n.rhsIdx i c 1).val = (i 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl

/-- The second layer's product into the zero accumulator at `(p, q)`: `∑ⱼ H p j · W j q`. -/
theorem matmul_second_apply (H : FVec Ideal S512x512 .bf16) (W : FVec Ideal S512x1024 .bf16) (p : Fin 512) (q : Fin 1024) :
    matmul dot_S512x512_S512x1024_S512x1024_1_0_0_1_n_n none H W (constant (F := Ideal) S512x1024 .f32 0x00000000#32) (ix2 p q)
      = ∑ j : Fin 512, H (ix2 p j) * W (ix2 j q) := by
  simp only [matmul]
  rw [Ideal.matmul_constant_zero_apply, ← Equiv.sum_comp (contrEquiv1 dot_S512x512_S512x1024_S512x1024_1_0_0_1_n_n 512 rfl rfl).symm]
  refine Finset.sum_congr rfl fun j _ => ?_
  have hj := contrEquiv1_symm_val dot_S512x512_S512x1024_S512x1024_1_0_0_1_n_n 512 rfl rfl j
  have el : dot_S512x512_S512x1024_S512x1024_1_0_0_1_n_n.lhsIdx (ix2 p q) ((contrEquiv1 dot_S512x512_S512x1024_S512x1024_1_0_0_1_n_n 512 rfl rfl).symm j) = ix2 p j := funext fun a => Fin.ext (by
    match a with
    | ⟨0, _⟩ => exact lhs_second_0 _ _
    | ⟨1, _⟩ => exact (lhs_second_1 _ _).trans hj)
  have er : dot_S512x512_S512x1024_S512x1024_1_0_0_1_n_n.rhsIdx (ix2 p q) ((contrEquiv1 dot_S512x512_S512x1024_S512x1024_1_0_0_1_n_n 512 rfl rfl).symm j) = ix2 j q := funext fun a => Fin.ext (by
    match a with
    | ⟨0, _⟩ => exact (rhs_second_0 _ _).trans hj
    | ⟨1, _⟩ => exact rhs_second_1 _ _)
  rw [el, er]

/-! ## The rectified hidden layer -/

/-- The block as the first layer reads it: a format change, the identity on extended reals. -/
theorem pay7_apply (x0 : Vec Ideal S512x1024 .f32) (p : Fin 512) (k : Fin 1024) :
    k0_pay7 (F := Ideal) x0 (ix2 p k) = x0 (ix2 p k) := by
  unfold k0_pay7
  rw [truncf_apply, shapeCast_self]

/-- The hidden unit `j` of row `p`: `max(∑ₖ x p k · W k j + c j, 0)`. -/
theorem pay9_apply (x0 : Vec Ideal S512x1024 .f32) (W : Vec Ideal S1024x512 .bf16) (c : Vec Ideal S512 .f32) (p j : Fin 512) :
    k0_pay9 (F := Ideal) x0 W c (ix2 p j)
      = max ((∑ k : Fin 1024, x0 (ix2 p k) * W (ix2 k j)) + c (ix1 j)) Cert.Spec.zeroW := by
  unfold k0_pay9
  rw [truncf_apply, maximumf_apply, addf_apply, shapeCast_self, matmul_first_apply, broadcast_apply,
    broadcastTo_1b_ab_apply, shapeCast_a_1a_apply]
  simp only [pay7_apply]
  rfl

/-- One tile's update of an accumulator from a hidden block `H`: `a p q + ∑ⱼ H p j · W j q`. -/
theorem update_apply (H : FVec Ideal S512x512 .bf16) (a : Vec Ideal S512x1024 .f32) (W : Vec Ideal S512x1024 .bf16)
    (p : Fin 512) (q : Fin 1024) :
    k0_pay1 (F := Ideal) H a W (ix2 p q) = a (ix2 p q) + ∑ j : Fin 512, H (ix2 p j) * W (ix2 j q) := by
  unfold k0_pay1
  simp only [shapeCast_self]
  rw [addf_apply, matmul_second_apply]

end Acc0

open Acc0

/-! ## The payloads -/

/-- A cleared accumulator is zero everywhere. -/
theorem pay5_apply (p : Fin 512) (q : Fin 1024) : k0_pay5 (F := Ideal) (ix2 p q) = 0 := by
  unfold k0_pay5
  rw [shapeCast_self, broadcast_apply]
  exact Ideal.ofBits_zero_f32
theorem pay6_apply (p : Fin 512) (q : Fin 1024) : k0_pay6 (F := Ideal) (ix2 p q) = 0 := by
  unfold k0_pay6
  rw [shapeCast_self, broadcast_apply]
  exact Ideal.ofBits_zero_f32
/-- One tile's update of the first accumulator. -/
theorem pay8_apply (x0 : Vec Ideal S512x1024 .f32) (x2 : Vec Ideal S1024x512 .bf16) (x3 : Vec Ideal S512 .f32)
    (a : Vec Ideal S512x1024 .f32) (x4 : Vec Ideal S512x1024 .bf16) (p : Fin 512) (q : Fin 1024) :
    k0_pay8 (F := Ideal) x0 x2 x3 a x4 (ix2 p q)
      = a (ix2 p q) + ∑ j : Fin 512, max ((∑ k : Fin 1024, x0 (ix2 p k) * x2 (ix2 k j)) + x3 (ix1 j)) Cert.Spec.zeroW * x4 (ix2 j q) := by
  -- the first accumulator's update is the second's, from the hidden block of its own weights
  refine (update_apply (k0_pay9 x0 x2 x3) a x4 p q).trans ?_
  refine congrArg (a (ix2 p q) + ·) (Finset.sum_congr rfl fun j _ => ?_)
  rw [pay9_apply]
/-- One tile's update of the second accumulator. -/
theorem pay1_apply (x0 : Vec Ideal S512x1024 .f32) (x6 : Vec Ideal S1024x512 .bf16) (x7 : Vec Ideal S512 .f32)
    (a : Vec Ideal S512x1024 .f32) (x8 : Vec Ideal S512x1024 .bf16) (p : Fin 512) (q : Fin 1024) :
    k0_pay1 (F := Ideal) (k0_pay9 x0 x6 x7) a x8 (ix2 p q)
      = a (ix2 p q) + ∑ j : Fin 512, max ((∑ k : Fin 1024, x0 (ix2 p k) * x6 (ix2 k j)) + x7 (ix1 j)) Cert.Spec.zeroW * x8 (ix2 j q) := by
  refine (update_apply (k0_pay9 x0 x6 x7) a x8 p q).trans ?_
  refine congrArg (a (ix2 p q) + ·) (Finset.sum_congr rfl fun j _ => ?_)
  rw [pay9_apply]
/-- The log-scale. -/
theorem pay2_apply (s : Vec Ideal S512x1024 .f32) (b : Vec Ideal S1024 .f32) (p : Fin 512) (q : Fin 1024) :
    k0_pay2 (F := Ideal) s b (ix2 p q) = Ideal.tanh (s (ix2 p q) + b (ix1 q)) * Cert.Spec.oneW := by
  unfold k0_pay2
  rw [mulf_apply, broadcast_apply, tanh_apply, addf_apply, broadcastTo_1b_ab_apply, shapeCast_a_1a_apply]
  rfl
/-- The updated half. -/
theorem pay3_apply (s : Vec Ideal S512x1024 .f32) (b : Vec Ideal S1024 .f32) (t : Vec Ideal S512x1024 .f32) (bt : Vec Ideal S1024 .f32)
    (self : Vec Ideal S512x1024 .f32) (p : Fin 512) (q : Fin 1024) :
    k0_pay3 (F := Ideal) s b t bt self (ix2 p q)
      = self (ix2 p q) * Ideal.exp (Ideal.tanh (s (ix2 p q) + b (ix1 q)) * Cert.Spec.oneW) + (t (ix2 p q) + bt (ix1 q)) := by
  unfold k0_pay3
  rw [addf_apply, mulf_apply, shapeCast_self, exp_apply, pay2_apply, addf_apply, broadcastTo_1b_ab_apply,
    shapeCast_a_1a_apply]
/-- The log-determinant column: the row sum of the log-scale. -/
theorem pay4_apply (s : Vec Ideal S512x1024 .f32) (b : Vec Ideal S1024 .f32) (p : Fin 512) (z : Fin 1) :
    k0_pay4 (F := Ideal) s b (ix2 p z) = ∑ q : Fin 1024, Ideal.tanh (s (ix2 p q) + b (ix1 q)) * Cert.Spec.oneW := by
  unfold k0_pay4
  rw [Cert.Columns.shapeCast_a_a1_apply]
  refine (Cert.Columns.rowSum_apply (k0_pay2 (F := Ideal) s b) 0x00000000#32 reduces_S512x1024_S512 (.inl rfl) rfl p).trans ?_
  exact Finset.sum_congr rfl fun q _ => pay2_apply s b p q

end Cert.KernelIdeal.Hand

end
-- ==== Proof.KI.Tile0.lean ====
import proofs.«142033_j33071248180131_1_alg».proof.Proof.Spec
import Mathlib.Algebra.BigOperators.Fin
import Mathlib.Data.Fintype.BigOperators
import Mathlib.Logic.Equiv.Fin.Basic

/-!
# The hidden units, tile by tile

The 4096 hidden units of a perceptron are walked in eight tiles of 512: unit `j` of tile `s` is unit
`512·s + j`. The eight tiles partition the units, so the eight tile sums of the second layer's products
add up to the sum over all units: addition of extended reals is commutative and associative, and a
finite sum may be regrouped along any partition of its index set. With the output bias added this is the
perceptron's output, and from the two perceptrons' outputs come the updated half and the log-determinant.
-/

noncomputable section

namespace Cert.KernelIdeal.Hand

open Cert.Spec Idealize.ShloMosaic Idealize.ShloMosaic.ValueIdx

/-- Row `n` of the batch, read modulo the extent: at the numbers the grid produces the remainder is the
    number itself, and no bound has to be carried. -/
def rowAt0 (n : ℕ) : Fin 8192 := ⟨n % 8192, Nat.mod_lt _ (by decide)⟩

/-- Hidden unit `n`, read modulo the extent in the same way. -/
def unitAt0 (n : ℕ) : Fin 4096 := ⟨n % 4096, Nat.mod_lt _ (by decide)⟩

/-- The eight tiles of 512 partition the 4096 units: summing tile by tile is summing over all units. -/
theorem sumTiles0 {M : Type} [AddCommMonoid M] (f : Fin 4096 → M) :
    ∑ s ∈ Finset.range 8, ∑ j : Fin 512, f (unitAt0 (512 * s + j.val)) = ∑ u : Fin 4096, f u := by
  rw [Finset.sum_range (fun s => ∑ j : Fin 512, f (unitAt0 (512 * s + j.val)))]
  rw [← Fintype.sum_prod_type' (fun (s : Fin 8) (j : Fin 512) => f (unitAt0 (512 * s.val + j.val)))]
  refine Fintype.sum_equiv (finProdFinEquiv : Fin 8 × Fin 512 ≃ Fin 4096) _ _ ?_
  rintro ⟨s, j⟩
  refine congrArg f (Fin.ext ?_)
  show (512 * s.val + j.val) % 4096 = j.val + 512 * s.val
  have hs := s.isLt
  have hj := j.isLt
  omega

/-- Tile `s`'s share of output `d` of row `r`: its 512 hidden units, each times its second-layer weight. -/
def tileSum0 (x : Mat 8192 1024) (W1 : Mat 1024 4096) (b1 : Row 4096) (W2 : Mat 4096 1024)
    (r : Fin 8192) (d : Fin 1024) (s : ℕ) : EReal :=
  ∑ j : Fin 512, hidden x W1 b1 r (unitAt0 (512 * s + j.val)) * W2 (ix2 (unitAt0 (512 * s + j.val)) d)

/-- A tile sum written over the blocks a grid point holds is that tile's share, once each block entry is
    read where it lies in its array: `xb` the row of the conditioning block, `w1b`, `b1b`, `w2b` the tile's
    first-layer weights, first-layer biases and second-layer weights. -/
theorem tileOfBlocks0 (x : Mat 8192 1024) (W1 : Mat 1024 4096) (b1 : Row 4096) (W2 : Mat 4096 1024)
    (r : Fin 8192) (d : Fin 1024) (s : ℕ)
    (xb : Fin 1024 → EReal) (w1b : Fin 1024 → Fin 512 → EReal) (b1b : Fin 512 → EReal) (w2b : Fin 512 → EReal)
    (hx : ∀ k, xb k = x (ix2 r k))
    (hw1 : ∀ k j, w1b k j = W1 (ix2 k (unitAt0 (512 * s + j.val))))
    (hb1 : ∀ j, b1b j = b1 (ix1 (unitAt0 (512 * s + j.val))))
    (hw2 : ∀ j, w2b j = W2 (ix2 (unitAt0 (512 * s + j.val)) d)) :
    ∑ j : Fin 512, max ((∑ k : Fin 1024, xb k * w1b k j) + b1b j) zeroW * w2b j = tileSum0 x W1 b1 W2 r d s := by
  unfold tileSum0 Cert.Spec.hidden
  refine Finset.sum_congr rfl fun j _ => ?_
  rw [hb1 j, hw2 j]
  refine congrArg (fun z => max (z + b1 (ix1 (unitAt0 (512 * s + j.val)))) zeroW * W2 (ix2 (unitAt0 (512 * s + j.val)) d)) ?_
  exact Finset.sum_congr rfl fun k _ => by rw [hx k, hw1 k j]

/-- What an accumulator holds after grid point `n` (row block `n / 8`, tile `n % 8`) at row `p` of the
    block, column `q`: the shares of the tiles `0 .. n % 8` for row `512·(n / 8) + p`. -/
def tileAcc0 (x : Mat 8192 1024) (W1 : Mat 1024 4096) (b1 : Row 4096) (W2 : Mat 4096 1024)
    (n : ℕ) (p : Fin 512) (q : Fin 1024) : EReal :=
  ∑ s ∈ Finset.range (n % 8 + 1), tileSum0 x W1 b1 W2 (rowAt0 (512 * (n / 8) + p.val)) q s

/-- At a point that opens a row block the accumulator is zero plus the first tile's share. -/
theorem tileAccOpen0 (x : Mat 8192 1024) (W1 : Mat 1024 4096) (b1 : Row 4096) (W2 : Mat 4096 1024)
    (n : ℕ) (p : Fin 512) (q : Fin 1024) (h : n % 8 = 0) :
    tileAcc0 x W1 b1 W2 n p q = 0 + tileSum0 x W1 b1 W2 (rowAt0 (512 * (n / 8) + p.val)) q (n % 8) := by
  unfold tileAcc0
  rw [h, Finset.sum_range_one, zero_add]

/-- At any other point it is what the point before left plus this tile's share: the point before is in
    the same row block, one tile earlier. -/
theorem tileAccStep0 (x : Mat 8192 1024) (W1 : Mat 1024 4096) (b1 : Row 4096) (W2 : Mat 4096 1024)
    (n : ℕ) (p : Fin 512) (q : Fin 1024) (h : ¬n % 8 = 0) :
    tileAcc0 x W1 b1 W2 n p q
      = tileAcc0 x W1 b1 W2 (n - 1) p q + tileSum0 x W1 b1 W2 (rowAt0 (512 * (n / 8) + p.val)) q (n % 8) := by
  obtain ⟨m, rfl⟩ : ∃ m, n = m + 1 := ⟨n - 1, by omega⟩
  have e1 : (m + 1) % 8 = m % 8 + 1 := by omega
  have e2 : (m + 1) / 8 = m / 8 := by omega
  unfold tileAcc0
  rw [Nat.add_sub_cancel, e1, e2, Finset.sum_range_succ]

/-- At a point that closes a row block all eight tiles are in. -/
theorem tileAccClose0 (x : Mat 8192 1024) (W1 : Mat 1024 4096) (b1 : Row 4096) (W2 : Mat 4096 1024)
    (n : ℕ) (p : Fin 512) (q : Fin 1024) (h : n % 8 = 7) :
    tileAcc0 x W1 b1 W2 n p q
      = ∑ s ∈ Finset.range 8, tileSum0 x W1 b1 W2 (rowAt0 (512 * (n / 8) + p.val)) q s := by
  unfold tileAcc0
  rw [h]

/-- The eight tile sums and the output bias are the perceptron's output. -/
theorem tileMlp0 (x : Mat 8192 1024) (W1 : Mat 1024 4096) (b1 : Row 4096) (W2 : Mat 4096 1024) (b2 : Row 1024)
    (r : Fin 8192) (d : Fin 1024) :
    (∑ s ∈ Finset.range 8, tileSum0 x W1 b1 W2 r d s) + b2 (ix1 d) = mlp x W1 b1 W2 b2 r d := by
  unfold tileSum0 mlp
  rw [sumTiles0 (fun u => hidden x W1 b1 r u * W2 (ix2 u d))]

/-- The updated half from the two perceptrons' tile sums. -/
theorem tileCoupled0 (cond self : Mat 8192 1024)
    (sW1 : Mat 1024 4096) (sb1 : Row 4096) (sW2 : Mat 4096 1024) (sb2 : Row 1024)
    (tW1 : Mat 1024 4096) (tb1 : Row 4096) (tW2 : Mat 4096 1024) (tb2 : Row 1024) (r : Fin 8192) (d : Fin 1024) :
    self (ix2 r d) * Ideal.exp (Ideal.tanh ((∑ s ∈ Finset.range 8, tileSum0 cond sW1 sb1 sW2 r d s) + sb2 (ix1 d)) * oneW)
        + ((∑ s ∈ Finset.range 8, tileSum0 cond tW1 tb1 tW2 r d s) + tb2 (ix1 d))
      = coupled cond self sW1 sb1 sW2 sb2 tW1 tb1 tW2 tb2 r d := by
  rw [tileMlp0, tileMlp0]
  rfl

/-- The row's log-determinant from the first perceptron's tile sums. -/
theorem tileLogdet0 (cond : Mat 8192 1024) (sW1 : Mat 1024 4096) (sb1 : Row 4096) (sW2 : Mat 4096 1024) (sb2 : Row 1024)
    (r : Fin 8192) :
    ∑ q : Fin 1024, Ideal.tanh ((∑ s ∈ Finset.range 8, tileSum0 cond sW1 sb1 sW2 r q s) + sb2 (ix1 q)) * oneW
      = logdet cond sW1 sb1 sW2 sb2 r := by
  unfold logdet scale
  exact Finset.sum_congr rfl (fun q _ => by rw [tileMlp0])

/-- The same with each ingredient given as a value and an equation: the two accumulators' entries, the two
    output biases and the entry of the half being updated. -/
theorem tileCoupledOf0 (cond self : Mat 8192 1024)
    (sW1 : Mat 1024 4096) (sb1 : Row 4096) (sW2 : Mat 4096 1024) (sb2 : Row 1024)
    (tW1 : Mat 1024 4096) (tb1 : Row 4096) (tW2 : Mat 4096 1024) (tb2 : Row 1024) (r : Fin 8192) (d : Fin 1024)
    (sv bv tv btv selfv : EReal)
    (hs : sv = ∑ s ∈ Finset.range 8, tileSum0 cond sW1 sb1 sW2 r d s) (hb : bv = sb2 (ix1 d))
    (ht : tv = ∑ s ∈ Finset.range 8, tileSum0 cond tW1 tb1 tW2 r d s) (hbt : btv = tb2 (ix1 d))
    (hself : selfv = self (ix2 r d)) :
    selfv * Ideal.exp (Ideal.tanh (sv + bv) * oneW) + (tv + btv)
      = coupled cond self sW1 sb1 sW2 sb2 tW1 tb1 tW2 tb2 r d := by
  subst hs hb ht hbt hself
  exact tileCoupled0 cond self sW1 sb1 sW2 sb2 tW1 tb1 tW2 tb2 r d

/-- The same for the log-determinant: the first accumulator's row and its bias row, each entry with an
    equation. -/
theorem tileLogdetOf0 (cond : Mat 8192 1024) (sW1 : Mat 1024 4096) (sb1 : Row 4096) (sW2 : Mat 4096 1024) (sb2 : Row 1024)
    (r : Fin 8192) (sv bv : Fin 1024 → EReal)
    (hs : ∀ q, sv q = ∑ s ∈ Finset.range 8, tileSum0 cond sW1 sb1 sW2 r q s) (hb : ∀ q, bv q = sb2 (ix1 q)) :
    ∑ q : Fin 1024, Ideal.tanh (sv q + bv q) * oneW = logdet cond sW1 sb1 sW2 sb2 r := by
  rw [← tileLogdet0]
  exact Finset.sum_congr rfl fun q _ => by rw [hs q, hb q]

end Cert.KernelIdeal.Hand

end
-- ==== Proof.KI.Blocks0.lean ====
import proofs.«142033_j33071248180131_1_alg».proof.Proof.KI.Base0
import proofs.«142033_j33071248180131_1_alg».proof.Proof.KI.Tile0
import Idealize.ShloMosaic.Lib.ValueIdx

/-!
# The first half-step's region: each input block, read where it lies in its array

At grid point `t` the row block is `t / 8` and the hidden tile is `t % 8`. A window's block is a
rectangle of its array, so an entry of the block is the array's entry at block index × block size plus the
coordinate inside the block, axis by axis. The block indices are the printed index maps; their closed
forms in `t` are decided once over the 128 points.
-/

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the TensorCore's buffer contents when the region is entered
variable (V : (c : Dev nD) → (b : Ref sig .tc) → Buf (Elt F) ((c : Thread nD τ).loc b))

/-! ## The blocks, at their literal shapes -/

abbrev blk0_0 (c : Dev nD) (t : Fin cfg0.N) : Vec F S512x1024 .f32 := iblk0 V c 0 t
abbrev blk0_1 (c : Dev nD) (t : Fin cfg0.N) : Vec F S512x1024 .f32 := iblk0 V c 1 t
abbrev blk0_2 (c : Dev nD) (t : Fin cfg0.N) : Vec F S1024x512 .bf16 := iblk0 V c 2 t
abbrev blk0_3 (c : Dev nD) (t : Fin cfg0.N) : Vec F S512 .f32 := iblk0 V c 3 t
abbrev blk0_4 (c : Dev nD) (t : Fin cfg0.N) : Vec F S512x1024 .bf16 := iblk0 V c 4 t
abbrev blk0_5 (c : Dev nD) (t : Fin cfg0.N) : Vec F S1024 .f32 := iblk0 V c 5 t
abbrev blk0_6 (c : Dev nD) (t : Fin cfg0.N) : Vec F S1024x512 .bf16 := iblk0 V c 6 t
abbrev blk0_7 (c : Dev nD) (t : Fin cfg0.N) : Vec F S512 .f32 := iblk0 V c 7 t
abbrev blk0_8 (c : Dev nD) (t : Fin cfg0.N) : Vec F S512x1024 .bf16 := iblk0 V c 8 t
abbrev blk0_9 (c : Dev nD) (t : Fin cfg0.N) : Vec F S1024 .f32 := iblk0 V c 9 t

/-! ## The block indices in closed form -/

theorem blk0_idx0 : ∀ t : Fin cfg0.N, win0_0.index t (0 : Fin 2) = t.val / 8 ∧ win0_0.index t (1 : Fin 2) = 0 :=
  (by decide +kernel : ∀ t : Fin grid0.N, _)
theorem blk0_idx1 : ∀ t : Fin cfg0.N, win0_1.index t (0 : Fin 2) = t.val / 8 ∧ win0_1.index t (1 : Fin 2) = 0 :=
  (by decide +kernel : ∀ t : Fin grid0.N, _)
theorem blk0_idx2 : ∀ t : Fin cfg0.N, win0_2.index t (0 : Fin 2) = 0 ∧ win0_2.index t (1 : Fin 2) = t.val % 8 :=
  (by decide +kernel : ∀ t : Fin grid0.N, _)
theorem blk0_idx3 : ∀ t : Fin cfg0.N, win0_3.index t (0 : Fin 1) = t.val % 8 :=
  (by decide +kernel : ∀ t : Fin grid0.N, _)
theorem blk0_idx4 : ∀ t : Fin cfg0.N, win0_4.index t (0 : Fin 2) = t.val % 8 ∧ win0_4.index t (1 : Fin 2) = 0 :=
  (by decide +kernel : ∀ t : Fin grid0.N, _)
theorem blk0_idx5 : ∀ t : Fin cfg0.N, win0_5.index t (0 : Fin 1) = 0 :=
  (by decide +kernel : ∀ t : Fin grid0.N, _)
theorem blk0_idx6 : ∀ t : Fin cfg0.N, win0_6.index t (0 : Fin 2) = 0 ∧ win0_6.index t (1 : Fin 2) = t.val % 8 :=
  (by decide +kernel : ∀ t : Fin grid0.N, _)
theorem blk0_idx7 : ∀ t : Fin cfg0.N, win0_7.index t (0 : Fin 1) = t.val % 8 :=
  (by decide +kernel : ∀ t : Fin grid0.N, _)
theorem blk0_idx8 : ∀ t : Fin cfg0.N, win0_8.index t (0 : Fin 2) = t.val % 8 ∧ win0_8.index t (1 : Fin 2) = 0 :=
  (by decide +kernel : ∀ t : Fin grid0.N, _)
theorem blk0_idx9 : ∀ t : Fin cfg0.N, win0_9.index t (0 : Fin 1) = 0 :=
  (by decide +kernel : ∀ t : Fin grid0.N, _)

/-! ## The reads -/

/-- The conditioning block of row block `t / 8`: its row `p` is row `512·(t / 8) + p` of the array. -/
theorem blk0_read0 (c : Dev nD) (t : Fin cfg0.N) (p : Fin 512) (k : Fin 1024) :
    blk0_0 V c t (ix2 p k) = V c main_v1 (ix2 (rowAt0 (512 * (t.val / 8) + p.val)) k) := by
  obtain ⟨e0, e1⟩ := blk0_idx0 t
  have hN : cfg0.N = 128 := N_0
  have ht := t.isLt
  have hp := p.isLt
  show V c (Pipeline.arrRef spec0 0) (((cfg0.win 0).blk t).view.emb (ix2 p k)) = V c (Pipeline.arrRef spec0 0) _
  refine congrArg _ (funext fun a => Fin.ext ?_)
  match a with
  | ⟨0, _⟩ =>
    show win0_0.index t (0 : Fin 2) * 512 + 1 * p.val = (512 * (t.val / 8) + p.val) % 8192
    omega
  | ⟨1, _⟩ =>
    show win0_0.index t (1 : Fin 2) * 1024 + 1 * k.val = k.val
    omega

/-- The block of the half being updated, likewise. -/
theorem blk0_read1 (c : Dev nD) (t : Fin cfg0.N) (p : Fin 512) (k : Fin 1024) :
    blk0_1 V c t (ix2 p k) = V c main_v0 (ix2 (rowAt0 (512 * (t.val / 8) + p.val)) k) := by
  obtain ⟨e0, e1⟩ := blk0_idx1 t
  have hN : cfg0.N = 128 := N_0
  have ht := t.isLt
  have hp := p.isLt
  show V c (Pipeline.arrRef spec0 1) (((cfg0.win 1).blk t).view.emb (ix2 p k)) = V c (Pipeline.arrRef spec0 1) _
  refine congrArg _ (funext fun a => Fin.ext ?_)
  match a with
  | ⟨0, _⟩ =>
    show win0_1.index t (0 : Fin 2) * 512 + 1 * p.val = (512 * (t.val / 8) + p.val) % 8192
    omega
  | ⟨1, _⟩ =>
    show win0_1.index t (1 : Fin 2) * 1024 + 1 * k.val = k.val
    omega

/-- The first perceptron's first-layer weights for tile `t % 8`: column `j` of the block is hidden unit `512·(t % 8) + j`. -/
theorem blk0_read2 (c : Dev nD) (t : Fin cfg0.N) (k : Fin 1024) (j : Fin 512) :
    blk0_2 V c t (ix2 k j) = V c main_v2 (ix2 k (unitAt0 (512 * (t.val % 8) + j.val))) := by
  obtain ⟨e0, e1⟩ := blk0_idx2 t
  have hj := j.isLt
  show V c (Pipeline.arrRef spec0 2) (((cfg0.win 2).blk t).view.emb (ix2 k j)) = V c (Pipeline.arrRef spec0 2) _
  refine congrArg _ (funext fun a => Fin.ext ?_)
  match a with
  | ⟨0, _⟩ =>
    show win0_2.index t (0 : Fin 2) * 1024 + 1 * k.val = k.val
    omega
  | ⟨1, _⟩ =>
    show win0_2.index t (1 : Fin 2) * 512 + 1 * j.val = (512 * (t.val % 8) + j.val) % 4096
    omega

/-- Its first-layer biases for the tile. -/
theorem blk0_read3 (c : Dev nD) (t : Fin cfg0.N) (j : Fin 512) :
    blk0_3 V c t (ix1 j) = V c main_arg2 (ix1 (unitAt0 (512 * (t.val % 8) + j.val))) := by
  have e0 := blk0_idx3 t
  have hj := j.isLt
  show V c (Pipeline.arrRef spec0 3) (((cfg0.win 3).blk t).view.emb (ix1 j)) = V c (Pipeline.arrRef spec0 3) _
  refine congrArg _ (funext fun a => Fin.ext ?_)
  match a with
  | ⟨0, _⟩ =>
    show win0_3.index t (0 : Fin 1) * 512 + 1 * j.val = (512 * (t.val % 8) + j.val) % 4096
    omega

/-- Its second-layer weights for the tile: row `j` of the block is hidden unit `512·(t % 8) + j`. -/
theorem blk0_read4 (c : Dev nD) (t : Fin cfg0.N) (j : Fin 512) (q : Fin 1024) :
    blk0_4 V c t (ix2 j q) = V c main_v3 (ix2 (unitAt0 (512 * (t.val % 8) + j.val)) q) := by
  obtain ⟨e0, e1⟩ := blk0_idx4 t
  have hj := j.isLt
  show V c (Pipeline.arrRef spec0 4) (((cfg0.win 4).blk t).view.emb (ix2 j q)) = V c (Pipeline.arrRef spec0 4) _
  refine congrArg _ (funext fun a => Fin.ext ?_)
  match a with
  | ⟨0, _⟩ =>
    show win0_4.index t (0 : Fin 2) * 512 + 1 * j.val = (512 * (t.val % 8) + j.val) % 4096
    omega
  | ⟨1, _⟩ =>
    show win0_4.index t (1 : Fin 2) * 1024 + 1 * q.val = q.val
    omega

/-- Its output biases: the block is the whole array. -/
theorem blk0_read5 (c : Dev nD) (t : Fin cfg0.N) (q : Fin 1024) :
    blk0_5 V c t (ix1 q) = V c main_arg4 (ix1 q) := by
  have e0 := blk0_idx5 t
  show V c (Pipeline.arrRef spec0 5) (((cfg0.win 5).blk t).view.emb (ix1 q)) = V c (Pipeline.arrRef spec0 5) _
  refine congrArg _ (funext fun a => Fin.ext ?_)
  match a with
  | ⟨0, _⟩ =>
    show win0_5.index t (0 : Fin 1) * 1024 + 1 * q.val = q.val
    omega

/-- The second perceptron's first-layer weights for the tile. -/
theorem blk0_read6 (c : Dev nD) (t : Fin cfg0.N) (k : Fin 1024) (j : Fin 512) :
    blk0_6 V c t (ix2 k j) = V c main_v4 (ix2 k (unitAt0 (512 * (t.val % 8) + j.val))) := by
  obtain ⟨e0, e1⟩ := blk0_idx6 t
  have hj := j.isLt
  show V c (Pipeline.arrRef spec0 6) (((cfg0.win 6).blk t).view.emb (ix2 k j)) = V c (Pipeline.arrRef spec0 6) _
  refine congrArg _ (funext fun a => Fin.ext ?_)
  match a with
  | ⟨0, _⟩ =>
    show win0_6.index t (0 : Fin 2) * 1024 + 1 * k.val = k.val
    omega
  | ⟨1, _⟩ =>
    show win0_6.index t (1 : Fin 2) * 512 + 1 * j.val = (512 * (t.val % 8) + j.val) % 4096
    omega

/-- Its first-layer biases for the tile. -/
theorem blk0_read7 (c : Dev nD) (t : Fin cfg0.N) (j : Fin 512) :
    blk0_7 V c t (ix1 j) = V c main_arg6 (ix1 (unitAt0 (512 * (t.val % 8) + j.val))) := by
  have e0 := blk0_idx7 t
  have hj := j.isLt
  show V c (Pipeline.arrRef spec0 7) (((cfg0.win 7).blk t).view.emb (ix1 j)) = V c (Pipeline.arrRef spec0 7) _
  refine congrArg _ (funext fun a => Fin.ext ?_)
  match a with
  | ⟨0, _⟩ =>
    show win0_7.index t (0 : Fin 1) * 512 + 1 * j.val = (512 * (t.val % 8) + j.val) % 4096
    omega

/-- Its second-layer weights for the tile. -/
theorem blk0_read8 (c : Dev nD) (t : Fin cfg0.N) (j : Fin 512) (q : Fin 1024) :
    blk0_8 V c t (ix2 j q) = V c main_v5 (ix2 (unitAt0 (512 * (t.val % 8) + j.val)) q) := by
  obtain ⟨e0, e1⟩ := blk0_idx8 t
  have hj := j.isLt
  show V c (Pipeline.arrRef spec0 8) (((cfg0.win 8).blk t).view.emb (ix2 j q)) = V c (Pipeline.arrRef spec0 8) _
  refine congrArg _ (funext fun a => Fin.ext ?_)
  match a with
  | ⟨0, _⟩ =>
    show win0_8.index t (0 : Fin 2) * 512 + 1 * j.val = (512 * (t.val % 8) + j.val) % 4096
    omega
  | ⟨1, _⟩ =>
    show win0_8.index t (1 : Fin 2) * 1024 + 1 * q.val = q.val
    omega

/-- Its output biases: the block is the whole array. -/
theorem blk0_read9 (c : Dev nD) (t : Fin cfg0.N) (q : Fin 1024) :
    blk0_9 V c t (ix1 q) = V c main_arg8 (ix1 q) := by
  have e0 := blk0_idx9 t
  show V c (Pipeline.arrRef spec0 9) (((cfg0.win 9).blk t).view.emb (ix1 q)) = V c (Pipeline.arrRef spec0 9) _
  refine congrArg _ (funext fun a => Fin.ext ?_)
  match a with
  | ⟨0, _⟩ =>
    show win0_9.index t (0 : Fin 1) * 1024 + 1 * q.val = q.val
    omega

end Cert.KernelIdeal.Hand

end
-- ==== Proof.KI.Accum0.lean ====
import proofs.«142033_j33071248180131_1_alg».proof.Proof.KI.Pieces0
import proofs.«142033_j33071248180131_1_alg».proof.Proof.KI.Acc0
import proofs.«142033_j33071248180131_1_alg».proof.Proof.KI.Blocks0

/-!
# The first half-step's region: what the two accumulators hold, point by point

Grid point `n` is row block `n / 8`, hidden tile `n % 8`. A tile's update adds, at row `p` and column
`q` of the block, the tile's 512 hidden units of row `512·(n / 8) + p`, each times its second-layer
weight for column `q`. The point that opens a row block adds this to zero, every other point to what the
point before left; so after point `n` an accumulator holds the shares of the tiles `0 .. n % 8`, by
induction along the grid.
-/

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

-- the TensorCore's buffer contents when the region is entered, at the ideal values
variable (V : (c : Dev nD) → (b : Ref sig .tc) → Buf (Elt Ideal) ((c : Thread nD τ).loc b))

/-! ## One tile's update, over the arrays -/

/-- The first perceptron's update at point `t`: the tile sum over the point's blocks is tile `t % 8`'s
    share for row `512·(t / 8) + p`. -/
theorem accAt0_tileS (c : Dev nD) (t : Fin cfg0.N) (p : Fin 512) (q : Fin 1024) :
    ∑ j : Fin 512, max ((∑ k : Fin 1024, blk0_0 V c t (ix2 p k) * blk0_2 V c t (ix2 k j)) + blk0_3 V c t (ix1 j)) Cert.Spec.zeroW
        * blk0_4 V c t (ix2 j q)
      = tileSum0 (V c main_v1) (V c main_v2) (V c main_arg2) (V c main_v3) (rowAt0 (512 * (t.val / 8) + p.val)) q (t.val % 8) :=
  tileOfBlocks0 (V c main_v1) (V c main_v2) (V c main_arg2) (V c main_v3) (rowAt0 (512 * (t.val / 8) + p.val)) q (t.val % 8)
    (fun k => blk0_0 V c t (ix2 p k)) (fun k j => blk0_2 V c t (ix2 k j)) (fun j => blk0_3 V c t (ix1 j))
    (fun j => blk0_4 V c t (ix2 j q))
    (fun k => blk0_read0 V c t p k) (fun k j => blk0_read2 V c t k j) (fun j => blk0_read3 V c t j)
    (fun j => blk0_read4 V c t j q)

/-- The second perceptron's, likewise. -/
theorem accAt0_tileT (c : Dev nD) (t : Fin cfg0.N) (p : Fin 512) (q : Fin 1024) :
    ∑ j : Fin 512, max ((∑ k : Fin 1024, blk0_0 V c t (ix2 p k) * blk0_6 V c t (ix2 k j)) + blk0_7 V c t (ix1 j)) Cert.Spec.zeroW
        * blk0_8 V c t (ix2 j q)
      = tileSum0 (V c main_v1) (V c main_v4) (V c main_arg6) (V c main_v5) (rowAt0 (512 * (t.val / 8) + p.val)) q (t.val % 8) :=
  tileOfBlocks0 (V c main_v1) (V c main_v4) (V c main_arg6) (V c main_v5) (rowAt0 (512 * (t.val / 8) + p.val)) q (t.val % 8)
    (fun k => blk0_0 V c t (ix2 p k)) (fun k j => blk0_6 V c t (ix2 k j)) (fun j => blk0_7 V c t (ix1 j))
    (fun j => blk0_8 V c t (ix2 j q))
    (fun k => blk0_read0 V c t p k) (fun k j => blk0_read6 V c t k j) (fun j => blk0_read7 V c t j)
    (fun j => blk0_read8 V c t j q)

/-- So the first accumulator's update over a value `a` is `a` plus the tile's share, -/
theorem accAt0_payS (c : Dev nD) (t : Fin cfg0.N) (a : Vec Ideal S512x1024 .f32) (p : Fin 512) (q : Fin 1024) :
    k0_pay8 (F := Ideal) (blk0_0 V c t) (blk0_2 V c t) (blk0_3 V c t) a (blk0_4 V c t) (ix2 p q)
      = a (ix2 p q) + tileSum0 (V c main_v1) (V c main_v2) (V c main_arg2) (V c main_v3) (rowAt0 (512 * (t.val / 8) + p.val)) q (t.val % 8) :=
  (pay8_apply (blk0_0 V c t) (blk0_2 V c t) (blk0_3 V c t) a (blk0_4 V c t) p q).trans
    (congrArg (fun z => a (ix2 p q) + z) (accAt0_tileS V c t p q))

/-- and the second accumulator's likewise. -/
theorem accAt0_payT (c : Dev nD) (t : Fin cfg0.N) (a : Vec Ideal S512x1024 .f32) (p : Fin 512) (q : Fin 1024) :
    k0_pay1 (F := Ideal) (k0_pay9 (blk0_0 V c t) (blk0_6 V c t) (blk0_7 V c t)) a (blk0_8 V c t) (ix2 p q)
      = a (ix2 p q) + tileSum0 (V c main_v1) (V c main_v4) (V c main_arg6) (V c main_v5) (rowAt0 (512 * (t.val / 8) + p.val)) q (t.val % 8) :=
  (pay1_apply (blk0_0 V c t) (blk0_6 V c t) (blk0_7 V c t) a (blk0_8 V c t) p q).trans
    (congrArg (fun z => a (ix2 p q) + z) (accAt0_tileT V c t p q))

/-! ## The accumulators the point before left -/

abbrev accAt0_prevS (c : Dev nD) (t : Fin cfg0.N) : Vec Ideal S512x1024 .f32 :=
  (outsAt0 V c (t.val - 1) (Nat.lt_of_le_of_lt (Nat.sub_le _ _) t.isLt)).2.2.1
abbrev accAt0_prevT (c : Dev nD) (t : Fin cfg0.N) : Vec Ideal S512x1024 .f32 :=
  (outsAt0 V c (t.val - 1) (Nat.lt_of_le_of_lt (Nat.sub_le _ _) t.isLt)).2.2.2

/-! ## One point -/

/-- A point that opens a row block leaves zero plus the first tile's share in the first accumulator. -/
theorem accAt0_openS (c : Dev nD) (t : Fin cfg0.N) (h0 : t.val % 8 = 0) (p : Fin 512) (q : Fin 1024) :
    (outsAt0 V c t.val t.isLt).2.2.1 (ix2 p q)
      = 0 + tileSum0 (V c main_v1) (V c main_v2) (V c main_arg2) (V c main_v3) (rowAt0 (512 * (t.val / 8) + p.val)) q (t.val % 8) := by
  rw [outsAt0_A V c t h0]
  dsimp only
  refine (congrFun (sout0_A_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (fun h => absurd ((hcond0_1 t).mp h) (by omega)) (blk0_0 V c t) (blk0_1 V c t) (blk0_2 V c t) (blk0_3 V c t) (blk0_4 V c t) (blk0_5 V c t) (blk0_6 V c t) (blk0_7 V c t) (blk0_8 V c t) (blk0_9 V c t)) (ix2 p q)).trans ?_
  refine (accAt0_payS V c t (k0_pay5 (F := Ideal)) p q).trans ?_
  rw [pay5_apply]

theorem accAt0_openT (c : Dev nD) (t : Fin cfg0.N) (h0 : t.val % 8 = 0) (p : Fin 512) (q : Fin 1024) :
    (outsAt0 V c t.val t.isLt).2.2.2 (ix2 p q)
      = 0 + tileSum0 (V c main_v1) (V c main_v4) (V c main_arg6) (V c main_v5) (rowAt0 (512 * (t.val / 8) + p.val)) q (t.val % 8) := by
  rw [outsAt0_A V c t h0]
  dsimp only
  refine (congrFun (sout0_A_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (fun h => absurd ((hcond0_1 t).mp h) (by omega)) (blk0_0 V c t) (blk0_1 V c t) (blk0_2 V c t) (blk0_3 V c t) (blk0_4 V c t) (blk0_5 V c t) (blk0_6 V c t) (blk0_7 V c t) (blk0_8 V c t) (blk0_9 V c t)) (ix2 p q)).trans ?_
  refine (accAt0_payT V c t (k0_pay6 (F := Ideal)) p q).trans ?_
  rw [pay6_apply]

/-- Any other point leaves what the point before left plus its tile's share. -/
theorem accAt0_stepS (c : Dev nD) (t : Fin cfg0.N) (h0 : ¬t.val % 8 = 0) (p : Fin 512) (q : Fin 1024) :
    (outsAt0 V c t.val t.isLt).2.2.1 (ix2 p q)
      = accAt0_prevS V c t (ix2 p q) + tileSum0 (V c main_v1) (V c main_v2) (V c main_arg2) (V c main_v3) (rowAt0 (512 * (t.val / 8) + p.val)) q (t.val % 8) := by
  by_cases h1 : t.val % 8 = 7
  · rw [outsAt0_C V c t h0 h1]
    dsimp only
    refine (congrFun (sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h1) (blk0_0 V c t) (blk0_1 V c t) (blk0_2 V c t) (blk0_3 V c t) (blk0_4 V c t) (blk0_5 V c t) (blk0_6 V c t) (blk0_7 V c t) (blk0_8 V c t) (blk0_9 V c t) (accAt0_prevS V c t) (accAt0_prevT V c t)) (ix2 p q)).trans ?_
    exact accAt0_payS V c t (accAt0_prevS V c t) p q
  · rw [outsAt0_B V c t h0 h1]
    dsimp only
    refine (congrFun (sout0_B_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (fun h => h1 ((hcond0_1 t).mp h)) (blk0_0 V c t) (blk0_1 V c t) (blk0_2 V c t) (blk0_3 V c t) (blk0_4 V c t) (blk0_5 V c t) (blk0_6 V c t) (blk0_7 V c t) (blk0_8 V c t) (blk0_9 V c t) (accAt0_prevS V c t) (accAt0_prevT V c t)) (ix2 p q)).trans ?_
    exact accAt0_payS V c t (accAt0_prevS V c t) p q

theorem accAt0_stepT (c : Dev nD) (t : Fin cfg0.N) (h0 : ¬t.val % 8 = 0) (p : Fin 512) (q : Fin 1024) :
    (outsAt0 V c t.val t.isLt).2.2.2 (ix2 p q)
      = accAt0_prevT V c t (ix2 p q) + tileSum0 (V c main_v1) (V c main_v4) (V c main_arg6) (V c main_v5) (rowAt0 (512 * (t.val / 8) + p.val)) q (t.val % 8) := by
  by_cases h1 : t.val % 8 = 7
  · rw [outsAt0_C V c t h0 h1]
    dsimp only
    refine (congrFun (sout0_C_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h1) (blk0_0 V c t) (blk0_1 V c t) (blk0_2 V c t) (blk0_3 V c t) (blk0_4 V c t) (blk0_5 V c t) (blk0_6 V c t) (blk0_7 V c t) (blk0_8 V c t) (blk0_9 V c t) (accAt0_prevS V c t) (accAt0_prevT V c t)) (ix2 p q)).trans ?_
    exact accAt0_payT V c t (accAt0_prevT V c t) p q
  · rw [outsAt0_B V c t h0 h1]
    dsimp only
    refine (congrFun (sout0_B_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (fun h => h1 ((hcond0_1 t).mp h)) (blk0_0 V c t) (blk0_1 V c t) (blk0_2 V c t) (blk0_3 V c t) (blk0_4 V c t) (blk0_5 V c t) (blk0_6 V c t) (blk0_7 V c t) (blk0_8 V c t) (blk0_9 V c t) (accAt0_prevS V c t) (accAt0_prevT V c t)) (ix2 p q)).trans ?_
    exact accAt0_payT V c t (accAt0_prevT V c t) p q

/-! ## Along the grid -/

/-- After point `n` the first accumulator holds the shares of the tiles `0 .. n % 8` of its row block. -/
theorem accAt0_eqS (c : Dev nD) : ∀ (n : ℕ) (hn : n < cfg0.N) (p : Fin 512) (q : Fin 1024),
    (outsAt0 V c n hn).2.2.1 (ix2 p q) = tileAcc0 (V c main_v1) (V c main_v2) (V c main_arg2) (V c main_v3) n p q
  | 0, hn, p, q => (accAt0_openS V c ⟨0, hn⟩ rfl p q).trans (tileAccOpen0 (V c main_v1) (V c main_v2) (V c main_arg2) (V c main_v3) 0 p q rfl).symm
  | n + 1, hn, p, q => by
    by_cases h0 : (n + 1) % 8 = 0
    · exact (accAt0_openS V c ⟨n + 1, hn⟩ h0 p q).trans (tileAccOpen0 (V c main_v1) (V c main_v2) (V c main_arg2) (V c main_v3) (n + 1) p q h0).symm
    · refine (accAt0_stepS V c ⟨n + 1, hn⟩ h0 p q).trans ?_
      rw [tileAccStep0 (V c main_v1) (V c main_v2) (V c main_arg2) (V c main_v3) (n + 1) p q h0]
      exact congrArg (fun z => z + tileSum0 (V c main_v1) (V c main_v2) (V c main_arg2) (V c main_v3) (rowAt0 (512 * ((n + 1) / 8) + p.val)) q ((n + 1) % 8))
        (accAt0_eqS c n (Nat.lt_of_succ_lt hn) p q)

/-- And the second accumulator the second perceptron's. -/
theorem accAt0_eqT (c : Dev nD) : ∀ (n : ℕ) (hn : n < cfg0.N) (p : Fin 512) (q : Fin 1024),
    (outsAt0 V c n hn).2.2.2 (ix2 p q) = tileAcc0 (V c main_v1) (V c main_v4) (V c main_arg6) (V c main_v5) n p q
  | 0, hn, p, q => (accAt0_openT V c ⟨0, hn⟩ rfl p q).trans (tileAccOpen0 (V c main_v1) (V c main_v4) (V c main_arg6) (V c main_v5) 0 p q rfl).symm
  | n + 1, hn, p, q => by
    by_cases h0 : (n + 1) % 8 = 0
    · exact (accAt0_openT V c ⟨n + 1, hn⟩ h0 p q).trans (tileAccOpen0 (V c main_v1) (V c main_v4) (V c main_arg6) (V c main_v5) (n + 1) p q h0).symm
    · refine (accAt0_stepT V c ⟨n + 1, hn⟩ h0 p q).trans ?_
      rw [tileAccStep0 (V c main_v1) (V c main_v4) (V c main_arg6) (V c main_v5) (n + 1) p q h0]
      exact congrArg (fun z => z + tileSum0 (V c main_v1) (V c main_v4) (V c main_arg6) (V c main_v5) (rowAt0 (512 * ((n + 1) / 8) + p.val)) q ((n + 1) % 8))
        (accAt0_eqT c n (Nat.lt_of_succ_lt hn) p q)

/-! ## At a closing point -/

/-- At a point that closes a row block the updated first accumulator holds all eight tiles' shares. -/
theorem accAt0_closeS (c : Dev nD) (t : Fin cfg0.N) (h1 : t.val % 8 = 7) (p : Fin 512) (q : Fin 1024) :
    k0_pay8 (F := Ideal) (blk0_0 V c t) (blk0_2 V c t) (blk0_3 V c t) (accAt0_prevS V c t) (blk0_4 V c t) (ix2 p q)
      = ∑ s ∈ Finset.range 8, tileSum0 (V c main_v1) (V c main_v2) (V c main_arg2) (V c main_v3) (rowAt0 (512 * (t.val / 8) + p.val)) q s := by
  have h0 : ¬t.val % 8 = 0 := by omega
  refine (accAt0_payS V c t (accAt0_prevS V c t) p q).trans ?_
  rw [← tileAccClose0 (V c main_v1) (V c main_v2) (V c main_arg2) (V c main_v3) t.val p q h1, tileAccStep0 (V c main_v1) (V c main_v2) (V c main_arg2) (V c main_v3) t.val p q h0]
  exact congrArg (fun z => z + tileSum0 (V c main_v1) (V c main_v2) (V c main_arg2) (V c main_v3) (rowAt0 (512 * (t.val / 8) + p.val)) q (t.val % 8))
    (accAt0_eqS V c (t.val - 1) (Nat.lt_of_le_of_lt (Nat.sub_le _ _) t.isLt) p q)

theorem accAt0_closeT (c : Dev nD) (t : Fin cfg0.N) (h1 : t.val % 8 = 7) (p : Fin 512) (q : Fin 1024) :
    k0_pay1 (F := Ideal) (k0_pay9 (blk0_0 V c t) (blk0_6 V c t) (blk0_7 V c t)) (accAt0_prevT V c t) (blk0_8 V c t) (ix2 p q)
      = ∑ s ∈ Finset.range 8, tileSum0 (V c main_v1) (V c main_v4) (V c main_arg6) (V c main_v5) (rowAt0 (512 * (t.val / 8) + p.val)) q s := by
  have h0 : ¬t.val % 8 = 0 := by omega
  refine (accAt0_payT V c t (accAt0_prevT V c t) p q).trans ?_
  rw [← tileAccClose0 (V c main_v1) (V c main_v4) (V c main_arg6) (V c main_v5) t.val p q h1, tileAccStep0 (V c main_v1) (V c main_v4) (V c main_arg6) (V c main_v5) t.val p q h0]
  exact congrArg (fun z => z + tileSum0 (V c main_v1) (V c main_v4) (V c main_arg6) (V c main_v5) (rowAt0 (512 * (t.val / 8) + p.val)) q (t.val % 8))
    (accAt0_eqT V c (t.val - 1) (Nat.lt_of_le_of_lt (Nat.sub_le _ _) t.isLt) p q)

end Cert.KernelIdeal.Hand

end
-- ==== Proof.KI.Final0.lean ====
import proofs.«142033_j33071248180131_1_alg».proof.Proof.KI.Pieces0
import proofs.«142033_j33071248180131_1_alg».proof.Proof.KI.Acc0
import proofs.«142033_j33071248180131_1_alg».proof.Proof.KI.Accum0
import Idealize.ShloMosaic.Lib.Pipeline.Value

/-!
# The first half-step's region: its two result arrays are the specification's

Row block `rb`, hidden tile `h` is grid point `8·rb + h`. After that point each accumulator holds, at row
`p` and column `q` of the block, the sum of the tiles `0..h` of its perceptron's second-layer products for
row `512·rb + p`: the tiles partition the 4096 hidden units, and addition of extended reals is commutative
and associative, so after tile 7 it is the whole sum. The closing point writes the updated half and the
log-determinant column of the row block; the blocks flushed at the closing points tile the result arrays.
-/

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

-- the TensorCore's buffer contents when the region is entered, at the ideal values
variable (V : (c : Dev nD) → (b : Ref sig .tc) → Buf (Elt Ideal) ((c : Thread nD τ).loc b))

/-! ## What a closing point leaves in the two output buffers -/

/-- The updated half's buffer at a closing point, at row `p` and column `q` of the block: both accumulators
    hold all eight tiles, so with the output biases they are the two perceptrons' outputs for row
    `512·(t / 8) + p`, and the entry is the specification's. -/
theorem final0_out10 (c : Dev nD) (t : Fin cfg0.N) (h1 : t.val % 8 = 7) (p : Fin 512) (q : Fin 1024) :
    (outsAt0 V c t.val t.isLt).1 (ix2 p q) = Cert.Spec.coupled (V c main_v1) (V c main_v0) (V c main_v2) (V c main_arg2) (V c main_v3) (V c main_arg4) (V c main_v4) (V c main_arg6) (V c main_v5) (V c main_arg8) (rowAt0 (512 * (t.val / 8) + p.val)) q := by
  have h0 : ¬t.val % 8 = 0 := by omega
  rw [outsAt0_C V c t h0 h1]
  dsimp only
  refine (congrFun (out0_C_10_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h1) (blk0_0 V c t) (blk0_1 V c t) (blk0_2 V c t) (blk0_3 V c t) (blk0_4 V c t) (blk0_5 V c t) (blk0_6 V c t) (blk0_7 V c t) (blk0_8 V c t) (blk0_9 V c t) (accAt0_prevS V c t) (accAt0_prevT V c t)) (ix2 p q)).trans ?_
  refine (pay3_apply (k0_pay8 (F := Ideal) (blk0_0 V c t) (blk0_2 V c t) (blk0_3 V c t) (accAt0_prevS V c t) (blk0_4 V c t)) (blk0_5 V c t) (k0_pay1 (F := Ideal) (k0_pay9 (blk0_0 V c t) (blk0_6 V c t) (blk0_7 V c t)) (accAt0_prevT V c t) (blk0_8 V c t)) (blk0_9 V c t) (blk0_1 V c t) p q).trans ?_
  exact tileCoupledOf0 (V c main_v1) (V c main_v0) (V c main_v2) (V c main_arg2) (V c main_v3) (V c main_arg4) (V c main_v4) (V c main_arg6) (V c main_v5) (V c main_arg8) (rowAt0 (512 * (t.val / 8) + p.val)) q _ _ _ _ _
    (accAt0_closeS V c t h1 p q) (blk0_read5 V c t q) (accAt0_closeT V c t h1 p q) (blk0_read9 V c t q)
    (blk0_read1 V c t p q)

/-- The log-determinant column's buffer at a closing point: the row sum of the log-scale of row
    `512·(t / 8) + p`. -/
theorem final0_out11 (c : Dev nD) (t : Fin cfg0.N) (h1 : t.val % 8 = 7) (p : Fin 512) (z : Fin 1) :
    (outsAt0 V c t.val t.isLt).2.1 (ix2 p z) = Cert.Spec.logdet (V c main_v1) (V c main_v2) (V c main_arg2) (V c main_v3) (V c main_arg4) (rowAt0 (512 * (t.val / 8) + p.val)) := by
  have h0 : ¬t.val % 8 = 0 := by omega
  rw [outsAt0_C V c t h0 h1]
  dsimp only
  refine (congrFun (out0_C_11_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h1) (blk0_0 V c t) (blk0_1 V c t) (blk0_2 V c t) (blk0_3 V c t) (blk0_4 V c t) (blk0_5 V c t) (blk0_6 V c t) (blk0_7 V c t) (blk0_8 V c t) (blk0_9 V c t) (accAt0_prevS V c t) (accAt0_prevT V c t)) (ix2 p z)).trans ?_
  refine (pay4_apply (k0_pay8 (F := Ideal) (blk0_0 V c t) (blk0_2 V c t) (blk0_3 V c t) (accAt0_prevS V c t) (blk0_4 V c t)) (blk0_5 V c t) p z).trans ?_
  exact tileLogdetOf0 (V c main_v1) (V c main_v2) (V c main_arg2) (V c main_v3) (V c main_arg4) (rowAt0 (512 * (t.val / 8) + p.val))
    (fun q => (k0_pay8 (F := Ideal) (blk0_0 V c t) (blk0_2 V c t) (blk0_3 V c t) (accAt0_prevS V c t) (blk0_4 V c t)) (ix2 p q)) (fun q => blk0_5 V c t (ix1 q))
    (fun q => accAt0_closeS V c t h1 p q) (fun q => blk0_read5 V c t q)

/-! ## The blocks written back -/

/-- The two output windows' block indices in closed form: row block `t / 8`, the one column block. -/
theorem final0_idx10 : ∀ t : Fin cfg0.N, win0_10.index t (0 : Fin 2) = t.val / 8 ∧ win0_10.index t (1 : Fin 2) = 0 :=
  (by decide +kernel : ∀ t : Fin grid0.N, _)
theorem final0_idx11 : ∀ t : Fin cfg0.N, win0_11.index t (0 : Fin 2) = t.val / 8 ∧ win0_11.index t (1 : Fin 2) = 0 :=
  (by decide +kernel : ∀ t : Fin grid0.N, _)

/-- What a closing point writes back of the updated half is its block of the specification's array. -/
theorem final0_flushed10 (c : Dev nD) (t : Fin cfg0.N) (hf : (cfg0.win 10).flush t = true) :
    (dat0 V c).flushed 10 t = ((cfg0.win 10).blk t).view.read (Elt Ideal)
      (fun i => Cert.Spec.coupled (V c main_v1) (V c main_v0) (V c main_v2) (V c main_arg2) (V c main_v3) (V c main_arg4) (V c main_v4) (V c main_arg6) (V c main_v5) (V c main_arg8) (i 0) (i 1)) := by
  have h1 : t.val % 8 = 7 := (flush0_10 t).mp hf
  obtain ⟨e0, e1⟩ := final0_idx10 t
  have hN : cfg0.N = 128 := N_0
  have ht := t.isLt
  show (cfg0.win 10).cut (grid0.coords t) ((dat0 V c).after 10 t) = _
  rw [after0_10]
  funext y
  obtain ⟨p, q, rfl⟩ : ∃ (p : Fin 512) (q : Fin 1024), y = ix2 p q := ⟨y 0, y 1, eq_ix2 y⟩
  have hp := p.isLt
  have hr : ((((cfg0.win 10).blk t).view.emb (ix2 p q)) 0 : Fin 8192) = (rowAt0 (512 * (t.val / 8) + p.val)) :=
    Fin.ext (by show win0_10.index t (0 : Fin 2) * 512 + 1 * p.val = (512 * (t.val / 8) + p.val) % 8192; omega)
  have hq : ((((cfg0.win 10).blk t).view.emb (ix2 p q)) 1 : Fin 1024) = q :=
    Fin.ext (by show win0_10.index t (1 : Fin 2) * 1024 + 1 * q.val = q.val; omega)
  show (outsAt0 V c t.val t.isLt).1 (ix2 p q)
    = Cert.Spec.coupled (V c main_v1) (V c main_v0) (V c main_v2) (V c main_arg2) (V c main_v3) (V c main_arg4) (V c main_v4) (V c main_arg6) (V c main_v5) (V c main_arg8) ((((cfg0.win 10).blk t).view.emb (ix2 p q)) 0) ((((cfg0.win 10).blk t).view.emb (ix2 p q)) 1)
  exact (final0_out10 V c t h1 p q).trans (congrArg₂ (Cert.Spec.coupled (V c main_v1) (V c main_v0) (V c main_v2) (V c main_arg2) (V c main_v3) (V c main_arg4) (V c main_v4) (V c main_arg6) (V c main_v5) (V c main_arg8)) hr.symm hq.symm)

/-- And of the log-determinant column likewise. -/
theorem final0_flushed11 (c : Dev nD) (t : Fin cfg0.N) (hf : (cfg0.win 11).flush t = true) :
    (dat0 V c).flushed 11 t = ((cfg0.win 11).blk t).view.read (Elt Ideal)
      (fun i => Cert.Spec.logdet (V c main_v1) (V c main_v2) (V c main_arg2) (V c main_v3) (V c main_arg4) (i 0)) := by
  have h1 : t.val % 8 = 7 := (flush0_11 t).mp hf
  obtain ⟨e0, e1⟩ := final0_idx11 t
  have hN : cfg0.N = 128 := N_0
  have ht := t.isLt
  show (cfg0.win 11).cut (grid0.coords t) ((dat0 V c).after 11 t) = _
  rw [after0_11]
  funext y
  obtain ⟨p, z, rfl⟩ : ∃ (p : Fin 512) (z : Fin 1), y = ix2 p z := ⟨y 0, y 1, eq_ix2 y⟩
  have hp := p.isLt
  have hr : ((((cfg0.win 11).blk t).view.emb (ix2 p z)) 0 : Fin 8192) = (rowAt0 (512 * (t.val / 8) + p.val)) :=
    Fin.ext (by show win0_11.index t (0 : Fin 2) * 512 + 1 * p.val = (512 * (t.val / 8) + p.val) % 8192; omega)
  show (outsAt0 V c t.val t.isLt).2.1 (ix2 p z)
    = Cert.Spec.logdet (V c main_v1) (V c main_v2) (V c main_arg2) (V c main_v3) (V c main_arg4) ((((cfg0.win 11).blk t).view.emb (ix2 p z)) 0)
  exact (final0_out11 V c t h1 p z).trans (congrArg (Cert.Spec.logdet (V c main_v1) (V c main_v2) (V c main_arg2) (V c main_v3) (V c main_arg4)) hr.symm)

/-! ## The blocks tile the arrays -/

/-- An index of the updated half is in point `t`'s block iff each coordinate is in the block's range. -/
theorem final0_mem10 (t : Fin cfg0.N) (i : S8192x1024.Idx) :
    i ∈ ((cfg0.win 10).blk t).view.set
      ↔ ∀ a : Fin 2, win0_10.index t a * S512x1024.size a ≤ (i a).val ∧ (i a).val < win0_10.index t a * S512x1024.size a + S512x1024.size a := by
  show i ∈ ((View.whole (Pipeline.arrRef spec0 10)).slice (win0_10.rect t)).set ↔ _
  rw [View.set_slice_whole, Rect.mem_set_unit]
  exact Iff.rfl

theorem final0_mem11 (t : Fin cfg0.N) (i : S8192x1.Idx) :
    i ∈ ((cfg0.win 11).blk t).view.set
      ↔ ∀ a : Fin 2, win0_11.index t a * S512x1.size a ≤ (i a).val ∧ (i a).val < win0_11.index t a * S512x1.size a + S512x1.size a := by
  show i ∈ ((View.whole (Pipeline.arrRef spec0 11)).slice (win0_11.rect t)).set ↔ _
  rw [View.set_slice_whole, Rect.mem_set_unit]
  exact Iff.rfl

/-- Row `r` lies in the block the closing point of row block `r / 512` writes back. -/
theorem final0_cover10 (i : S8192x1024.Idx) :
    ∃ t : Fin cfg0.N, (cfg0.win 10).flush t = true ∧ i ∈ ((cfg0.win 10).blk t).view.set := by
  have hN : cfg0.N = 128 := N_0
  have hi0 : (i 0).val < 8192 := (i 0).isLt
  have hi1 : (i 1).val < 1024 := (i 1).isLt
  have hlt : 8 * ((i 0).val / 512) + 7 < cfg0.N := by omega
  refine ⟨⟨8 * ((i 0).val / 512) + 7, hlt⟩, (flush0_10 _).mpr (by show (8 * ((i 0).val / 512) + 7) % 8 = 7; omega), ?_⟩
  obtain ⟨e0, e1⟩ := final0_idx10 ⟨8 * ((i 0).val / 512) + 7, hlt⟩
  have e0' : win0_10.index ⟨8 * ((i 0).val / 512) + 7, hlt⟩ (0 : Fin 2) = (i 0).val / 512 :=
    e0.trans (by show (8 * ((i 0).val / 512) + 7) / 8 = (i 0).val / 512; omega)
  rw [final0_mem10]
  intro a
  match a with
  | ⟨0, _⟩ =>
    show win0_10.index _ (0 : Fin 2) * 512 ≤ (i 0).val ∧ (i 0).val < win0_10.index _ (0 : Fin 2) * 512 + 512
    rw [e0']; omega
  | ⟨1, _⟩ =>
    show win0_10.index _ (1 : Fin 2) * 1024 ≤ (i 1).val ∧ (i 1).val < win0_10.index _ (1 : Fin 2) * 1024 + 1024
    rw [e1]; omega

theorem final0_cover11 (i : S8192x1.Idx) :
    ∃ t : Fin cfg0.N, (cfg0.win 11).flush t = true ∧ i ∈ ((cfg0.win 11).blk t).view.set := by
  have hN : cfg0.N = 128 := N_0
  have hi0 : (i 0).val < 8192 := (i 0).isLt
  have hi1 : (i 1).val < 1 := (i 1).isLt
  have hlt : 8 * ((i 0).val / 512) + 7 < cfg0.N := by omega
  refine ⟨⟨8 * ((i 0).val / 512) + 7, hlt⟩, (flush0_11 _).mpr (by show (8 * ((i 0).val / 512) + 7) % 8 = 7; omega), ?_⟩
  obtain ⟨e0, e1⟩ := final0_idx11 ⟨8 * ((i 0).val / 512) + 7, hlt⟩
  have e0' : win0_11.index ⟨8 * ((i 0).val / 512) + 7, hlt⟩ (0 : Fin 2) = (i 0).val / 512 :=
    e0.trans (by show (8 * ((i 0).val / 512) + 7) / 8 = (i 0).val / 512; omega)
  rw [final0_mem11]
  intro a
  match a with
  | ⟨0, _⟩ =>
    show win0_11.index _ (0 : Fin 2) * 512 ≤ (i 0).val ∧ (i 0).val < win0_11.index _ (0 : Fin 2) * 512 + 512
    rw [e0']; omega
  | ⟨1, _⟩ =>
    show win0_11.index _ (1 : Fin 2) * 1 ≤ (i 1).val ∧ (i 1).val < win0_11.index _ (1 : Fin 2) * 1 + 1
    rw [e1]; omega

/-! ## The result arrays -/

/-- The updated half the region leaves is the specification's half-step of its operand arrays. -/
theorem final0_10 (c : Dev nD) :
    (dat0 (F := Ideal) V c).arrAt 10 cfg0.N
      = fun i => Cert.Spec.coupled (V c main_v1) (V c main_v0) (V c main_v2) (V c main_arg2) (V c main_v3) (V c main_arg4)
          (V c main_v4) (V c main_arg6) (V c main_v5) (V c main_arg8) (i 0) (i 1) :=
  (dat0 V c).arrAt_eq_of_cover 10 _ (fun t hf => final0_flushed10 V c t hf) (fun i => final0_cover10 i)

/-- The log-determinant column it leaves is the specification's. -/
theorem final0_11 (c : Dev nD) :
    (dat0 (F := Ideal) V c).arrAt 11 cfg0.N
      = fun i => Cert.Spec.logdet (V c main_v1) (V c main_v2) (V c main_arg2) (V c main_v3) (V c main_arg4) (i 0) :=
  (dat0 V c).arrAt_eq_of_cover 11 _ (fun t hf => final0_flushed11 V c t hf) (fun i => final0_cover11 i)

end Cert.KernelIdeal.Hand

end
-- ==== Proof.KI.Pieces1.lean ====
import proofs.«142033_j33071248180131_1_alg».proof.Proof.KI.Dat1
import Idealize.ShloMosaic.Lib.Pipeline.Value

/-!
# The second half-step's region: what the stored pieces are

Each piece a kind of point stores is one whole-buffer store of a value computed from the loaded blocks;
read back, the buffer holds that value. A point that opens a row block adds the first partial product to
a cleared accumulator; any other point adds to what the accumulator held; a closing point then forms the
two outputs from the updated accumulators and the bias, self and shift blocks.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a whole-buffer rectangle, of rank two and of rank one. -/
private theorem hz2 : (![0, 0] : Fin 2 → Nat) = fun _ => 0 := funext fun a => by fin_cases a <;> rfl
private theorem hz1 : (![0] : Fin 1 → Nat) = fun _ => 0 := funext fun a => by fin_cases a <;> rfl

/-- Opening a row block, first accumulator: the partial product over the cleared value. -/
theorem sout1_A_0_eq (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : cond1_0 i) (hc1 : ¬cond1_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) :
    sout1_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 = k1_pay8 x0 x2 x3 (k1_pay5 (F := F)) x4 := by
  unfold sout1_A_0
  rw [View.read_writes_eq_canon _ _ _ (scover1_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9)]
  unfold kernelRun1_A
  dsimp only
  sl_unfold_words
  rw [View.canon_cons_unit_zero (S := S512x1024) hz2]
  simp only [View.readAt_eq_ld, harg2.read_unread, harg4.read_unread, harg5.read_unread, harg6.read_unread, View.ld_unit_zero (S := S512x1024) hz2, View.ld_unit_zero (S := S1024x512) hz2, View.ld_unit_zero (S := S512) hz1, View.ld_unit_zero (S := S1024) hz1, View.readCov_unit_zero (S := S512x1024) _ hz2]
/-- Opening a row block, second accumulator. -/
theorem sout1_A_1_eq (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : cond1_0 i) (hc1 : ¬cond1_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) :
    sout1_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 = k1_pay1 (k1_pay9 x0 x6 x7) (k1_pay6 (F := F)) x8 := by
  unfold sout1_A_1
  rw [View.read_writes_eq_canon _ _ _ (scover1_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9)]
  unfold kernelRun1_A
  dsimp only
  sl_unfold_words
  rw [View.canon_cons_unit_zero (S := S512x1024) hz2]
  simp only [View.readAt_eq_ld, harg2.read_unread, harg8.read_unread, harg9.read_unread, harg10.read_unread, View.ld_unit_zero (S := S512x1024) hz2, View.ld_unit_zero (S := S1024x512) hz2, View.ld_unit_zero (S := S512) hz1, View.ld_unit_zero (S := S1024) hz1, View.readCov_unit_zero (S := S512x1024) _ hz2]
/-- In the middle of a row block: the partial product over what the accumulator held. -/
theorem sout1_B_0_eq (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond1_0 i) (hc1 : ¬cond1_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) :
    sout1_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 = k1_pay8 x0 x2 x3 xs0 x4 := by
  unfold sout1_B_0
  rw [View.read_writes_eq_canon _ _ _ (scover1_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1)]
  unfold kernelRun1_B
  dsimp only
  sl_unfold_words
  rw [View.canon_unit_zero hz2]
  simp only [View.readAt_eq_ld, harg2.read_unread, harg4.read_unread, harg5.read_unread, harg6.read_unread, harg14.read_unread, View.ld_unit_zero (S := S512x1024) hz2, View.ld_unit_zero (S := S1024x512) hz2, View.ld_unit_zero (S := S512) hz1, View.ld_unit_zero (S := S1024) hz1]
theorem sout1_B_1_eq (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond1_0 i) (hc1 : ¬cond1_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) :
    sout1_B_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 = k1_pay1 (k1_pay9 x0 x6 x7) xs1 x8 := by
  unfold sout1_B_1
  rw [View.read_writes_eq_canon _ _ _ (scover1_B_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1)]
  unfold kernelRun1_B
  dsimp only
  sl_unfold_words
  rw [View.canon_unit_zero hz2]
  simp only [View.readAt_eq_ld, harg2.read_unread, harg8.read_unread, harg9.read_unread, harg10.read_unread, harg15.read_unread, View.ld_unit_zero (S := S512x1024) hz2, View.ld_unit_zero (S := S1024x512) hz2, View.ld_unit_zero (S := S512) hz1, View.ld_unit_zero (S := S1024) hz1]
/-- Closing a row block: the accumulators as in the middle, -/
theorem sout1_C_0_eq (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond1_0 i) (hc1 : cond1_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) :
    sout1_C_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 = k1_pay8 x0 x2 x3 xs0 x4 := by
  unfold sout1_C_0
  rw [View.read_writes_eq_canon _ _ _ (scover1_C_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1)]
  unfold kernelRun1_C
  dsimp only
  sl_unfold_words
  rw [View.canon_unit_zero hz2]
  simp only [View.readAt_eq_ld, harg2.read_unread, harg4.read_unread, harg5.read_unread, harg6.read_unread, harg14.read_unread, View.ld_unit_zero (S := S512x1024) hz2, View.ld_unit_zero (S := S1024x512) hz2, View.ld_unit_zero (S := S512) hz1, View.ld_unit_zero (S := S1024) hz1]
theorem sout1_C_1_eq (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond1_0 i) (hc1 : cond1_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) :
    sout1_C_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 = k1_pay1 (k1_pay9 x0 x6 x7) xs1 x8 := by
  unfold sout1_C_1
  rw [View.read_writes_eq_canon _ _ _ (scover1_C_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1)]
  unfold kernelRun1_C
  dsimp only
  sl_unfold_words
  rw [View.canon_unit_zero hz2]
  simp only [View.readAt_eq_ld, harg2.read_unread, harg8.read_unread, harg9.read_unread, harg10.read_unread, harg15.read_unread, View.ld_unit_zero (S := S512x1024) hz2, View.ld_unit_zero (S := S1024x512) hz2, View.ld_unit_zero (S := S512) hz1, View.ld_unit_zero (S := S1024) hz1]
/-- the updated half from the two updated accumulators, the two output biases and the self block, -/
theorem out1_C_10_eq (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond1_0 i) (hc1 : cond1_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) :
    out1_C_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 = k1_pay3 (k1_pay8 x0 x2 x3 xs0 x4) x5 (k1_pay1 (k1_pay9 x0 x6 x7) xs1 x8) x9 x1 := by
  unfold out1_C_10
  rw [View.read_writes_eq_canon _ _ _ (cover1_C_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1)]
  unfold kernelRun1_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg14.read_unread, harg15.read_unread, View.ld_unit_zero (S := S512x1024) hz2, View.ld_unit_zero (S := S1024x512) hz2, View.ld_unit_zero (S := S512) hz1, View.ld_unit_zero (S := S1024) hz1, View.readCov_unit_zero (S := S512x1024) _ hz2]
/-- and the log-determinant column from the first updated accumulator and its bias. -/
theorem out1_C_11_eq (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S512 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x512 .bf16) (harg8 : arg8.IsWhole) (arg9 : Memref sig .tc .vmem S512 .f32) (harg9 : arg9.IsWhole) (arg10 : Memref sig .tc .vmem S512x1024 .bf16) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1024 .f32) (harg15 : arg15.IsWhole) (hc0 : ¬cond1_0 i) (hc1 : cond1_1 i)
    (x0 : Vec F S512x1024 .f32) (x1 : Vec F S512x1024 .f32) (x2 : Vec F S1024x512 .bf16) (x3 : Vec F S512 .f32) (x4 : Vec F S512x1024 .bf16) (x5 : Vec F S1024 .f32) (x6 : Vec F S1024x512 .bf16) (x7 : Vec F S512 .f32) (x8 : Vec F S512x1024 .bf16) (x9 : Vec F S1024 .f32) (xs0 : Vec F S512x1024 .f32) (xs1 : Vec F S512x1024 .f32) :
    out1_C_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 = k1_pay4 (k1_pay8 x0 x2 x3 xs0 x4) x5 := by
  unfold out1_C_11
  rw [View.read_writes_eq_canon _ _ _ (cover1_C_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1)]
  unfold kernelRun1_C
  dsimp only
  sl_unfold_words
  rw [View.canon_unit_zero hz2]
  simp only [View.readAt_eq_ld, harg2.read_unread, harg4.read_unread, harg5.read_unread, harg6.read_unread, harg7.read_unread, harg14.read_unread, View.ld_unit_zero (S := S512x1024) hz2, View.ld_unit_zero (S := S1024x512) hz2, View.ld_unit_zero (S := S512) hz1, View.ld_unit_zero (S := S1024) hz1, View.readCov_unit_zero (S := S512x1024) _ hz2]

end Cert.KernelIdeal.Hand

end
-- ==== Proof.KI.Acc1.lean ====
import proofs.«142033_j33071248180131_1_alg».proof.Proof.Gen.KernelIdeal.Skeleton
import proofs.«142033_j33071248180131_1_alg».proof.Proof.Spec
import proofs.«142033_j33071248180131_1_alg».proof.Proof.LibColumns
import Idealize.ShloMosaic.PureOps.Ideal.Laws
import Idealize.ShloMosaic.Lib.ValueIdx
import Idealize.ShloMosaic.Lib.ValueLayout
import Idealize.ShloMosaic.Lib.Pipeline.Value

/-!
# The second half-step's body, read at an index over the extended reals

With floats exact and format changes the identity, a tile's update of an accumulator at row `p`, column
`q` adds `∑ⱼ max(∑ₖ x p k · W1 k j + b1 j, 0) · W2 j q` over the tile's 512 hidden units; the log-scale is
`tanh(acc + b2) · 1`; the updated half is `self · exp(log-scale) + (acc' + b2')`; the log-determinant
column is the row sum of the log-scale.
-/

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Acc1

/-! ## The pointwise transcendental operations at an index -/

/-- A vector's hyperbolic tangent reads, at an index, the extended reals' hyperbolic tangent of the element. -/
theorem tanh_apply {s : Shape} {φ : FTy} (a : FVec Ideal s φ) (i : s.Idx) :
    Idealize.ShloMosaic.tanh a i = Ideal.tanh (a i) := rfl
/-- A vector's exponential reads, at an index, the extended reals' exponential of the element. -/
theorem exp_apply {s : Shape} {φ : FTy} (a : FVec Ideal s φ) (i : s.Idx) :
    Idealize.ShloMosaic.exp a i = Ideal.exp (a i) := rfl

/-! ## The two matrix products at an index

The first layer multiplies a 512×1024 block by a 1024×512 tile of weights, the second a 512×512 hidden block by a
512×1024 tile: each contracts the left operand's columns against the right operand's rows, so the operand indices
at output `(p, j)` and contraction coordinate `k` are `(p, k)` and `(k, j)`. -/

theorem lhs_first_0 (i : S512x512.Idx) (c : dot_S512x1024_S1024x512_S512x512_1_0_0_1_n_n.contr.Idx) :
    (dot_S512x1024_S1024x512_S512x512_1_0_0_1_n_n.lhsIdx i c 0).val = (i 0).val := by
  unfold DotDims.lhsIdx
  rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
  rfl
theorem lhs_first_1 (i : S512x512.Idx) (c : dot_S512x1024_S1024x512_S512x512_1_0_0_1_n_n.contr.Idx) :
    (dot_S512x1024_S1024x512_S512x512_1_0_0_1_n_n.lhsIdx i c 1).val = (c ⟨0, by decide⟩).val :=
  dot_S512x1024_S1024x512_S512x512_1_0_0_1_n_n.lhsIdx_val_of_single rfl i c
theorem rhs_first_0 (i : S512x512.Idx) (c : dot_S512x1024_S1024x512_S512x512_1_0_0_1_n_n.contr.Idx) :
    (dot_S512x1024_S1024x512_S512x512_1_0_0_1_n_n.rhsIdx i c 0).val = (c ⟨0, by decide⟩).val :=
  dot_S512x1024_S1024x512_S512x512_1_0_0_1_n_n.rhsIdx_val_of_single rfl i c
theorem rhs_first_1 (i : S512x512.Idx) (c : dot_S512x1024_S1024x512_S512x512_1_0_0_1_n_n.contr.Idx) :
    (dot_S512x1024_S1024x512_S512x512_1_0_0_1_n_n.rhsIdx i c 1).val = (i 1).val := by
  unfold DotDims.rhsIdx
  rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
  rfl

/-- The first layer's product into the zero accumulator at `(p, j)`: `∑ₖ A p k · B k j`. -/
theorem matmul_first_apply (A : FVec Ideal S512x1024 .bf16) (B : FVec Ideal S1024x512 .bf16) (p : Fin 512) (j : Fin 512) :
    matmul dot_S512x1024_S1024x512_S512x512_1_0_0_1_n_n none A B (constant (F := Ideal) S512x512 .f32 0x00000000#32) (ix2 p j)
      = ∑ k : Fin 1024, A (ix2 p k) * B (ix2 k j) := by
  simp only [matmul]
  rw [Ideal.matmul_constant_zero_apply, ← Equiv.sum_comp (contrEquiv1 dot_S512x1024_S1024x512_S512x512_1_0_0_1_n_n 1024 rfl rfl).symm]
  refine Finset.sum_congr rfl fun k _ => ?_
  have hk := contrEquiv1_symm_val dot_S512x1024_S1024x512_S512x512_1_0_0_1_n_n 1024 rfl rfl k
  have el : dot_S512x1024_S1024x512_S512x512_1_0_0_1_n_n.lhsIdx (ix2 p j) ((contrEquiv1 dot_S512x1024_S1024x512_S512x512_1_0_0_1_n_n 1024 rfl rfl).symm k) = ix2 p k := funext fun a => Fin.ext (by
    match a with
    | ⟨0, _⟩ => exact lhs_first_0 _ _
    | ⟨1, _⟩ => exact (lhs_first_1 _ _).trans hk)
  have er : dot_S512x1024_S1024x512_S512x512_1_0_0_1_n_n.rhsIdx (ix2 p j) ((contrEquiv1 dot_S512x1024_S1024x512_S512x512_1_0_0_1_n_n 1024 rfl rfl).symm k) = ix2 k j := funext fun a => Fin.ext (by
    match a with
    | ⟨0, _⟩ => exact (rhs_first_0 _ _).trans hk
    | ⟨1, _⟩ => exact rhs_first_1 _ _)
  rw [el, er]

theorem lhs_second_0 (i : S512x1024.Idx) (c : dot_S512x512_S512x1024_S512x1024_1_0_0_1_n_n.contr.Idx) :
    (dot_S512x512_S512x1024_S512x1024_1_0_0_1_n_n.lhsIdx i c 0).val = (i 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
theorem lhs_second_1 (i : S512x1024.Idx) (c : dot_S512x512_S512x1024_S512x1024_1_0_0_1_n_n.contr.Idx) :
    (dot_S512x512_S512x1024_S512x1024_1_0_0_1_n_n.lhsIdx i c 1).val = (c ⟨0, by decide⟩).val :=
  dot_S512x512_S512x1024_S512x1024_1_0_0_1_n_n.lhsIdx_val_of_single rfl i c
theorem rhs_second_0 (i : S512x1024.Idx) (c : dot_S512x512_S512x1024_S512x1024_1_0_0_1_n_n.contr.Idx) :
    (dot_S512x512_S512x1024_S512x1024_1_0_0_1_n_n.rhsIdx i c 0).val = (c ⟨0, by decide⟩).val :=
  dot_S512x512_S512x1024_S512x1024_1_0_0_1_n_n.rhsIdx_val_of_single rfl i c
theorem rhs_second_1 (i : S512x1024.Idx) (c : dot_S512x512_S512x1024_S512x1024_1_0_0_1_n_n.contr.Idx) :
    (dot_S512x512_S512x1024_S512x1024_1_0_0_1_n_n.rhsIdx i c 1).val = (i 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl

/-- The second layer's product into the zero accumulator at `(p, q)`: `∑ⱼ H p j · W j q`. -/
theorem matmul_second_apply (H : FVec Ideal S512x512 .bf16) (W : FVec Ideal S512x1024 .bf16) (p : Fin 512) (q : Fin 1024) :
    matmul dot_S512x512_S512x1024_S512x1024_1_0_0_1_n_n none H W (constant (F := Ideal) S512x1024 .f32 0x00000000#32) (ix2 p q)
      = ∑ j : Fin 512, H (ix2 p j) * W (ix2 j q) := by
  simp only [matmul]
  rw [Ideal.matmul_constant_zero_apply, ← Equiv.sum_comp (contrEquiv1 dot_S512x512_S512x1024_S512x1024_1_0_0_1_n_n 512 rfl rfl).symm]
  refine Finset.sum_congr rfl fun j _ => ?_
  have hj := contrEquiv1_symm_val dot_S512x512_S512x1024_S512x1024_1_0_0_1_n_n 512 rfl rfl j
  have el : dot_S512x512_S512x1024_S512x1024_1_0_0_1_n_n.lhsIdx (ix2 p q) ((contrEquiv1 dot_S512x512_S512x1024_S512x1024_1_0_0_1_n_n 512 rfl rfl).symm j) = ix2 p j := funext fun a => Fin.ext (by
    match a with
    | ⟨0, _⟩ => exact lhs_second_0 _ _
    | ⟨1, _⟩ => exact (lhs_second_1 _ _).trans hj)
  have er : dot_S512x512_S512x1024_S512x1024_1_0_0_1_n_n.rhsIdx (ix2 p q) ((contrEquiv1 dot_S512x512_S512x1024_S512x1024_1_0_0_1_n_n 512 rfl rfl).symm j) = ix2 j q := funext fun a => Fin.ext (by
    match a with
    | ⟨0, _⟩ => exact (rhs_second_0 _ _).trans hj
    | ⟨1, _⟩ => exact rhs_second_1 _ _)
  rw [el, er]

/-! ## The rectified hidden layer -/

/-- The block as the first layer reads it: a format change, the identity on extended reals. -/
theorem pay7_apply_1 (x0 : Vec Ideal S512x1024 .f32) (p : Fin 512) (k : Fin 1024) :
    k1_pay7 (F := Ideal) x0 (ix2 p k) = x0 (ix2 p k) := by
  unfold k1_pay7
  rw [truncf_apply, shapeCast_self]

/-- The hidden unit `j` of row `p`: `max(∑ₖ x p k · W k j + c j, 0)`. -/
theorem pay9_apply_1 (x0 : Vec Ideal S512x1024 .f32) (W : Vec Ideal S1024x512 .bf16) (c : Vec Ideal S512 .f32) (p j : Fin 512) :
    k1_pay9 (F := Ideal) x0 W c (ix2 p j)
      = max ((∑ k : Fin 1024, x0 (ix2 p k) * W (ix2 k j)) + c (ix1 j)) Cert.Spec.zeroW := by
  unfold k1_pay9
  rw [truncf_apply, maximumf_apply, addf_apply, shapeCast_self, matmul_first_apply, broadcast_apply,
    broadcastTo_1b_ab_apply, shapeCast_a_1a_apply]
  simp only [pay7_apply_1]
  rfl

/-- One tile's update of an accumulator from a hidden block `H`: `a p q + ∑ⱼ H p j · W j q`. -/
theorem update_apply (H : FVec Ideal S512x512 .bf16) (a : Vec Ideal S512x1024 .f32) (W : Vec Ideal S512x1024 .bf16)
    (p : Fin 512) (q : Fin 1024) :
    k1_pay1 (F := Ideal) H a W (ix2 p q) = a (ix2 p q) + ∑ j : Fin 512, H (ix2 p j) * W (ix2 j q) := by
  unfold k1_pay1
  simp only [shapeCast_self]
  rw [addf_apply, matmul_second_apply]

end Acc1

open Acc1

/-! ## The payloads -/

/-- A cleared accumulator is zero everywhere. -/
theorem pay5_apply_1 (p : Fin 512) (q : Fin 1024) : k1_pay5 (F := Ideal) (ix2 p q) = 0 := by
  unfold k1_pay5
  rw [shapeCast_self, broadcast_apply]
  exact Ideal.ofBits_zero_f32
theorem pay6_apply_1 (p : Fin 512) (q : Fin 1024) : k1_pay6 (F := Ideal) (ix2 p q) = 0 := by
  unfold k1_pay6
  rw [shapeCast_self, broadcast_apply]
  exact Ideal.ofBits_zero_f32
/-- One tile's update of the first accumulator. -/
theorem pay8_apply_1 (x0 : Vec Ideal S512x1024 .f32) (x2 : Vec Ideal S1024x512 .bf16) (x3 : Vec Ideal S512 .f32)
    (a : Vec Ideal S512x1024 .f32) (x4 : Vec Ideal S512x1024 .bf16) (p : Fin 512) (q : Fin 1024) :
    k1_pay8 (F := Ideal) x0 x2 x3 a x4 (ix2 p q)
      = a (ix2 p q) + ∑ j : Fin 512, max ((∑ k : Fin 1024, x0 (ix2 p k) * x2 (ix2 k j)) + x3 (ix1 j)) Cert.Spec.zeroW * x4 (ix2 j q) := by
  -- the first accumulator's update is the second's, from the hidden block of its own weights
  refine (update_apply (k1_pay9 x0 x2 x3) a x4 p q).trans ?_
  refine congrArg (a (ix2 p q) + ·) (Finset.sum_congr rfl fun j _ => ?_)
  rw [pay9_apply_1]
/-- One tile's update of the second accumulator. -/
theorem pay1_apply_1 (x0 : Vec Ideal S512x1024 .f32) (x6 : Vec Ideal S1024x512 .bf16) (x7 : Vec Ideal S512 .f32)
    (a : Vec Ideal S512x1024 .f32) (x8 : Vec Ideal S512x1024 .bf16) (p : Fin 512) (q : Fin 1024) :
    k1_pay1 (F := Ideal) (k1_pay9 x0 x6 x7) a x8 (ix2 p q)
      = a (ix2 p q) + ∑ j : Fin 512, max ((∑ k : Fin 1024, x0 (ix2 p k) * x6 (ix2 k j)) + x7 (ix1 j)) Cert.Spec.zeroW * x8 (ix2 j q) := by
  refine (update_apply (k1_pay9 x0 x6 x7) a x8 p q).trans ?_
  refine congrArg (a (ix2 p q) + ·) (Finset.sum_congr rfl fun j _ => ?_)
  rw [pay9_apply_1]
/-- The log-scale. -/
theorem pay2_apply_1 (s : Vec Ideal S512x1024 .f32) (b : Vec Ideal S1024 .f32) (p : Fin 512) (q : Fin 1024) :
    k1_pay2 (F := Ideal) s b (ix2 p q) = Ideal.tanh (s (ix2 p q) + b (ix1 q)) * Cert.Spec.oneW := by
  unfold k1_pay2
  rw [mulf_apply, broadcast_apply, tanh_apply, addf_apply, broadcastTo_1b_ab_apply, shapeCast_a_1a_apply]
  rfl
/-- The updated half. -/
theorem pay3_apply_1 (s : Vec Ideal S512x1024 .f32) (b : Vec Ideal S1024 .f32) (t : Vec Ideal S512x1024 .f32) (bt : Vec Ideal S1024 .f32)
    (self : Vec Ideal S512x1024 .f32) (p : Fin 512) (q : Fin 1024) :
    k1_pay3 (F := Ideal) s b t bt self (ix2 p q)
      = self (ix2 p q) * Ideal.exp (Ideal.tanh (s (ix2 p q) + b (ix1 q)) * Cert.Spec.oneW) + (t (ix2 p q) + bt (ix1 q)) := by
  unfold k1_pay3
  rw [addf_apply, mulf_apply, shapeCast_self, exp_apply, pay2_apply_1, addf_apply, broadcastTo_1b_ab_apply,
    shapeCast_a_1a_apply]
/-- The log-determinant column: the row sum of the log-scale. -/
theorem pay4_apply_1 (s : Vec Ideal S512x1024 .f32) (b : Vec Ideal S1024 .f32) (p : Fin 512) (z : Fin 1) :
    k1_pay4 (F := Ideal) s b (ix2 p z) = ∑ q : Fin 1024, Ideal.tanh (s (ix2 p q) + b (ix1 q)) * Cert.Spec.oneW := by
  unfold k1_pay4
  rw [Cert.Columns.shapeCast_a_a1_apply]
  refine (Cert.Columns.rowSum_apply (k1_pay2 (F := Ideal) s b) 0x00000000#32 reduces_S512x1024_S512 (.inl rfl) rfl p).trans ?_
  exact Finset.sum_congr rfl fun q _ => pay2_apply_1 s b p q

end Cert.KernelIdeal.Hand

end
-- ==== Proof.KI.Blocks1.lean ====
import proofs.«142033_j33071248180131_1_alg».proof.Proof.KI.Base1
import proofs.«142033_j33071248180131_1_alg».proof.Proof.KI.Tile0
import Idealize.ShloMosaic.Lib.ValueIdx

/-!
# The second half-step's region: each input block, read where it lies in its array

At grid point `t` the row block is `t / 8` and the hidden tile is `t % 8`. A window's block is a
rectangle of its array, so an entry of the block is the array's entry at block index × block size plus the
coordinate inside the block, axis by axis. The block indices are the printed index maps; their closed
forms in `t` are decided once over the 128 points.
-/

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the TensorCore's buffer contents when the region is entered
variable (V : (c : Dev nD) → (b : Ref sig .tc) → Buf (Elt F) ((c : Thread nD τ).loc b))

/-! ## The blocks, at their literal shapes -/

abbrev blk1_0 (c : Dev nD) (t : Fin cfg1.N) : Vec F S512x1024 .f32 := iblk1 V c 0 t
abbrev blk1_1 (c : Dev nD) (t : Fin cfg1.N) : Vec F S512x1024 .f32 := iblk1 V c 1 t
abbrev blk1_2 (c : Dev nD) (t : Fin cfg1.N) : Vec F S1024x512 .bf16 := iblk1 V c 2 t
abbrev blk1_3 (c : Dev nD) (t : Fin cfg1.N) : Vec F S512 .f32 := iblk1 V c 3 t
abbrev blk1_4 (c : Dev nD) (t : Fin cfg1.N) : Vec F S512x1024 .bf16 := iblk1 V c 4 t
abbrev blk1_5 (c : Dev nD) (t : Fin cfg1.N) : Vec F S1024 .f32 := iblk1 V c 5 t
abbrev blk1_6 (c : Dev nD) (t : Fin cfg1.N) : Vec F S1024x512 .bf16 := iblk1 V c 6 t
abbrev blk1_7 (c : Dev nD) (t : Fin cfg1.N) : Vec F S512 .f32 := iblk1 V c 7 t
abbrev blk1_8 (c : Dev nD) (t : Fin cfg1.N) : Vec F S512x1024 .bf16 := iblk1 V c 8 t
abbrev blk1_9 (c : Dev nD) (t : Fin cfg1.N) : Vec F S1024 .f32 := iblk1 V c 9 t

/-! ## The block indices in closed form -/

theorem blk1_idx0 : ∀ t : Fin cfg1.N, win1_0.index t (0 : Fin 2) = t.val / 8 ∧ win1_0.index t (1 : Fin 2) = 0 :=
  (by decide +kernel : ∀ t : Fin grid1.N, _)
theorem blk1_idx1 : ∀ t : Fin cfg1.N, win1_1.index t (0 : Fin 2) = t.val / 8 ∧ win1_1.index t (1 : Fin 2) = 0 :=
  (by decide +kernel : ∀ t : Fin grid1.N, _)
theorem blk1_idx2 : ∀ t : Fin cfg1.N, win1_2.index t (0 : Fin 2) = 0 ∧ win1_2.index t (1 : Fin 2) = t.val % 8 :=
  (by decide +kernel : ∀ t : Fin grid1.N, _)
theorem blk1_idx3 : ∀ t : Fin cfg1.N, win1_3.index t (0 : Fin 1) = t.val % 8 :=
  (by decide +kernel : ∀ t : Fin grid1.N, _)
theorem blk1_idx4 : ∀ t : Fin cfg1.N, win1_4.index t (0 : Fin 2) = t.val % 8 ∧ win1_4.index t (1 : Fin 2) = 0 :=
  (by decide +kernel : ∀ t : Fin grid1.N, _)
theorem blk1_idx5 : ∀ t : Fin cfg1.N, win1_5.index t (0 : Fin 1) = 0 :=
  (by decide +kernel : ∀ t : Fin grid1.N, _)
theorem blk1_idx6 : ∀ t : Fin cfg1.N, win1_6.index t (0 : Fin 2) = 0 ∧ win1_6.index t (1 : Fin 2) = t.val % 8 :=
  (by decide +kernel : ∀ t : Fin grid1.N, _)
theorem blk1_idx7 : ∀ t : Fin cfg1.N, win1_7.index t (0 : Fin 1) = t.val % 8 :=
  (by decide +kernel : ∀ t : Fin grid1.N, _)
theorem blk1_idx8 : ∀ t : Fin cfg1.N, win1_8.index t (0 : Fin 2) = t.val % 8 ∧ win1_8.index t (1 : Fin 2) = 0 :=
  (by decide +kernel : ∀ t : Fin grid1.N, _)
theorem blk1_idx9 : ∀ t : Fin cfg1.N, win1_9.index t (0 : Fin 1) = 0 :=
  (by decide +kernel : ∀ t : Fin grid1.N, _)

/-! ## The reads -/

/-- The conditioning block of row block `t / 8`: its row `p` is row `512·(t / 8) + p` of the array. -/
theorem blk1_read0 (c : Dev nD) (t : Fin cfg1.N) (p : Fin 512) (k : Fin 1024) :
    blk1_0 V c t (ix2 p k) = V c main_v6_0 (ix2 (rowAt0 (512 * (t.val / 8) + p.val)) k) := by
  obtain ⟨e0, e1⟩ := blk1_idx0 t
  have hN : cfg1.N = 128 := N_1
  have ht := t.isLt
  have hp := p.isLt
  show V c (Pipeline.arrRef spec1 0) (((cfg1.win 0).blk t).view.emb (ix2 p k)) = V c (Pipeline.arrRef spec1 0) _
  refine congrArg _ (funext fun a => Fin.ext ?_)
  match a with
  | ⟨0, _⟩ =>
    show win1_0.index t (0 : Fin 2) * 512 + 1 * p.val = (512 * (t.val / 8) + p.val) % 8192
    omega
  | ⟨1, _⟩ =>
    show win1_0.index t (1 : Fin 2) * 1024 + 1 * k.val = k.val
    omega

/-- The block of the half being updated, likewise. -/
theorem blk1_read1 (c : Dev nD) (t : Fin cfg1.N) (p : Fin 512) (k : Fin 1024) :
    blk1_1 V c t (ix2 p k) = V c main_v1 (ix2 (rowAt0 (512 * (t.val / 8) + p.val)) k) := by
  obtain ⟨e0, e1⟩ := blk1_idx1 t
  have hN : cfg1.N = 128 := N_1
  have ht := t.isLt
  have hp := p.isLt
  show V c (Pipeline.arrRef spec1 1) (((cfg1.win 1).blk t).view.emb (ix2 p k)) = V c (Pipeline.arrRef spec1 1) _
  refine congrArg _ (funext fun a => Fin.ext ?_)
  match a with
  | ⟨0, _⟩ =>
    show win1_1.index t (0 : Fin 2) * 512 + 1 * p.val = (512 * (t.val / 8) + p.val) % 8192
    omega
  | ⟨1, _⟩ =>
    show win1_1.index t (1 : Fin 2) * 1024 + 1 * k.val = k.val
    omega

/-- The first perceptron's first-layer weights for tile `t % 8`: column `j` of the block is hidden unit `512·(t % 8) + j`. -/
theorem blk1_read2 (c : Dev nD) (t : Fin cfg1.N) (k : Fin 1024) (j : Fin 512) :
    blk1_2 V c t (ix2 k j) = V c main_v7 (ix2 k (unitAt0 (512 * (t.val % 8) + j.val))) := by
  obtain ⟨e0, e1⟩ := blk1_idx2 t
  have hj := j.isLt
  show V c (Pipeline.arrRef spec1 2) (((cfg1.win 2).blk t).view.emb (ix2 k j)) = V c (Pipeline.arrRef spec1 2) _
  refine congrArg _ (funext fun a => Fin.ext ?_)
  match a with
  | ⟨0, _⟩ =>
    show win1_2.index t (0 : Fin 2) * 1024 + 1 * k.val = k.val
    omega
  | ⟨1, _⟩ =>
    show win1_2.index t (1 : Fin 2) * 512 + 1 * j.val = (512 * (t.val % 8) + j.val) % 4096
    omega

/-- Its first-layer biases for the tile. -/
theorem blk1_read3 (c : Dev nD) (t : Fin cfg1.N) (j : Fin 512) :
    blk1_3 V c t (ix1 j) = V c main_arg10 (ix1 (unitAt0 (512 * (t.val % 8) + j.val))) := by
  have e0 := blk1_idx3 t
  have hj := j.isLt
  show V c (Pipeline.arrRef spec1 3) (((cfg1.win 3).blk t).view.emb (ix1 j)) = V c (Pipeline.arrRef spec1 3) _
  refine congrArg _ (funext fun a => Fin.ext ?_)
  match a with
  | ⟨0, _⟩ =>
    show win1_3.index t (0 : Fin 1) * 512 + 1 * j.val = (512 * (t.val % 8) + j.val) % 4096
    omega

/-- Its second-layer weights for the tile: row `j` of the block is hidden unit `512·(t % 8) + j`. -/
theorem blk1_read4 (c : Dev nD) (t : Fin cfg1.N) (j : Fin 512) (q : Fin 1024) :
    blk1_4 V c t (ix2 j q) = V c main_v8 (ix2 (unitAt0 (512 * (t.val % 8) + j.val)) q) := by
  obtain ⟨e0, e1⟩ := blk1_idx4 t
  have hj := j.isLt
  show V c (Pipeline.arrRef spec1 4) (((cfg1.win 4).blk t).view.emb (ix2 j q)) = V c (Pipeline.arrRef spec1 4) _
  refine congrArg _ (funext fun a => Fin.ext ?_)
  match a with
  | ⟨0, _⟩ =>
    show win1_4.index t (0 : Fin 2) * 512 + 1 * j.val = (512 * (t.val % 8) + j.val) % 4096
    omega
  | ⟨1, _⟩ =>
    show win1_4.index t (1 : Fin 2) * 1024 + 1 * q.val = q.val
    omega

/-- Its output biases: the block is the whole array. -/
theorem blk1_read5 (c : Dev nD) (t : Fin cfg1.N) (q : Fin 1024) :
    blk1_5 V c t (ix1 q) = V c main_arg12 (ix1 q) := by
  have e0 := blk1_idx5 t
  show V c (Pipeline.arrRef spec1 5) (((cfg1.win 5).blk t).view.emb (ix1 q)) = V c (Pipeline.arrRef spec1 5) _
  refine congrArg _ (funext fun a => Fin.ext ?_)
  match a with
  | ⟨0, _⟩ =>
    show win1_5.index t (0 : Fin 1) * 1024 + 1 * q.val = q.val
    omega

/-- The second perceptron's first-layer weights for the tile. -/
theorem blk1_read6 (c : Dev nD) (t : Fin cfg1.N) (k : Fin 1024) (j : Fin 512) :
    blk1_6 V c t (ix2 k j) = V c main_v9 (ix2 k (unitAt0 (512 * (t.val % 8) + j.val))) := by
  obtain ⟨e0, e1⟩ := blk1_idx6 t
  have hj := j.isLt
  show V c (Pipeline.arrRef spec1 6) (((cfg1.win 6).blk t).view.emb (ix2 k j)) = V c (Pipeline.arrRef spec1 6) _
  refine congrArg _ (funext fun a => Fin.ext ?_)
  match a with
  | ⟨0, _⟩ =>
    show win1_6.index t (0 : Fin 2) * 1024 + 1 * k.val = k.val
    omega
  | ⟨1, _⟩ =>
    show win1_6.index t (1 : Fin 2) * 512 + 1 * j.val = (512 * (t.val % 8) + j.val) % 4096
    omega

/-- Its first-layer biases for the tile. -/
theorem blk1_read7 (c : Dev nD) (t : Fin cfg1.N) (j : Fin 512) :
    blk1_7 V c t (ix1 j) = V c main_arg14 (ix1 (unitAt0 (512 * (t.val % 8) + j.val))) := by
  have e0 := blk1_idx7 t
  have hj := j.isLt
  show V c (Pipeline.arrRef spec1 7) (((cfg1.win 7).blk t).view.emb (ix1 j)) = V c (Pipeline.arrRef spec1 7) _
  refine congrArg _ (funext fun a => Fin.ext ?_)
  match a with
  | ⟨0, _⟩ =>
    show win1_7.index t (0 : Fin 1) * 512 + 1 * j.val = (512 * (t.val % 8) + j.val) % 4096
    omega

/-- Its second-layer weights for the tile. -/
theorem blk1_read8 (c : Dev nD) (t : Fin cfg1.N) (j : Fin 512) (q : Fin 1024) :
    blk1_8 V c t (ix2 j q) = V c main_v10 (ix2 (unitAt0 (512 * (t.val % 8) + j.val)) q) := by
  obtain ⟨e0, e1⟩ := blk1_idx8 t
  have hj := j.isLt
  show V c (Pipeline.arrRef spec1 8) (((cfg1.win 8).blk t).view.emb (ix2 j q)) = V c (Pipeline.arrRef spec1 8) _
  refine congrArg _ (funext fun a => Fin.ext ?_)
  match a with
  | ⟨0, _⟩ =>
    show win1_8.index t (0 : Fin 2) * 512 + 1 * j.val = (512 * (t.val % 8) + j.val) % 4096
    omega
  | ⟨1, _⟩ =>
    show win1_8.index t (1 : Fin 2) * 1024 + 1 * q.val = q.val
    omega

/-- Its output biases: the block is the whole array. -/
theorem blk1_read9 (c : Dev nD) (t : Fin cfg1.N) (q : Fin 1024) :
    blk1_9 V c t (ix1 q) = V c main_arg16 (ix1 q) := by
  have e0 := blk1_idx9 t
  show V c (Pipeline.arrRef spec1 9) (((cfg1.win 9).blk t).view.emb (ix1 q)) = V c (Pipeline.arrRef spec1 9) _
  refine congrArg _ (funext fun a => Fin.ext ?_)
  match a with
  | ⟨0, _⟩ =>
    show win1_9.index t (0 : Fin 1) * 1024 + 1 * q.val = q.val
    omega

end Cert.KernelIdeal.Hand

end
-- ==== Proof.KI.Accum1.lean ====
import proofs.«142033_j33071248180131_1_alg».proof.Proof.KI.Pieces1
import proofs.«142033_j33071248180131_1_alg».proof.Proof.KI.Acc1
import proofs.«142033_j33071248180131_1_alg».proof.Proof.KI.Blocks1

/-!
# The second half-step's region: what the two accumulators hold, point by point

Grid point `n` is row block `n / 8`, hidden tile `n % 8`. A tile's update adds, at row `p` and column
`q` of the block, the tile's 512 hidden units of row `512·(n / 8) + p`, each times its second-layer
weight for column `q`. The point that opens a row block adds this to zero, every other point to what the
point before left; so after point `n` an accumulator holds the shares of the tiles `0 .. n % 8`, by
induction along the grid.
-/

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

-- the TensorCore's buffer contents when the region is entered, at the ideal values
variable (V : (c : Dev nD) → (b : Ref sig .tc) → Buf (Elt Ideal) ((c : Thread nD τ).loc b))

/-! ## One tile's update, over the arrays -/

/-- The first perceptron's update at point `t`: the tile sum over the point's blocks is tile `t % 8`'s
    share for row `512·(t / 8) + p`. -/
theorem accAt1_tileS (c : Dev nD) (t : Fin cfg1.N) (p : Fin 512) (q : Fin 1024) :
    ∑ j : Fin 512, max ((∑ k : Fin 1024, blk1_0 V c t (ix2 p k) * blk1_2 V c t (ix2 k j)) + blk1_3 V c t (ix1 j)) Cert.Spec.zeroW
        * blk1_4 V c t (ix2 j q)
      = tileSum0 (V c main_v6_0) (V c main_v7) (V c main_arg10) (V c main_v8) (rowAt0 (512 * (t.val / 8) + p.val)) q (t.val % 8) :=
  tileOfBlocks0 (V c main_v6_0) (V c main_v7) (V c main_arg10) (V c main_v8) (rowAt0 (512 * (t.val / 8) + p.val)) q (t.val % 8)
    (fun k => blk1_0 V c t (ix2 p k)) (fun k j => blk1_2 V c t (ix2 k j)) (fun j => blk1_3 V c t (ix1 j))
    (fun j => blk1_4 V c t (ix2 j q))
    (fun k => blk1_read0 V c t p k) (fun k j => blk1_read2 V c t k j) (fun j => blk1_read3 V c t j)
    (fun j => blk1_read4 V c t j q)

/-- The second perceptron's, likewise. -/
theorem accAt1_tileT (c : Dev nD) (t : Fin cfg1.N) (p : Fin 512) (q : Fin 1024) :
    ∑ j : Fin 512, max ((∑ k : Fin 1024, blk1_0 V c t (ix2 p k) * blk1_6 V c t (ix2 k j)) + blk1_7 V c t (ix1 j)) Cert.Spec.zeroW
        * blk1_8 V c t (ix2 j q)
      = tileSum0 (V c main_v6_0) (V c main_v9) (V c main_arg14) (V c main_v10) (rowAt0 (512 * (t.val / 8) + p.val)) q (t.val % 8) :=
  tileOfBlocks0 (V c main_v6_0) (V c main_v9) (V c main_arg14) (V c main_v10) (rowAt0 (512 * (t.val / 8) + p.val)) q (t.val % 8)
    (fun k => blk1_0 V c t (ix2 p k)) (fun k j => blk1_6 V c t (ix2 k j)) (fun j => blk1_7 V c t (ix1 j))
    (fun j => blk1_8 V c t (ix2 j q))
    (fun k => blk1_read0 V c t p k) (fun k j => blk1_read6 V c t k j) (fun j => blk1_read7 V c t j)
    (fun j => blk1_read8 V c t j q)

/-- So the first accumulator's update over a value `a` is `a` plus the tile's share, -/
theorem accAt1_payS (c : Dev nD) (t : Fin cfg1.N) (a : Vec Ideal S512x1024 .f32) (p : Fin 512) (q : Fin 1024) :
    k1_pay8 (F := Ideal) (blk1_0 V c t) (blk1_2 V c t) (blk1_3 V c t) a (blk1_4 V c t) (ix2 p q)
      = a (ix2 p q) + tileSum0 (V c main_v6_0) (V c main_v7) (V c main_arg10) (V c main_v8) (rowAt0 (512 * (t.val / 8) + p.val)) q (t.val % 8) :=
  (pay8_apply_1 (blk1_0 V c t) (blk1_2 V c t) (blk1_3 V c t) a (blk1_4 V c t) p q).trans
    (congrArg (fun z => a (ix2 p q) + z) (accAt1_tileS V c t p q))

/-- and the second accumulator's likewise. -/
theorem accAt1_payT (c : Dev nD) (t : Fin cfg1.N) (a : Vec Ideal S512x1024 .f32) (p : Fin 512) (q : Fin 1024) :
    k1_pay1 (F := Ideal) (k1_pay9 (blk1_0 V c t) (blk1_6 V c t) (blk1_7 V c t)) a (blk1_8 V c t) (ix2 p q)
      = a (ix2 p q) + tileSum0 (V c main_v6_0) (V c main_v9) (V c main_arg14) (V c main_v10) (rowAt0 (512 * (t.val / 8) + p.val)) q (t.val % 8) :=
  (pay1_apply_1 (blk1_0 V c t) (blk1_6 V c t) (blk1_7 V c t) a (blk1_8 V c t) p q).trans
    (congrArg (fun z => a (ix2 p q) + z) (accAt1_tileT V c t p q))

/-! ## The accumulators the point before left -/

abbrev accAt1_prevS (c : Dev nD) (t : Fin cfg1.N) : Vec Ideal S512x1024 .f32 :=
  (outsAt1 V c (t.val - 1) (Nat.lt_of_le_of_lt (Nat.sub_le _ _) t.isLt)).2.2.1
abbrev accAt1_prevT (c : Dev nD) (t : Fin cfg1.N) : Vec Ideal S512x1024 .f32 :=
  (outsAt1 V c (t.val - 1) (Nat.lt_of_le_of_lt (Nat.sub_le _ _) t.isLt)).2.2.2

/-! ## One point -/

/-- A point that opens a row block leaves zero plus the first tile's share in the first accumulator. -/
theorem accAt1_openS (c : Dev nD) (t : Fin cfg1.N) (h0 : t.val % 8 = 0) (p : Fin 512) (q : Fin 1024) :
    (outsAt1 V c t.val t.isLt).2.2.1 (ix2 p q)
      = 0 + tileSum0 (V c main_v6_0) (V c main_v7) (V c main_arg10) (V c main_v8) (rowAt0 (512 * (t.val / 8) + p.val)) q (t.val % 8) := by
  rw [outsAt1_A V c t h0]
  dsimp only
  refine (congrFun (sout1_A_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) ((hcond1_0 t).mpr h0) (fun h => absurd ((hcond1_1 t).mp h) (by omega)) (blk1_0 V c t) (blk1_1 V c t) (blk1_2 V c t) (blk1_3 V c t) (blk1_4 V c t) (blk1_5 V c t) (blk1_6 V c t) (blk1_7 V c t) (blk1_8 V c t) (blk1_9 V c t)) (ix2 p q)).trans ?_
  refine (accAt1_payS V c t (k1_pay5 (F := Ideal)) p q).trans ?_
  rw [pay5_apply_1]

theorem accAt1_openT (c : Dev nD) (t : Fin cfg1.N) (h0 : t.val % 8 = 0) (p : Fin 512) (q : Fin 1024) :
    (outsAt1 V c t.val t.isLt).2.2.2 (ix2 p q)
      = 0 + tileSum0 (V c main_v6_0) (V c main_v9) (V c main_arg14) (V c main_v10) (rowAt0 (512 * (t.val / 8) + p.val)) q (t.val % 8) := by
  rw [outsAt1_A V c t h0]
  dsimp only
  refine (congrFun (sout1_A_1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) ((hcond1_0 t).mpr h0) (fun h => absurd ((hcond1_1 t).mp h) (by omega)) (blk1_0 V c t) (blk1_1 V c t) (blk1_2 V c t) (blk1_3 V c t) (blk1_4 V c t) (blk1_5 V c t) (blk1_6 V c t) (blk1_7 V c t) (blk1_8 V c t) (blk1_9 V c t)) (ix2 p q)).trans ?_
  refine (accAt1_payT V c t (k1_pay6 (F := Ideal)) p q).trans ?_
  rw [pay6_apply_1]

/-- Any other point leaves what the point before left plus its tile's share. -/
theorem accAt1_stepS (c : Dev nD) (t : Fin cfg1.N) (h0 : ¬t.val % 8 = 0) (p : Fin 512) (q : Fin 1024) :
    (outsAt1 V c t.val t.isLt).2.2.1 (ix2 p q)
      = accAt1_prevS V c t (ix2 p q) + tileSum0 (V c main_v6_0) (V c main_v7) (V c main_arg10) (V c main_v8) (rowAt0 (512 * (t.val / 8) + p.val)) q (t.val % 8) := by
  by_cases h1 : t.val % 8 = 7
  · rw [outsAt1_C V c t h0 h1]
    dsimp only
    refine (congrFun (sout1_C_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) ((hcond1_1 t).mpr h1) (blk1_0 V c t) (blk1_1 V c t) (blk1_2 V c t) (blk1_3 V c t) (blk1_4 V c t) (blk1_5 V c t) (blk1_6 V c t) (blk1_7 V c t) (blk1_8 V c t) (blk1_9 V c t) (accAt1_prevS V c t) (accAt1_prevT V c t)) (ix2 p q)).trans ?_
    exact accAt1_payS V c t (accAt1_prevS V c t) p q
  · rw [outsAt1_B V c t h0 h1]
    dsimp only
    refine (congrFun (sout1_B_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) (fun h => h1 ((hcond1_1 t).mp h)) (blk1_0 V c t) (blk1_1 V c t) (blk1_2 V c t) (blk1_3 V c t) (blk1_4 V c t) (blk1_5 V c t) (blk1_6 V c t) (blk1_7 V c t) (blk1_8 V c t) (blk1_9 V c t) (accAt1_prevS V c t) (accAt1_prevT V c t)) (ix2 p q)).trans ?_
    exact accAt1_payS V c t (accAt1_prevS V c t) p q

theorem accAt1_stepT (c : Dev nD) (t : Fin cfg1.N) (h0 : ¬t.val % 8 = 0) (p : Fin 512) (q : Fin 1024) :
    (outsAt1 V c t.val t.isLt).2.2.2 (ix2 p q)
      = accAt1_prevT V c t (ix2 p q) + tileSum0 (V c main_v6_0) (V c main_v9) (V c main_arg14) (V c main_v10) (rowAt0 (512 * (t.val / 8) + p.val)) q (t.val % 8) := by
  by_cases h1 : t.val % 8 = 7
  · rw [outsAt1_C V c t h0 h1]
    dsimp only
    refine (congrFun (sout1_C_1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) ((hcond1_1 t).mpr h1) (blk1_0 V c t) (blk1_1 V c t) (blk1_2 V c t) (blk1_3 V c t) (blk1_4 V c t) (blk1_5 V c t) (blk1_6 V c t) (blk1_7 V c t) (blk1_8 V c t) (blk1_9 V c t) (accAt1_prevS V c t) (accAt1_prevT V c t)) (ix2 p q)).trans ?_
    exact accAt1_payT V c t (accAt1_prevT V c t) p q
  · rw [outsAt1_B V c t h0 h1]
    dsimp only
    refine (congrFun (sout1_B_1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) (fun h => h1 ((hcond1_1 t).mp h)) (blk1_0 V c t) (blk1_1 V c t) (blk1_2 V c t) (blk1_3 V c t) (blk1_4 V c t) (blk1_5 V c t) (blk1_6 V c t) (blk1_7 V c t) (blk1_8 V c t) (blk1_9 V c t) (accAt1_prevS V c t) (accAt1_prevT V c t)) (ix2 p q)).trans ?_
    exact accAt1_payT V c t (accAt1_prevT V c t) p q

/-! ## Along the grid -/

/-- After point `n` the first accumulator holds the shares of the tiles `0 .. n % 8` of its row block. -/
theorem accAt1_eqS (c : Dev nD) : ∀ (n : ℕ) (hn : n < cfg1.N) (p : Fin 512) (q : Fin 1024),
    (outsAt1 V c n hn).2.2.1 (ix2 p q) = tileAcc0 (V c main_v6_0) (V c main_v7) (V c main_arg10) (V c main_v8) n p q
  | 0, hn, p, q => (accAt1_openS V c ⟨0, hn⟩ rfl p q).trans (tileAccOpen0 (V c main_v6_0) (V c main_v7) (V c main_arg10) (V c main_v8) 0 p q rfl).symm
  | n + 1, hn, p, q => by
    by_cases h0 : (n + 1) % 8 = 0
    · exact (accAt1_openS V c ⟨n + 1, hn⟩ h0 p q).trans (tileAccOpen0 (V c main_v6_0) (V c main_v7) (V c main_arg10) (V c main_v8) (n + 1) p q h0).symm
    · refine (accAt1_stepS V c ⟨n + 1, hn⟩ h0 p q).trans ?_
      rw [tileAccStep0 (V c main_v6_0) (V c main_v7) (V c main_arg10) (V c main_v8) (n + 1) p q h0]
      exact congrArg (fun z => z + tileSum0 (V c main_v6_0) (V c main_v7) (V c main_arg10) (V c main_v8) (rowAt0 (512 * ((n + 1) / 8) + p.val)) q ((n + 1) % 8))
        (accAt1_eqS c n (Nat.lt_of_succ_lt hn) p q)

/-- And the second accumulator the second perceptron's. -/
theorem accAt1_eqT (c : Dev nD) : ∀ (n : ℕ) (hn : n < cfg1.N) (p : Fin 512) (q : Fin 1024),
    (outsAt1 V c n hn).2.2.2 (ix2 p q) = tileAcc0 (V c main_v6_0) (V c main_v9) (V c main_arg14) (V c main_v10) n p q
  | 0, hn, p, q => (accAt1_openT V c ⟨0, hn⟩ rfl p q).trans (tileAccOpen0 (V c main_v6_0) (V c main_v9) (V c main_arg14) (V c main_v10) 0 p q rfl).symm
  | n + 1, hn, p, q => by
    by_cases h0 : (n + 1) % 8 = 0
    · exact (accAt1_openT V c ⟨n + 1, hn⟩ h0 p q).trans (tileAccOpen0 (V c main_v6_0) (V c main_v9) (V c main_arg14) (V c main_v10) (n + 1) p q h0).symm
    · refine (accAt1_stepT V c ⟨n + 1, hn⟩ h0 p q).trans ?_
      rw [tileAccStep0 (V c main_v6_0) (V c main_v9) (V c main_arg14) (V c main_v10) (n + 1) p q h0]
      exact congrArg (fun z => z + tileSum0 (V c main_v6_0) (V c main_v9) (V c main_arg14) (V c main_v10) (rowAt0 (512 * ((n + 1) / 8) + p.val)) q ((n + 1) % 8))
        (accAt1_eqT c n (Nat.lt_of_succ_lt hn) p q)

/-! ## At a closing point -/

/-- At a point that closes a row block the updated first accumulator holds all eight tiles' shares. -/
theorem accAt1_closeS (c : Dev nD) (t : Fin cfg1.N) (h1 : t.val % 8 = 7) (p : Fin 512) (q : Fin 1024) :
    k1_pay8 (F := Ideal) (blk1_0 V c t) (blk1_2 V c t) (blk1_3 V c t) (accAt1_prevS V c t) (blk1_4 V c t) (ix2 p q)
      = ∑ s ∈ Finset.range 8, tileSum0 (V c main_v6_0) (V c main_v7) (V c main_arg10) (V c main_v8) (rowAt0 (512 * (t.val / 8) + p.val)) q s := by
  have h0 : ¬t.val % 8 = 0 := by omega
  refine (accAt1_payS V c t (accAt1_prevS V c t) p q).trans ?_
  rw [← tileAccClose0 (V c main_v6_0) (V c main_v7) (V c main_arg10) (V c main_v8) t.val p q h1, tileAccStep0 (V c main_v6_0) (V c main_v7) (V c main_arg10) (V c main_v8) t.val p q h0]
  exact congrArg (fun z => z + tileSum0 (V c main_v6_0) (V c main_v7) (V c main_arg10) (V c main_v8) (rowAt0 (512 * (t.val / 8) + p.val)) q (t.val % 8))
    (accAt1_eqS V c (t.val - 1) (Nat.lt_of_le_of_lt (Nat.sub_le _ _) t.isLt) p q)

theorem accAt1_closeT (c : Dev nD) (t : Fin cfg1.N) (h1 : t.val % 8 = 7) (p : Fin 512) (q : Fin 1024) :
    k1_pay1 (F := Ideal) (k1_pay9 (blk1_0 V c t) (blk1_6 V c t) (blk1_7 V c t)) (accAt1_prevT V c t) (blk1_8 V c t) (ix2 p q)
      = ∑ s ∈ Finset.range 8, tileSum0 (V c main_v6_0) (V c main_v9) (V c main_arg14) (V c main_v10) (rowAt0 (512 * (t.val / 8) + p.val)) q s := by
  have h0 : ¬t.val % 8 = 0 := by omega
  refine (accAt1_payT V c t (accAt1_prevT V c t) p q).trans ?_
  rw [← tileAccClose0 (V c main_v6_0) (V c main_v9) (V c main_arg14) (V c main_v10) t.val p q h1, tileAccStep0 (V c main_v6_0) (V c main_v9) (V c main_arg14) (V c main_v10) t.val p q h0]
  exact congrArg (fun z => z + tileSum0 (V c main_v6_0) (V c main_v9) (V c main_arg14) (V c main_v10) (rowAt0 (512 * (t.val / 8) + p.val)) q (t.val % 8))
    (accAt1_eqT V c (t.val - 1) (Nat.lt_of_le_of_lt (Nat.sub_le _ _) t.isLt) p q)

end Cert.KernelIdeal.Hand

end
-- ==== Proof.KI.Final1.lean ====
import proofs.«142033_j33071248180131_1_alg».proof.Proof.KI.Pieces1
import proofs.«142033_j33071248180131_1_alg».proof.Proof.KI.Acc1
import proofs.«142033_j33071248180131_1_alg».proof.Proof.KI.Accum1
import Idealize.ShloMosaic.Lib.Pipeline.Value

/-!
# The second half-step's region: its two result arrays are the specification's

Row block `rb`, hidden tile `h` is grid point `8·rb + h`. After that point each accumulator holds, at row
`p` and column `q` of the block, the sum of the tiles `0..h` of its perceptron's second-layer products for
row `512·rb + p`: the tiles partition the 4096 hidden units, and addition of extended reals is commutative
and associative, so after tile 7 it is the whole sum. The closing point writes the updated half and the
log-determinant column of the row block; the blocks flushed at the closing points tile the result arrays.
-/

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

-- the TensorCore's buffer contents when the region is entered, at the ideal values
variable (V : (c : Dev nD) → (b : Ref sig .tc) → Buf (Elt Ideal) ((c : Thread nD τ).loc b))

/-! ## What a closing point leaves in the two output buffers -/

/-- The updated half's buffer at a closing point, at row `p` and column `q` of the block: both accumulators
    hold all eight tiles, so with the output biases they are the two perceptrons' outputs for row
    `512·(t / 8) + p`, and the entry is the specification's. -/
theorem final1_out10 (c : Dev nD) (t : Fin cfg1.N) (h1 : t.val % 8 = 7) (p : Fin 512) (q : Fin 1024) :
    (outsAt1 V c t.val t.isLt).1 (ix2 p q) = Cert.Spec.coupled (V c main_v6_0) (V c main_v1) (V c main_v7) (V c main_arg10) (V c main_v8) (V c main_arg12) (V c main_v9) (V c main_arg14) (V c main_v10) (V c main_arg16) (rowAt0 (512 * (t.val / 8) + p.val)) q := by
  have h0 : ¬t.val % 8 = 0 := by omega
  rw [outsAt1_C V c t h0 h1]
  dsimp only
  refine (congrFun (out1_C_10_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) ((hcond1_1 t).mpr h1) (blk1_0 V c t) (blk1_1 V c t) (blk1_2 V c t) (blk1_3 V c t) (blk1_4 V c t) (blk1_5 V c t) (blk1_6 V c t) (blk1_7 V c t) (blk1_8 V c t) (blk1_9 V c t) (accAt1_prevS V c t) (accAt1_prevT V c t)) (ix2 p q)).trans ?_
  refine (pay3_apply_1 (k1_pay8 (F := Ideal) (blk1_0 V c t) (blk1_2 V c t) (blk1_3 V c t) (accAt1_prevS V c t) (blk1_4 V c t)) (blk1_5 V c t) (k1_pay1 (F := Ideal) (k1_pay9 (blk1_0 V c t) (blk1_6 V c t) (blk1_7 V c t)) (accAt1_prevT V c t) (blk1_8 V c t)) (blk1_9 V c t) (blk1_1 V c t) p q).trans ?_
  exact tileCoupledOf0 (V c main_v6_0) (V c main_v1) (V c main_v7) (V c main_arg10) (V c main_v8) (V c main_arg12) (V c main_v9) (V c main_arg14) (V c main_v10) (V c main_arg16) (rowAt0 (512 * (t.val / 8) + p.val)) q _ _ _ _ _
    (accAt1_closeS V c t h1 p q) (blk1_read5 V c t q) (accAt1_closeT V c t h1 p q) (blk1_read9 V c t q)
    (blk1_read1 V c t p q)

/-- The log-determinant column's buffer at a closing point: the row sum of the log-scale of row
    `512·(t / 8) + p`. -/
theorem final1_out11 (c : Dev nD) (t : Fin cfg1.N) (h1 : t.val % 8 = 7) (p : Fin 512) (z : Fin 1) :
    (outsAt1 V c t.val t.isLt).2.1 (ix2 p z) = Cert.Spec.logdet (V c main_v6_0) (V c main_v7) (V c main_arg10) (V c main_v8) (V c main_arg12) (rowAt0 (512 * (t.val / 8) + p.val)) := by
  have h0 : ¬t.val % 8 = 0 := by omega
  rw [outsAt1_C V c t h0 h1]
  dsimp only
  refine (congrFun (out1_C_11_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) ((hcond1_1 t).mpr h1) (blk1_0 V c t) (blk1_1 V c t) (blk1_2 V c t) (blk1_3 V c t) (blk1_4 V c t) (blk1_5 V c t) (blk1_6 V c t) (blk1_7 V c t) (blk1_8 V c t) (blk1_9 V c t) (accAt1_prevS V c t) (accAt1_prevT V c t)) (ix2 p z)).trans ?_
  refine (pay4_apply_1 (k1_pay8 (F := Ideal) (blk1_0 V c t) (blk1_2 V c t) (blk1_3 V c t) (accAt1_prevS V c t) (blk1_4 V c t)) (blk1_5 V c t) p z).trans ?_
  exact tileLogdetOf0 (V c main_v6_0) (V c main_v7) (V c main_arg10) (V c main_v8) (V c main_arg12) (rowAt0 (512 * (t.val / 8) + p.val))
    (fun q => (k1_pay8 (F := Ideal) (blk1_0 V c t) (blk1_2 V c t) (blk1_3 V c t) (accAt1_prevS V c t) (blk1_4 V c t)) (ix2 p q)) (fun q => blk1_5 V c t (ix1 q))
    (fun q => accAt1_closeS V c t h1 p q) (fun q => blk1_read5 V c t q)

/-! ## The blocks written back -/

/-- The two output windows' block indices in closed form: row block `t / 8`, the one column block. -/
theorem final1_idx10 : ∀ t : Fin cfg1.N, win1_10.index t (0 : Fin 2) = t.val / 8 ∧ win1_10.index t (1 : Fin 2) = 0 :=
  (by decide +kernel : ∀ t : Fin grid1.N, _)
theorem final1_idx11 : ∀ t : Fin cfg1.N, win1_11.index t (0 : Fin 2) = t.val / 8 ∧ win1_11.index t (1 : Fin 2) = 0 :=
  (by decide +kernel : ∀ t : Fin grid1.N, _)

/-- What a closing point writes back of the updated half is its block of the specification's array. -/
theorem final1_flushed10 (c : Dev nD) (t : Fin cfg1.N) (hf : (cfg1.win 10).flush t = true) :
    (dat1 V c).flushed 10 t = ((cfg1.win 10).blk t).view.read (Elt Ideal)
      (fun i => Cert.Spec.coupled (V c main_v6_0) (V c main_v1) (V c main_v7) (V c main_arg10) (V c main_v8) (V c main_arg12) (V c main_v9) (V c main_arg14) (V c main_v10) (V c main_arg16) (i 0) (i 1)) := by
  have h1 : t.val % 8 = 7 := (flush0_10 t).mp hf
  obtain ⟨e0, e1⟩ := final1_idx10 t
  have hN : cfg1.N = 128 := N_1
  have ht := t.isLt
  show (cfg1.win 10).cut (grid1.coords t) ((dat1 V c).after 10 t) = _
  rw [after1_10]
  funext y
  obtain ⟨p, q, rfl⟩ : ∃ (p : Fin 512) (q : Fin 1024), y = ix2 p q := ⟨y 0, y 1, eq_ix2 y⟩
  have hp := p.isLt
  have hr : ((((cfg1.win 10).blk t).view.emb (ix2 p q)) 0 : Fin 8192) = (rowAt0 (512 * (t.val / 8) + p.val)) :=
    Fin.ext (by show win1_10.index t (0 : Fin 2) * 512 + 1 * p.val = (512 * (t.val / 8) + p.val) % 8192; omega)
  have hq : ((((cfg1.win 10).blk t).view.emb (ix2 p q)) 1 : Fin 1024) = q :=
    Fin.ext (by show win1_10.index t (1 : Fin 2) * 1024 + 1 * q.val = q.val; omega)
  show (outsAt1 V c t.val t.isLt).1 (ix2 p q)
    = Cert.Spec.coupled (V c main_v6_0) (V c main_v1) (V c main_v7) (V c main_arg10) (V c main_v8) (V c main_arg12) (V c main_v9) (V c main_arg14) (V c main_v10) (V c main_arg16) ((((cfg1.win 10).blk t).view.emb (ix2 p q)) 0) ((((cfg1.win 10).blk t).view.emb (ix2 p q)) 1)
  exact (final1_out10 V c t h1 p q).trans (congrArg₂ (Cert.Spec.coupled (V c main_v6_0) (V c main_v1) (V c main_v7) (V c main_arg10) (V c main_v8) (V c main_arg12) (V c main_v9) (V c main_arg14) (V c main_v10) (V c main_arg16)) hr.symm hq.symm)

/-- And of the log-determinant column likewise. -/
theorem final1_flushed11 (c : Dev nD) (t : Fin cfg1.N) (hf : (cfg1.win 11).flush t = true) :
    (dat1 V c).flushed 11 t = ((cfg1.win 11).blk t).view.read (Elt Ideal)
      (fun i => Cert.Spec.logdet (V c main_v6_0) (V c main_v7) (V c main_arg10) (V c main_v8) (V c main_arg12) (i 0)) := by
  have h1 : t.val % 8 = 7 := (flush0_11 t).mp hf
  obtain ⟨e0, e1⟩ := final1_idx11 t
  have hN : cfg1.N = 128 := N_1
  have ht := t.isLt
  show (cfg1.win 11).cut (grid1.coords t) ((dat1 V c).after 11 t) = _
  rw [after1_11]
  funext y
  obtain ⟨p, z, rfl⟩ : ∃ (p : Fin 512) (z : Fin 1), y = ix2 p z := ⟨y 0, y 1, eq_ix2 y⟩
  have hp := p.isLt
  have hr : ((((cfg1.win 11).blk t).view.emb (ix2 p z)) 0 : Fin 8192) = (rowAt0 (512 * (t.val / 8) + p.val)) :=
    Fin.ext (by show win1_11.index t (0 : Fin 2) * 512 + 1 * p.val = (512 * (t.val / 8) + p.val) % 8192; omega)
  show (outsAt1 V c t.val t.isLt).2.1 (ix2 p z)
    = Cert.Spec.logdet (V c main_v6_0) (V c main_v7) (V c main_arg10) (V c main_v8) (V c main_arg12) ((((cfg1.win 11).blk t).view.emb (ix2 p z)) 0)
  exact (final1_out11 V c t h1 p z).trans (congrArg (Cert.Spec.logdet (V c main_v6_0) (V c main_v7) (V c main_arg10) (V c main_v8) (V c main_arg12)) hr.symm)

/-! ## The blocks tile the arrays -/

/-- An index of the updated half is in point `t`'s block iff each coordinate is in the block's range. -/
theorem final1_mem10 (t : Fin cfg1.N) (i : S8192x1024.Idx) :
    i ∈ ((cfg1.win 10).blk t).view.set
      ↔ ∀ a : Fin 2, win1_10.index t a * S512x1024.size a ≤ (i a).val ∧ (i a).val < win1_10.index t a * S512x1024.size a + S512x1024.size a := by
  show i ∈ ((View.whole (Pipeline.arrRef spec1 10)).slice (win1_10.rect t)).set ↔ _
  rw [View.set_slice_whole, Rect.mem_set_unit]
  exact Iff.rfl

theorem final1_mem11 (t : Fin cfg1.N) (i : S8192x1.Idx) :
    i ∈ ((cfg1.win 11).blk t).view.set
      ↔ ∀ a : Fin 2, win1_11.index t a * S512x1.size a ≤ (i a).val ∧ (i a).val < win1_11.index t a * S512x1.size a + S512x1.size a := by
  show i ∈ ((View.whole (Pipeline.arrRef spec1 11)).slice (win1_11.rect t)).set ↔ _
  rw [View.set_slice_whole, Rect.mem_set_unit]
  exact Iff.rfl

/-- Row `r` lies in the block the closing point of row block `r / 512` writes back. -/
theorem final1_cover10 (i : S8192x1024.Idx) :
    ∃ t : Fin cfg1.N, (cfg1.win 10).flush t = true ∧ i ∈ ((cfg1.win 10).blk t).view.set := by
  have hN : cfg1.N = 128 := N_1
  have hi0 : (i 0).val < 8192 := (i 0).isLt
  have hi1 : (i 1).val < 1024 := (i 1).isLt
  have hlt : 8 * ((i 0).val / 512) + 7 < cfg1.N := by omega
  refine ⟨⟨8 * ((i 0).val / 512) + 7, hlt⟩, (flush0_10 _).mpr (by show (8 * ((i 0).val / 512) + 7) % 8 = 7; omega), ?_⟩
  obtain ⟨e0, e1⟩ := final1_idx10 ⟨8 * ((i 0).val / 512) + 7, hlt⟩
  have e0' : win1_10.index ⟨8 * ((i 0).val / 512) + 7, hlt⟩ (0 : Fin 2) = (i 0).val / 512 :=
    e0.trans (by show (8 * ((i 0).val / 512) + 7) / 8 = (i 0).val / 512; omega)
  rw [final1_mem10]
  intro a
  match a with
  | ⟨0, _⟩ =>
    show win1_10.index _ (0 : Fin 2) * 512 ≤ (i 0).val ∧ (i 0).val < win1_10.index _ (0 : Fin 2) * 512 + 512
    rw [e0']; omega
  | ⟨1, _⟩ =>
    show win1_10.index _ (1 : Fin 2) * 1024 ≤ (i 1).val ∧ (i 1).val < win1_10.index _ (1 : Fin 2) * 1024 + 1024
    rw [e1]; omega

theorem final1_cover11 (i : S8192x1.Idx) :
    ∃ t : Fin cfg1.N, (cfg1.win 11).flush t = true ∧ i ∈ ((cfg1.win 11).blk t).view.set := by
  have hN : cfg1.N = 128 := N_1
  have hi0 : (i 0).val < 8192 := (i 0).isLt
  have hi1 : (i 1).val < 1 := (i 1).isLt
  have hlt : 8 * ((i 0).val / 512) + 7 < cfg1.N := by omega
  refine ⟨⟨8 * ((i 0).val / 512) + 7, hlt⟩, (flush0_11 _).mpr (by show (8 * ((i 0).val / 512) + 7) % 8 = 7; omega), ?_⟩
  obtain ⟨e0, e1⟩ := final1_idx11 ⟨8 * ((i 0).val / 512) + 7, hlt⟩
  have e0' : win1_11.index ⟨8 * ((i 0).val / 512) + 7, hlt⟩ (0 : Fin 2) = (i 0).val / 512 :=
    e0.trans (by show (8 * ((i 0).val / 512) + 7) / 8 = (i 0).val / 512; omega)
  rw [final1_mem11]
  intro a
  match a with
  | ⟨0, _⟩ =>
    show win1_11.index _ (0 : Fin 2) * 512 ≤ (i 0).val ∧ (i 0).val < win1_11.index _ (0 : Fin 2) * 512 + 512
    rw [e0']; omega
  | ⟨1, _⟩ =>
    show win1_11.index _ (1 : Fin 2) * 1 ≤ (i 1).val ∧ (i 1).val < win1_11.index _ (1 : Fin 2) * 1 + 1
    rw [e1]; omega

/-! ## The result arrays -/

/-- The updated half the region leaves is the specification's half-step of its operand arrays. -/
theorem final1_10 (c : Dev nD) :
    (dat1 (F := Ideal) V c).arrAt 10 cfg1.N
      = fun i => Cert.Spec.coupled (V c main_v6_0) (V c main_v1) (V c main_v7) (V c main_arg10) (V c main_v8) (V c main_arg12)
          (V c main_v9) (V c main_arg14) (V c main_v10) (V c main_arg16) (i 0) (i 1) :=
  (dat1 V c).arrAt_eq_of_cover 10 _ (fun t hf => final1_flushed10 V c t hf) (fun i => final1_cover10 i)

/-- The log-determinant column it leaves is the specification's. -/
theorem final1_11 (c : Dev nD) :
    (dat1 (F := Ideal) V c).arrAt 11 cfg1.N
      = fun i => Cert.Spec.logdet (V c main_v6_0) (V c main_v7) (V c main_arg10) (V c main_v8) (V c main_arg12) (i 0) :=
  (dat1 V c).arrAt_eq_of_cover 11 _ (fun t hf => final1_flushed11 V c t hf) (fun i => final1_cover11 i)

end Cert.KernelIdeal.Hand

end
-- ==== Proof.KI.Results.lean ====
import proofs.«142033_j33071248180131_1_alg».proof.Proof.KI.Launch
import proofs.«142033_j33071248180131_1_alg».proof.Proof.KI.Final0
import proofs.«142033_j33071248180131_1_alg».proof.Proof.KI.Final1
import proofs.«142033_j33071248180131_1_alg».proof.Proof.Spec
import Idealize.ShloMosaic.Lib.StableHlo.Run
import Idealize.ShloMosaic.Lib.Pipeline.Value

/-!
# The program's two results are the specification's functions of its arguments

The host operations before the first region cut `x` into its halves and change four weight matrices'
format (the identity on extended reals); the first region leaves the updated left half and its
log-determinant column; the host operations before the second region change the other four matrices'
format; the second region, conditioned on the updated left half, leaves the updated right half and its
column; the last host operations put the halves side by side and add the two columns.
-/

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem

variable (m : (ℓ : Loc nD τ sig) → Buf (Elt Ideal) ℓ)

/-- The program's argument arrays on core `c`, as the specification's bundle. -/
def kargs (c : Dev nD) : Cert.Spec.Args :=
  ⟨m ((c.tc : Thread nD τ).loc main_arg0),
   m ((c.tc : Thread nD τ).loc main_arg1),
   m ((c.tc : Thread nD τ).loc main_arg2),
   m ((c.tc : Thread nD τ).loc main_arg3),
   m ((c.tc : Thread nD τ).loc main_arg4),
   m ((c.tc : Thread nD τ).loc main_arg5),
   m ((c.tc : Thread nD τ).loc main_arg6),
   m ((c.tc : Thread nD τ).loc main_arg7),
   m ((c.tc : Thread nD τ).loc main_arg8),
   m ((c.tc : Thread nD τ).loc main_arg9),
   m ((c.tc : Thread nD τ).loc main_arg10),
   m ((c.tc : Thread nD τ).loc main_arg11),
   m ((c.tc : Thread nD τ).loc main_arg12),
   m ((c.tc : Thread nD τ).loc main_arg13),
   m ((c.tc : Thread nD τ).loc main_arg14),
   m ((c.tc : Thread nD τ).loc main_arg15),
   m ((c.tc : Thread nD τ).loc main_arg16)⟩

/-! ## Two layout operations read at an index -/

/-- A one-column array cast to a vector reads the column's entry. -/
theorem col_apply {α : Type} (x : S8192x1.Idx → α) (r : Fin 8192) :
    shapeCast S8192 x shapeCasts_S8192x1_S8192 (ix1 r) = x (ix2 r (0 : Fin 1)) :=
  shapeCast_apply x _ _ _ (by
    rw [Shape.rowMajor_val_two, Shape.rowMajor_val_one]
    show r.val * 1 + 0 = r.val
    omega)

/-- Two halves side by side read the first below column 1024 and the second, 1024 columns to the left, from there on. -/
theorem sideBySide_eq (u v : S8192x1024.Idx → EReal) :
    concatenate S8192x2048 1 [⟨S8192x1024, u⟩, ⟨S8192x1024, v⟩] concatenates_S8192x1024_S8192x1024_S8192x2048_d1
      = fun i => if h : (i 1).val < 1024 then u (ix2 (i 0) ⟨(i 1).val, h⟩)
          else v (ix2 (i 0) ⟨(i 1).val - 1024, by have := (i 1).isLt; simp at this; omega⟩) := by
  funext i
  obtain ⟨r, e, rfl⟩ : ∃ (r : Fin 8192) (e : Fin 2048), i = ix2 r e := ⟨i 0, i 1, eq_ix2 i⟩
  by_cases h : e.val < 1024
  · refine Eq.trans ?_ (dif_pos h).symm
    exact concatenate_pair_apply_left (t := S8192x2048) (s₁ := S8192x1024) (s₂ := S8192x1024) (1 : Fin 2) _ _
      concatenates_S8192x1024_S8192x1024_S8192x2048_d1 (ix2 r e) rfl (ix2 r (⟨e.val, h⟩ : Fin 1024))
      (fun b => match b with | ⟨0, _⟩ => rfl | ⟨1, _⟩ => rfl)
  · have he : e.val - 1024 < 1024 := by have := e.isLt; omega
    refine Eq.trans ?_ (dif_neg h).symm
    exact concatenate_pair_apply_right (t := S8192x2048) (s₁ := S8192x1024) (s₂ := S8192x1024) (1 : Fin 2) _ _
      concatenates_S8192x1024_S8192x1024_S8192x2048_d1 (ix2 r e) rfl rfl (ix2 r (⟨e.val - 1024, he⟩ : Fin 1024))
      (fun b => match b with | ⟨0, _⟩ => fun _ => rfl | ⟨1, _⟩ => fun hb => absurd rfl hb)
      (by show (e.val - 1024) + 1024 = e.val; omega)

/-! ## The first region's operands: the halves of `x` and the first four weight matrices -/

/-- The first slice is the left half of `x`. -/
theorem in0_left (c : Dev nD) : VV1 m c main_v0 = Cert.Spec.xLeft (kargs m c) := by
  show StableHlo.after hostOps0 (Gen.V0 m c) (Proc.devRef .tc main_v0) = _
  after_results
  funext i
  exact extractStridedSlice_apply ![0, 0] _ slices_S8192x2048_S8192x1024_0_0 i
    (ix2 (i 0) (⟨(i 1).val, by have := idx2_lt1 i; omega⟩ : Fin 2048)) (fun a => match a with
      | ⟨0, _⟩ => by show (i 0).val = 0 + (i 0).val; omega
      | ⟨1, _⟩ => by show (i 1).val = 0 + (i 1).val; omega)

/-- The second slice is the right half of `x`. -/
theorem in0_right (c : Dev nD) : VV1 m c main_v1 = Cert.Spec.xRight (kargs m c) := by
  show StableHlo.after hostOps0 (Gen.V0 m c) (Proc.devRef .tc main_v1) = _
  after_results
  funext i
  exact extractStridedSlice_apply ![0, 1024] _ slices_S8192x2048_S8192x1024_0_1024 i
    (ix2 (i 0) (⟨(i 1).val + 1024, by have := idx2_lt1 i; omega⟩ : Fin 2048)) (fun a => match a with
      | ⟨0, _⟩ => by show (i 0).val = 0 + (i 0).val; omega
      | ⟨1, _⟩ => by show (i 1).val + 1024 = 1024 + (i 1).val; omega)

/-- A change of format is the identity on extended reals: the four matrices are the arguments. -/
theorem in0_sW1 (c : Dev nD) : VV1 m c main_v2 = (kargs m c).s1W1 := by
  show StableHlo.after hostOps0 (Gen.V0 m c) (Proc.devRef .tc main_v2) = _
  after_results
  rfl
theorem in0_sW2 (c : Dev nD) : VV1 m c main_v3 = (kargs m c).s1W2 := by
  show StableHlo.after hostOps0 (Gen.V0 m c) (Proc.devRef .tc main_v3) = _
  after_results
  rfl
theorem in0_tW1 (c : Dev nD) : VV1 m c main_v4 = (kargs m c).t1W1 := by
  show StableHlo.after hostOps0 (Gen.V0 m c) (Proc.devRef .tc main_v4) = _
  after_results
  rfl
theorem in0_tW2 (c : Dev nD) : VV1 m c main_v5 = (kargs m c).t1W2 := by
  show StableHlo.after hostOps0 (Gen.V0 m c) (Proc.devRef .tc main_v5) = _
  after_results
  rfl

/-- The biases are arguments no host operation writes. -/
theorem in0_sb1 (c : Dev nD) : VV1 m c main_arg2 = (kargs m c).s1b1 := Gen.V1_of m c main_arg2 (by decide)
theorem in0_sb2 (c : Dev nD) : VV1 m c main_arg4 = (kargs m c).s1b2 := Gen.V1_of m c main_arg4 (by decide)
theorem in0_tb1 (c : Dev nD) : VV1 m c main_arg6 = (kargs m c).t1b1 := Gen.V1_of m c main_arg6 (by decide)
theorem in0_tb2 (c : Dev nD) : VV1 m c main_arg8 = (kargs m c).t1b2 := Gen.V1_of m c main_arg8 (by decide)

/-! ## What the first region leaves -/

/-- The first region's result is the specification's `y1`. -/
theorem y1_eq (c : Dev nD) : Gen.V2 m (outsOf m) c main_v6_0 = Cert.Spec.y1 (kargs m c) := by
  rw [V2_v6_0, final0_10, in0_right, in0_left, in0_sW1, in0_sb1, in0_sW2, in0_sb2, in0_tW1, in0_tb1, in0_tW2, in0_tb2]
  rfl

/-- Its column is the first half-step's log-determinant of each row. -/
theorem ld1_eq (c : Dev nD) : Gen.V2 m (outsOf m) c main_v6_1
    = fun i => Cert.Spec.logdet (Cert.Spec.xRight (kargs m c)) (kargs m c).s1W1 (kargs m c).s1b1 (kargs m c).s1W2 (kargs m c).s1b2 (i 0) := by
  rw [V2_v6_1, final0_11, in0_right, in0_sW1, in0_sb1, in0_sW2, in0_sb2]

/-! ## The second region's operands: the first region's result, the right half, the other four matrices -/

/-- The second region is conditioned on the first region's result, -/
theorem in1_cond (c : Dev nD) : VV3 m c main_v6_0 = Cert.Spec.y1 (kargs m c) :=
  (Gen.V3_of m (outsA m) c main_v6_0 (by decide)).trans ((congrFun (V2_outs m c) _).symm.trans (y1_eq m c))

/-- and updates the right half of `x`, which nothing has written since it was cut. -/
theorem in1_right (c : Dev nD) : VV3 m c main_v1 = Cert.Spec.xRight (kargs m c) :=
  (Gen.V3_of m (outsA m) c main_v1 (by decide)).trans ((Gen.V2_of m (outsA m) c main_v1 (by decide)).trans (in0_right m c))

/-- An argument as the second stretch of host operations finds it. -/
theorem arg_at2 (c : Dev nD) (r : Ref sig .tc) (h1 : r ∉ ([main_v6_0, main_v6_1] : List (Ref sig .tc))) (h0 : r ∉ Gen.hostOps0_W) :
    Gen.V2 m (outsA m) c r = m ((c : Thread nD τ).loc r) :=
  (Gen.V2_of m (outsA m) c r h1).trans (Gen.V1_of m c r h0)

/-- A change of format is the identity on extended reals: the four matrices are the arguments. -/
theorem in1_sW1 (c : Dev nD) : VV3 m c main_v7 = (kargs m c).s2W1 := by
  show StableHlo.after hostOps1 (Gen.V2 m (outsA m) c) (Proc.devRef .tc main_v7) = _
  after_results
  rw [arg_at2 m c main_arg9 (by decide) (by decide)]
  rfl
theorem in1_sW2 (c : Dev nD) : VV3 m c main_v8 = (kargs m c).s2W2 := by
  show StableHlo.after hostOps1 (Gen.V2 m (outsA m) c) (Proc.devRef .tc main_v8) = _
  after_results
  rw [arg_at2 m c main_arg11 (by decide) (by decide)]
  rfl
theorem in1_tW1 (c : Dev nD) : VV3 m c main_v9 = (kargs m c).t2W1 := by
  show StableHlo.after hostOps1 (Gen.V2 m (outsA m) c) (Proc.devRef .tc main_v9) = _
  after_results
  rw [arg_at2 m c main_arg13 (by decide) (by decide)]
  rfl
theorem in1_tW2 (c : Dev nD) : VV3 m c main_v10 = (kargs m c).t2W2 := by
  show StableHlo.after hostOps1 (Gen.V2 m (outsA m) c) (Proc.devRef .tc main_v10) = _
  after_results
  rw [arg_at2 m c main_arg15 (by decide) (by decide)]
  rfl

/-- The biases are arguments nothing writes. -/
theorem in1_sb1 (c : Dev nD) : VV3 m c main_arg10 = (kargs m c).s2b1 :=
  (Gen.V3_of m (outsA m) c main_arg10 (by decide)).trans (arg_at2 m c main_arg10 (by decide) (by decide))
theorem in1_sb2 (c : Dev nD) : VV3 m c main_arg12 = (kargs m c).s2b2 :=
  (Gen.V3_of m (outsA m) c main_arg12 (by decide)).trans (arg_at2 m c main_arg12 (by decide) (by decide))
theorem in1_tb1 (c : Dev nD) : VV3 m c main_arg14 = (kargs m c).t2b1 :=
  (Gen.V3_of m (outsA m) c main_arg14 (by decide)).trans (arg_at2 m c main_arg14 (by decide) (by decide))
theorem in1_tb2 (c : Dev nD) : VV3 m c main_arg16 = (kargs m c).t2b2 :=
  (Gen.V3_of m (outsA m) c main_arg16 (by decide)).trans (arg_at2 m c main_arg16 (by decide) (by decide))

/-! ## What the second region leaves -/

/-- The second region's result is the specification's `y2`. -/
theorem y2_eq (c : Dev nD) : Gen.V4 m (outsOf m) c main_v11_0 = Cert.Spec.y2 (kargs m c) := by
  rw [V4_v11_0, final1_10, in1_cond, in1_right, in1_sW1, in1_sb1, in1_sW2, in1_sb2, in1_tW1, in1_tb1, in1_tW2, in1_tb2]
  rfl

/-- Its column is the second half-step's log-determinant of each row. -/
theorem ld2_eq (c : Dev nD) : Gen.V4 m (outsOf m) c main_v11_1
    = fun i => Cert.Spec.logdet (Cert.Spec.y1 (kargs m c)) (kargs m c).s2W1 (kargs m c).s2b1 (kargs m c).s2W2 (kargs m c).s2b2 (i 0) := by
  rw [V4_v11_1, final1_11, in1_cond, in1_sW1, in1_sb1, in1_sW2, in1_sb2]

/-- The first region's two results are still there after the second. -/
theorem y1_at4 (c : Dev nD) : Gen.V4 m (outsOf m) c main_v6_0 = Cert.Spec.y1 (kargs m c) :=
  (Gen.V4_of m (outsOf m) c main_v6_0 (by decide)).trans ((Gen.V3_of m (outsOf m) c main_v6_0 (by decide)).trans (y1_eq m c))
theorem ld1_at4 (c : Dev nD) : Gen.V4 m (outsOf m) c main_v6_1
    = fun i => Cert.Spec.logdet (Cert.Spec.xRight (kargs m c)) (kargs m c).s1W1 (kargs m c).s1b1 (kargs m c).s1W2 (kargs m c).s1b2 (i 0) :=
  (Gen.V4_of m (outsOf m) c main_v6_1 (by decide)).trans ((Gen.V3_of m (outsOf m) c main_v6_1 (by decide)).trans (ld1_eq m c))

/-! ## The two results -/

/-- The first result: the two updated halves side by side. -/
theorem result_y (c : Dev nD) : Gen.V5 m (outsOf m) c main_v12 = Cert.Spec.yOut (kargs m c) := by
  show StableHlo.after hostOps2 (Gen.V4 m (outsOf m) c) (Proc.devRef .tc main_v12) = _
  after_results
  rw [y1_at4, y2_eq]
  exact sideBySide_eq _ _

/-- The second result: each row's log-determinant. -/
theorem result_ld (c : Dev nD) : Gen.V5 m (outsOf m) c main_v15 = Cert.Spec.ldOut (kargs m c) := by
  show StableHlo.after hostOps2 (Gen.V4 m (outsOf m) c) (Proc.devRef .tc main_v15) = _
  after_results
  funext i
  obtain ⟨r, rfl⟩ : ∃ r : Fin 8192, i = ix1 r := ⟨i 0, eq_ix1 i⟩
  show (shapeCast S8192 (Gen.V4 m (outsOf m) c main_v6_1) shapeCasts_S8192x1_S8192 (ix1 r) : EReal)
      + shapeCast S8192 (Gen.V4 m (outsOf m) c main_v11_1) shapeCasts_S8192x1_S8192 (ix1 r) = _
  rw [col_apply, col_apply, ld1_at4, ld2_eq]
  rfl

end Cert.KernelIdeal.Hand

end
-- ==== Proof.RefMlp.lean ====
import proofs.«142033_j33071248180131_1_alg».proof.Proof.Spec
import proofs.«142033_j33071248180131_1_alg».proof.Proof.Gen.ReferenceIdeal.Read
import Idealize.ShloMosaic.Lib.StackMember
import Idealize.ShloMosaic.Lib.IdealHost

/-!
# The reference's perceptron and coupling half-step, read at one element

The reference spells a perceptron as a chain of whole-array operations: a matrix product, the bias laid
over the rows (the vector made one row, the row copied down), the rectifier against the splat zero word, a
second matrix product and its bias. Read at row `r` and column `d` the chain is the specification's
`mlp`: each matrix product is the sum over the contracted coordinate, each bias its entry at the column, the
splat its word's value. The log-scale (hyperbolic tangent, times the splat one word) and the half-step
(`self · exp s + t`) follow the same way. Everything is stated once, over arbitrary arrays of the
literal extents, and used for all four perceptrons and both half-steps.
-/

noncomputable section

namespace Cert.RefSide

open Cert.ReferenceIdeal Cert.ReferenceIdeal.Gen Idealize.ShloMosaic Idealize.ShloMosaic.ValueIdx

/-- An f32 array of extended reals at a shape. -/
abbrev A (s : Shape) : Type := FVec Ideal s .f32

/-! ## The operations that are not pointwise, at an index -/

/-- The first layer's matrix product at (r, j): the sum over the 1024 inputs. -/
theorem dotIn_apply (x : A S8192x1024) (W : A S1024x4096) (r : Fin 8192) (j : Fin 4096) :
    Host.dotGeneral dot_S8192x1024_S1024x4096_S8192x4096_1_0_0_1_n_n none x W (ix2 r j)
      = ∑ k : Fin 1024, x (ix2 r k) * W (ix2 k j) :=
  StackMember.dotGeneral_plain_apply none x W r j

/-- The second layer's matrix product at (r, d): the sum over the 4096 hidden units. -/
theorem dotOut_apply (h : A S8192x4096) (W : A S4096x1024) (r : Fin 8192) (d : Fin 1024) :
    Host.dotGeneral dot_S8192x4096_S4096x1024_S8192x1024_1_0_0_1_n_n none h W (ix2 r d)
      = ∑ j : Fin 4096, h (ix2 r j) * W (ix2 j d) :=
  StackMember.dotGeneral_plain_apply none h W r d

/-- The hidden layer's bias laid over the rows reads the bias at the column. -/
theorem biasHidden_apply (b : A S4096) (r : Fin 8192) (j : Fin 4096) :
    broadcastInDim S8192x4096 ![0, 1] bcast_S1x4096_S8192x4096_0_1 (broadcastInDim S1x4096 ![1] bcast_S4096_S1x4096_1 b) (ix2 r j)
      = b (ix1 j) := by
  rw [broadcastInDim_apply _ bcast_S1x4096_S8192x4096_0_1 _ (ix2 r j) (ix2 (0 : Fin 1) j) (fun a => match a with
    | ⟨0, _⟩ => by show 0 = if (1 : Nat) = 1 then 0 else r.val; rw [if_pos rfl]
    | ⟨1, _⟩ => by show j.val = if (4096 : Nat) = 1 then 0 else j.val; rw [if_neg (by decide)])]
  exact broadcastInDim_apply _ bcast_S4096_S1x4096_1 b _ (ix1 j) (fun a => match a with
    | ⟨0, _⟩ => by show j.val = if (4096 : Nat) = 1 then 0 else j.val; rw [if_neg (by decide)])

/-- The output layer's bias laid over the rows reads the bias at the column. -/
theorem biasOut_apply (b : A S1024) (r : Fin 8192) (d : Fin 1024) :
    broadcastInDim S8192x1024 ![0, 1] bcast_S1x1024_S8192x1024_0_1 (broadcastInDim S1x1024 ![1] bcast_S1024_S1x1024_1 b) (ix2 r d)
      = b (ix1 d) := by
  rw [broadcastInDim_apply _ bcast_S1x1024_S8192x1024_0_1 _ (ix2 r d) (ix2 (0 : Fin 1) d) (fun a => match a with
    | ⟨0, _⟩ => by show 0 = if (1 : Nat) = 1 then 0 else r.val; rw [if_pos rfl]
    | ⟨1, _⟩ => by show d.val = if (1024 : Nat) = 1 then 0 else d.val; rw [if_neg (by decide)])]
  exact broadcastInDim_apply _ bcast_S1024_S1x1024_1 b _ (ix1 d) (fun a => match a with
    | ⟨0, _⟩ => by show d.val = if (1024 : Nat) = 1 then 0 else d.val; rw [if_neg (by decide)])

/-- A float word splat over the hidden layer reads the word's value. -/
theorem splatHidden_apply (w : BitVec 32) (i : S8192x4096.Idx) :
    broadcastInDim S8192x4096 ![] bcast_S_S8192x4096 (constant (F := Ideal) S_ .f32 w) i = Ideal.ofBits .f32 w := by
  rw [broadcastInDim_scalar_apply, constant_apply]

/-- A float word splat over a half reads the word's value. -/
theorem splatHalf_apply (w : BitVec 32) (i : S8192x1024.Idx) :
    broadcastInDim S8192x1024 ![] bcast_S_S8192x1024 (constant (F := Ideal) S_ .f32 w) i = Ideal.ofBits .f32 w := by
  rw [broadcastInDim_scalar_apply, constant_apply]

/-! ## The perceptron -/

/-- The reference's perceptron as its chain of whole-array operations. -/
def mlpT (x : A S8192x1024) (W1 : A S1024x4096) (b1 : A S4096) (W2 : A S4096x1024) (b2 : A S1024) : A S8192x1024 :=
  addf (Host.dotGeneral dot_S8192x4096_S4096x1024_S8192x1024_1_0_0_1_n_n none (maximumf (addf (Host.dotGeneral dot_S8192x1024_S1024x4096_S8192x4096_1_0_0_1_n_n none x W1) (broadcastInDim S8192x4096 ![0, 1] bcast_S1x4096_S8192x4096_0_1 (broadcastInDim S1x4096 ![1] bcast_S4096_S1x4096_1 b1))) (broadcastInDim S8192x4096 ![] bcast_S_S8192x4096 (constant S_ .f32 0x00000000#32))) W2) (broadcastInDim S8192x1024 ![0, 1] bcast_S1x1024_S8192x1024_0_1 (broadcastInDim S1x1024 ![1] bcast_S1024_S1x1024_1 b2))

/-- At row `r`, output `d` the chain is the specification's perceptron. -/
theorem mlpT_apply (x : A S8192x1024) (W1 : A S1024x4096) (b1 : A S4096) (W2 : A S4096x1024) (b2 : A S1024)
    (r : Fin 8192) (d : Fin 1024) :
    mlpT x W1 b1 W2 b2 (ix2 r d) = Cert.Spec.mlp x W1 b1 W2 b2 r d := by
  unfold mlpT Cert.Spec.mlp Cert.Spec.hidden
  rw [addf_apply, dotOut_apply, biasOut_apply]
  refine congrArg (· + b2 (ix1 d)) (Finset.sum_congr rfl fun j _ => ?_)
  rw [maximumf_apply, addf_apply, dotIn_apply, biasHidden_apply, splatHidden_apply]

/-! ## The log-scale and the half-step -/

/-- The reference's log-scale: the hyperbolic tangent of the perceptron, times the splat one word. -/
def scaleT (x : A S8192x1024) (W1 : A S1024x4096) (b1 : A S4096) (W2 : A S4096x1024) (b2 : A S1024) : A S8192x1024 :=
  mulf (Host.tanh (mlpT x W1 b1 W2 b2)) (broadcastInDim S8192x1024 ![] bcast_S_S8192x1024 (constant S_ .f32 0x3F800000#32))

/-- At (r, d) it is the specification's log-scale. -/
theorem scaleT_apply (x : A S8192x1024) (W1 : A S1024x4096) (b1 : A S4096) (W2 : A S4096x1024) (b2 : A S1024)
    (r : Fin 8192) (d : Fin 1024) :
    scaleT x W1 b1 W2 b2 (ix2 r d) = Cert.Spec.scale x W1 b1 W2 b2 r d := by
  unfold scaleT Cert.Spec.scale
  rw [mulf_apply, splatHalf_apply, ← mlpT_apply]
  rfl

/-- The reference's half-step: the updated half `self · exp s + t`, the log-scale and the shift two perceptrons of
    the conditioning half. -/
def coupledT (cond self : A S8192x1024)
    (sW1 : A S1024x4096) (sb1 : A S4096) (sW2 : A S4096x1024) (sb2 : A S1024)
    (tW1 : A S1024x4096) (tb1 : A S4096) (tW2 : A S4096x1024) (tb2 : A S1024) : A S8192x1024 :=
  addf (mulf self (Host.exp (scaleT cond sW1 sb1 sW2 sb2))) (mlpT cond tW1 tb1 tW2 tb2)

/-- At (r, d) it is the specification's updated half. -/
theorem coupledT_apply (cond self : A S8192x1024)
    (sW1 : A S1024x4096) (sb1 : A S4096) (sW2 : A S4096x1024) (sb2 : A S1024)
    (tW1 : A S1024x4096) (tb1 : A S4096) (tW2 : A S4096x1024) (tb2 : A S1024) (r : Fin 8192) (d : Fin 1024) :
    coupledT cond self sW1 sb1 sW2 sb2 tW1 tb1 tW2 tb2 (ix2 r d)
      = Cert.Spec.coupled cond self sW1 sb1 sW2 sb2 tW1 tb1 tW2 tb2 r d := by
  unfold coupledT Cert.Spec.coupled
  rw [addf_apply, mulf_apply, mlpT_apply, ← scaleT_apply]
  rfl

end Cert.RefSide

end
-- ==== Proof.RefSide.lean ====
import proofs.«142033_j33071248180131_1_alg».proof.Proof.RefMlp

/-!
# The reference program's run ends at the specification

The reference's two results, read one element at a time: the first is the two updated halves side by
side (a concatenation along the columns: a column below 1024 reads the first half-step's result, the
others the second's, 1024 columns to the left), the second the sum of the two half-steps' row sums of
the log-scale, each a host sum from the zero word. The halves of `x` are the two column slices; the
second half-step is conditioned on the first's result.
-/

noncomputable section

namespace Cert.RefSide

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- The reference program's argument arrays on core `c`, as the specification's bundle. -/
def args (m : (ℓ : Loc nD τ sig) → Buf (Elt Ideal) ℓ) (c : Dev nD) : Cert.Spec.Args :=
  ⟨m ((c.tc : Thread nD τ).loc main_arg0),
   m ((c.tc : Thread nD τ).loc main_arg1),
   m ((c.tc : Thread nD τ).loc main_arg2),
   m ((c.tc : Thread nD τ).loc main_arg3),
   m ((c.tc : Thread nD τ).loc main_arg4),
   m ((c.tc : Thread nD τ).loc main_arg5),
   m ((c.tc : Thread nD τ).loc main_arg6),
   m ((c.tc : Thread nD τ).loc main_arg7),
   m ((c.tc : Thread nD τ).loc main_arg8),
   m ((c.tc : Thread nD τ).loc main_arg9),
   m ((c.tc : Thread nD τ).loc main_arg10),
   m ((c.tc : Thread nD τ).loc main_arg11),
   m ((c.tc : Thread nD τ).loc main_arg12),
   m ((c.tc : Thread nD τ).loc main_arg13),
   m ((c.tc : Thread nD τ).loc main_arg14),
   m ((c.tc : Thread nD τ).loc main_arg15),
   m ((c.tc : Thread nD τ).loc main_arg16)⟩

/-! ## The stages as the generic chains -/

/-- The first half-step's log-scale is the log-scale chain of the right slice. -/
theorem stage_scale1 (x0 : A S8192x2048) (x1 : A S1024x4096) (x2 : A S4096) (x3 : A S4096x1024) (x4 : A S1024) :
    val_main_v14 (F := Ideal) x0 x1 x2 x3 x4 = scaleT (val_main_v1 (F := Ideal) x0) x1 x2 x3 x4 := rfl

/-- The first half-step's result is the half-step chain: the left slice updated, conditioned on the right slice. -/
theorem stage_half1 (x0 : A S8192x2048) (x1 : A S1024x4096) (x2 : A S4096) (x3 : A S4096x1024) (x4 : A S1024) (x5 : A S1024x4096) (x6 : A S4096) (x7 : A S4096x1024) (x8 : A S1024) :
    val_main_v27 (F := Ideal) x0 x1 x2 x3 x4 x5 x6 x7 x8
      = coupledT (val_main_v1 (F := Ideal) x0) (val_main_v0 (F := Ideal) x0) x1 x2 x3 x4 x5 x6 x7 x8 := rfl

/-- The second half-step's log-scale is the log-scale chain of the first half-step's result. -/
theorem stage_scale2 (x0 : A S8192x2048) (x1 : A S1024x4096) (x2 : A S4096) (x3 : A S4096x1024) (x4 : A S1024) (x5 : A S1024x4096) (x6 : A S4096) (x7 : A S4096x1024) (x8 : A S1024) (x9 : A S1024x4096) (x10 : A S4096) (x11 : A S4096x1024) (x12 : A S1024) :
    val_main_v40 (F := Ideal) x0 x1 x2 x3 x4 x5 x6 x7 x8 x9 x10 x11 x12
      = scaleT (val_main_v27 (F := Ideal) x0 x1 x2 x3 x4 x5 x6 x7 x8) x9 x10 x11 x12 := rfl

/-- The second half-step's result is the half-step chain: the right slice updated, conditioned on the first result. -/
theorem stage_half2 (x0 : A S8192x2048) (x1 : A S1024x4096) (x2 : A S4096) (x3 : A S4096x1024) (x4 : A S1024) (x5 : A S1024x4096) (x6 : A S4096) (x7 : A S4096x1024) (x8 : A S1024) (x9 : A S1024x4096) (x10 : A S4096) (x11 : A S4096x1024) (x12 : A S1024) (x13 : A S1024x4096) (x14 : A S4096) (x15 : A S4096x1024) (x16 : A S1024) :
    val_main_v53 (F := Ideal) x0 x1 x2 x3 x4 x5 x6 x7 x8 x9 x10 x11 x12 x13 x14 x15 x16
      = coupledT (val_main_v27 (F := Ideal) x0 x1 x2 x3 x4 x5 x6 x7 x8) (val_main_v1 (F := Ideal) x0) x9 x10 x11 x12 x13 x14 x15 x16 := rfl

/-! ## The slices and the two half-steps, as the specification's arrays -/

/-- The first slice is the left half of `x`. -/
theorem left_eq (a : Cert.Spec.Args) : val_main_v0 (F := Ideal) a.x = Cert.Spec.xLeft a := by
  funext i
  rw [val_main_v0_apply]
  unfold Cert.Spec.xLeft
  exact congrArg a.x (funext fun b => Fin.ext (by match b with | ⟨0, _⟩ => rfl | ⟨1, _⟩ => rfl))

/-- The second slice is the right half of `x`. -/
theorem right_eq (a : Cert.Spec.Args) : val_main_v1 (F := Ideal) a.x = Cert.Spec.xRight a := by
  funext i
  rw [val_main_v1_apply]
  unfold Cert.Spec.xRight
  exact congrArg a.x (funext fun b => Fin.ext (by
    match b with
    | ⟨0, _⟩ => rfl
    | ⟨1, _⟩ => show 1024 + (i 1).val = (i 1).val + 1024; omega))

/-- The first half-step's result is the specification's `y1`. -/
theorem half1_eq (a : Cert.Spec.Args) :
    val_main_v27 (F := Ideal) a.x a.s1W1 a.s1b1 a.s1W2 a.s1b2 a.t1W1 a.t1b1 a.t1W2 a.t1b2 = Cert.Spec.y1 a := by
  funext i
  obtain ⟨r, d, rfl⟩ : ∃ (r : Fin 8192) (d : Fin 1024), i = ix2 r d := ⟨i 0, i 1, eq_ix2 i⟩
  rw [stage_half1, coupledT_apply, right_eq, left_eq]
  rfl

/-- The second half-step's result is the specification's `y2`. -/
theorem half2_eq (a : Cert.Spec.Args) :
    val_main_v53 (F := Ideal) a.x a.s1W1 a.s1b1 a.s1W2 a.s1b2 a.t1W1 a.t1b1 a.t1W2 a.t1b2 a.s2W1 a.s2b1 a.s2W2 a.s2b2 a.t2W1 a.t2b1 a.t2W2 a.t2b2 = Cert.Spec.y2 a := by
  funext i
  obtain ⟨r, d, rfl⟩ : ∃ (r : Fin 8192) (d : Fin 1024), i = ix2 r d := ⟨i 0, i 1, eq_ix2 i⟩
  rw [stage_half2, coupledT_apply, half1_eq, right_eq]
  rfl

/-! ## The two results -/

/-- The first result: the two updated halves side by side. -/
theorem out_eq (a : Cert.Spec.Args) :
    val_main_v54 (F := Ideal) a.x a.s1W1 a.s1b1 a.s1W2 a.s1b2 a.t1W1 a.t1b1 a.t1W2 a.t1b2 a.s2W1 a.s2b1 a.s2W2 a.s2b2 a.t2W1 a.t2b1 a.t2W2 a.t2b2 = Cert.Spec.yOut a := by
  funext i
  obtain ⟨r, e, rfl⟩ : ∃ (r : Fin 8192) (e : Fin 2048), i = ix2 r e := ⟨i 0, i 1, eq_ix2 i⟩
  unfold val_main_v54
  rw [half1_eq, half2_eq]
  by_cases h : e.val < 1024
  · have hy : Cert.Spec.yOut a (ix2 r e) = Cert.Spec.y1 a (ix2 r (⟨e.val, h⟩ : Fin 1024)) := by
      unfold Cert.Spec.yOut; exact dif_pos h
    rw [hy]
    exact concatenate_pair_apply_left (t := S8192x2048) (s₁ := S8192x1024) (s₂ := S8192x1024) (1 : Fin 2) _ _
      concatenates_S8192x1024_S8192x1024_S8192x2048_d1 (ix2 r e) rfl (ix2 r (⟨e.val, h⟩ : Fin 1024))
      (fun b => match b with | ⟨0, _⟩ => rfl | ⟨1, _⟩ => rfl)
  · have he : e.val - 1024 < 1024 := by have := e.isLt; omega
    have hy : Cert.Spec.yOut a (ix2 r e) = Cert.Spec.y2 a (ix2 r (⟨e.val - 1024, he⟩ : Fin 1024)) := by
      unfold Cert.Spec.yOut; exact dif_neg h
    rw [hy]
    exact concatenate_pair_apply_right (t := S8192x2048) (s₁ := S8192x1024) (s₂ := S8192x1024) (1 : Fin 2) _ _
      concatenates_S8192x1024_S8192x1024_S8192x2048_d1 (ix2 r e) rfl rfl (ix2 r (⟨e.val - 1024, he⟩ : Fin 1024))
      (fun b => match b with | ⟨0, _⟩ => fun _ => rfl | ⟨1, _⟩ => fun hb => absurd rfl hb)
      (by show (e.val - 1024) + 1024 = e.val; omega)

/-- The second result: each row's two log-determinants summed. -/
theorem logdet_eq (a : Cert.Spec.Args) :
    val_main_v57 (F := Ideal) a.x a.s1W1 a.s1b1 a.s1W2 a.s1b2 a.t1W1 a.t1b1 a.t1W2 a.t1b2 a.s2W1 a.s2b1 a.s2W2 a.s2b2 = Cert.Spec.ldOut a := by
  funext i
  obtain ⟨r, rfl⟩ : ∃ r : Fin 8192, i = ix1 r := ⟨i 0, eq_ix1 i⟩
  rw [val_main_v57_apply, val_main_v55_apply, val_main_v56_apply, val_main_cst_5_apply, val_main_cst_6_apply]
  simp only [Ideal.addf_def, Ideal.ofBits_def, Ideal.ofBits_zero_f32, zero_add]
  unfold Cert.Spec.ldOut Cert.Spec.logdet
  have e1 : ∀ k : Fin 1024, idx_main_v55 (ix1 r) k = ix2 r k := fun k =>
    funext fun b => Fin.ext (by match b with | ⟨0, _⟩ => rfl | ⟨1, _⟩ => rfl)
  have e2 : ∀ k : Fin 1024, idx_main_v56 (ix1 r) k = ix2 r k := fun k =>
    funext fun b => Fin.ext (by match b with | ⟨0, _⟩ => rfl | ⟨1, _⟩ => rfl)
  refine congrArg₂ (· + ·) (Finset.sum_congr rfl fun k _ => ?_) (Finset.sum_congr rfl fun k _ => ?_)
  · rw [e1, stage_scale1, scaleT_apply, right_eq]
  · rw [e2, stage_scale2, scaleT_apply, half1_eq]

/-! ## The run -/

/-- Every weakly fair execution of the reference program ends with its two results at the specification's
    functions of the argument arrays, the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v54) = Cert.Spec.yOut (args m c)
      ∧ r.2.mem ((c.tc : Thread nD τ).loc main_v57) = Cert.Spec.ldOut (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c =>
      ⟨(h c).1.trans ((val_main_v54_eq m c).trans (out_eq (args m c))),
       (h c).2.1.trans ((val_main_v57_eq _ _ _ _ _ _ _ _ _ _ _ _ _).trans (logdet_eq (args m c))),
       (h c).2.2⟩)
    (Cert.ReferenceIdeal.Value.run (F := Ideal) m ρ)

end Cert.RefSide

end
-- ==== Proof.lean ====
import proofs.«142033_j33071248180131_1_alg».proof.Defs
import proofs.«142033_j33071248180131_1_alg».proof.Proof.Gen.Kernel
import proofs.«142033_j33071248180131_1_alg».proof.Proof.Gen.KernelIdeal
import proofs.«142033_j33071248180131_1_alg».proof.Proof.Gen.ReferenceIdeal
import proofs.«142033_j33071248180131_1_alg».proof.Proof.Gen.Pre_finite_inputs
import proofs.«142033_j33071248180131_1_alg».proof.Proof.K.Launch
import proofs.«142033_j33071248180131_1_alg».proof.Proof.KI.Launch
import proofs.«142033_j33071248180131_1_alg».proof.Proof.KI.Results
import proofs.«142033_j33071248180131_1_alg».proof.Proof.RefSide
import Idealize.ShloMosaic.Adequacy
import Idealize.ShloMosaic.Init

/-!
# An affine coupling layer in two tiled half-steps, against its plain reference

Both programs compute, for each half-step, `self · exp(tanh(MLPₛ(cond)) · 1) + MLPₜ(cond)` and the row
sums of the log-scale, the two-layer perceptrons having a rectifier between the layers. The kernel
accumulates each perceptron's second-layer product over eight tiles of 512 hidden units in scratch and
finishes a row block at the eighth tile; the reference contracts all 4096 hidden units at once. Over the
extended reals the two are equal because addition is commutative and associative and the tiles partition
the hidden units; no finiteness of the inputs is used.

The three frames: each kernel program's from its run over the two regions' records (every buffer that
outlives the regions named at the end; the arguments are never written); the reference's from its run.
The idealization rewrote nothing, so there is nothing to preserve. The equivalence: both runs end with
their results at the specification's functions of the argument arrays, which agree.
-/

noncomputable section

namespace Cert.Proof

open Idealize.ShloMosaic Idealize.ShloMosaic.TcCoe Idealize.SL.Sem

theorem frame_p : Cert.frame_Kernel := fun m ρ _ => Cert.Kernel.Hand.frame (F := Bits) m ρ

theorem frame_pi : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2.2) (Cert.RefSide.run_spec m ρ)

open Cert.KernelIdeal Cert.KernelIdeal.Hand in
/-- From memories agreeing on the arguments both programs end with the same two results: the
    specification's updated halves side by side and its row log-determinants. -/
theorem algebraic : Cert.algebraic_KernelIdeal_ReferenceIdeal := by
  intro m ρ m' ρ' _ hagree
  have hargs : ∀ c : Dev Cert.KernelIdeal.nD, Cert.RefSide.args m' c = kargs m c := fun c => by
    unfold Cert.RefSide.args kargs
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2]
  refine ⟨fun c => Gen.V5 m (outsOf m) c main_v12, fun c => Gen.V5 m (outsOf m) c main_v15, ?_, ?_⟩
  · exact (θ_run Cert.KernelIdeal.defs _ _).mono (fun r h c =>
      ⟨h c _ (mem_uc main_v12 (by decide)), h c _ (mem_uc main_v15 (by decide)),
       (h c _ (mem_uc main_arg0 (by decide))).trans (Gen.V5_main_arg0 m (outsOf m) c),
       (h c _ (mem_uc main_arg1 (by decide))).trans (Gen.V5_main_arg1 m (outsOf m) c),
       (h c _ (mem_uc main_arg2 (by decide))).trans (Gen.V5_main_arg2 m (outsOf m) c),
       (h c _ (mem_uc main_arg3 (by decide))).trans (Gen.V5_main_arg3 m (outsOf m) c),
       (h c _ (mem_uc main_arg4 (by decide))).trans (Gen.V5_main_arg4 m (outsOf m) c),
       (h c _ (mem_uc main_arg5 (by decide))).trans (Gen.V5_main_arg5 m (outsOf m) c),
       (h c _ (mem_uc main_arg6 (by decide))).trans (Gen.V5_main_arg6 m (outsOf m) c),
       (h c _ (mem_uc main_arg7 (by decide))).trans (Gen.V5_main_arg7 m (outsOf m) c),
       (h c _ (mem_uc main_arg8 (by decide))).trans (Gen.V5_main_arg8 m (outsOf m) c),
       (h c _ (mem_uc main_arg9 (by decide))).trans (Gen.V5_main_arg9 m (outsOf m) c),
       (h c _ (mem_uc main_arg10 (by decide))).trans (Gen.V5_main_arg10 m (outsOf m) c),
       (h c _ (mem_uc main_arg11 (by decide))).trans (Gen.V5_main_arg11 m (outsOf m) c),
       (h c _ (mem_uc main_arg12 (by decide))).trans (Gen.V5_main_arg12 m (outsOf m) c),
       (h c _ (mem_uc main_arg13 (by decide))).trans (Gen.V5_main_arg13 m (outsOf m) c),
       (h c _ (mem_uc main_arg14 (by decide))).trans (Gen.V5_main_arg14 m (outsOf m) c),
       (h c _ (mem_uc main_arg15 (by decide))).trans (Gen.V5_main_arg15 m (outsOf m) c),
       (h c _ (mem_uc main_arg16 (by decide))).trans (Gen.V5_main_arg16 m (outsOf m) c)⟩)
      (run_main (F := Ideal) m ρ)
  · exact (θ_run Cert.ReferenceIdeal.defs _ _).mono (fun r h c =>
      ⟨(h c).1.trans ((congrArg Cert.Spec.yOut (hargs c)).trans (result_y m c).symm),
       (h c).2.1.trans ((congrArg Cert.Spec.ldOut (hargs c)).trans (result_ld m c).symm),
       (h c).2.2⟩)
      (Cert.RefSide.run_spec m' ρ')

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
